-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S320000 : Shape := ⟨1, ![320000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S320000 : S_.BroadcastsInDim S320000 (![] : Fin 0 → Fin S320000.rank)
  reducesTo_S320000_S_d0 : S320000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg7 : IVec S320000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S320000 32 := broadcastInDim S320000 ![] bcast_S_S320000 main_c_8
  let main_v25 : IVec S320000 1 := cmpi .sge main_arg7 main_v24
  let main_c_9 : IVec S_ 32 := constantI S_ 32 50000#32
  let main_v26 : IVec S320000 32 := broadcastInDim S320000 ![] bcast_S_S320000 main_c_9
  let main_v27 : IVec S320000 1 := cmpi .slt main_arg7 main_v26
  let main_v28 : IVec S320000 1 := andi main_v25 main_v27
  let main_c_10 : IVec S_ 1 := constantI S_ 1 1#1
  let main_v29 : IVec S_ 1 := (fun x v => Host.reduce IntOp.andi x v reducesTo_S320000_S_d0 h_S_) main_v28 main_c_10
  let main_v30 : IVec S_ 1 := andi main_v23 main_v29
  main_v30

def fn {F : FTy → Type} [FloatOps F] (main_arg0 : FVec F S100000x128 .f32) (main_arg1 : FVec F S1600000 .f32) (main_arg2 : FVec F S320000 .f32) (main_arg3 : FVec F S128x128 .f32) (main_arg4 : FVec F S128 .f32) (main_arg5 : IVec S1600000 32) (main_arg6 : IVec S1600000 32) (main_arg7 : IVec S320000 32) (main_arg8 : IVec S320000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S320000 .f32 := Host.absf main_arg2
  let main_cst_2 : FVec F S_ .f32 := constant S_ .f32 0x7F800000#32
  let main_v10 : FVec F S320000 .f32 := broadcastInDim S320000 ![] bcast_S_S320000 main_cst_2
  let main_v11 : IVec S320000 1 := cmpf .olt main_v9 main_v10
  let main_c_3 : IVec S_ 1 := constantI S_ 1 1#1
  let main_v12 : IVec S_ 1 := (fun x v => Host.reduce IntOp.andi x v reducesTo_S320000_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg7 main_v13 main_v16
-- ==== Kernel.lean ====
abbrev S100000x128 : Shape := ⟨2, ![100000, 128]⟩
abbrev S1600000 : Shape := ⟨1, ![1600000]⟩
abbrev S320000 : Shape := ⟨1, ![320000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1605632x128 : Shape := ⟨2, ![1605632, 128]⟩
abbrev S1605632 : Shape := ⟨1, ![1605632]⟩
abbrev S50176x128 : Shape := ⟨2, ![50176, 128]⟩
abbrev S8192x128 : Shape := ⟨2, ![8192, 128]⟩
abbrev S8192 : Shape := ⟨1, ![8192]⟩
abbrev S256x128 : Shape := ⟨2, ![256, 128]⟩
abbrev S8192x256 : Shape := ⟨2, ![8192, 256]⟩
abbrev S8192x1 : Shape := ⟨2, ![8192, 1]⟩
abbrev S320000x1 : Shape := ⟨2, ![320000, 1]⟩
abbrev S320000x128 : Shape := ⟨2, ![320000, 128]⟩
abbrev S327680x128 : Shape := ⟨2, ![327680, 128]⟩
abbrev S327680 : Shape := ⟨1, ![327680]⟩
abbrev S10240x128 : Shape := ⟨2, ![10240, 128]⟩
abbrev S10000x128 : Shape := ⟨2, ![10000, 128]⟩
abbrev S1x128 : Shape := ⟨2, ![1, 128]⟩

abbrev nBuf : Space → Nat
  | .hbm => 51
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S320000, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S320000, .i32⟩
  | .hbm, ⟨8, _⟩ => ⟨S320000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S1600000x128, .bf16⟩
  | .hbm, ⟨22, _⟩ => ⟨S_, .i32⟩
  | .hbm, ⟨23, _⟩ => ⟨S_, .bf16⟩
  | .hbm, ⟨24, _⟩ => ⟨S1605632x128, .bf16⟩
  | .hbm, ⟨25, _⟩ => ⟨S_, .i32⟩
  | .hbm, ⟨26, _⟩ => ⟨S_, .i32⟩
  | .hbm, ⟨27, _⟩ => ⟨S1605632, .i32⟩
  | .hbm, ⟨28, _⟩ => ⟨S50176x128, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x128, .f32⟩
  | .hbm, ⟨38, _⟩ => ⟨S320000x1, .f32⟩
  | .hbm, ⟨39, _⟩ => ⟨S320000x128, .f32⟩
  | .hbm, ⟨40, _⟩ => ⟨S320000x128, .f32⟩
  | .hbm, ⟨41, _⟩ => ⟨S320000x128, .bf16⟩
  | .hbm, ⟨42, _⟩ => ⟨S_, .i32⟩
  | .hbm, ⟨43, _⟩ => ⟨S_, .bf16⟩
  | .hbm, ⟨44, _⟩ => ⟨S327680x128, .bf16⟩
  | .hbm, ⟨45, _⟩ => ⟨S_, .i32⟩
  | .hbm, ⟨46, _⟩ => ⟨S_, .i32⟩
  | .hbm, ⟨47, _⟩ => ⟨S327680, .i32⟩
  | .hbm, ⟨48, _⟩ => ⟨S10240x128, .f32⟩
  | .hbm, ⟨49, _⟩ => ⟨S10000x128, .f32⟩
  | .hbm, ⟨50, _⟩ => ⟨S10000x128, .f32⟩
  | .local _ .vmem, ⟨0, _⟩ => ⟨S8192x128, .bf16⟩
  | .local _ .vmem, ⟨1, _⟩ => ⟨S8192x128, .bf16⟩
  | .local _ .vmem, ⟨2, _⟩ => ⟨S8192, .i32⟩
  | .local _ .vmem, ⟨3, _⟩ => ⟨S8192, .i32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S8192x128, .bf16⟩
  | .local _ .vmem, ⟨8, _⟩ => ⟨S8192x128, .bf16⟩
  | .local _ .vmem, ⟨9, _⟩ => ⟨S8192, .i32⟩
  | .local _ .vmem, ⟨10, _⟩ => ⟨S8192, .i32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S10000x128, .f32⟩
  | .local _ .vmem, ⟨15, _⟩ => ⟨S128x128, .f32⟩
  | .local _ .vmem, ⟨16, _⟩ => ⟨S128, .f32⟩
  | .local _ .vmem, ⟨17, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_call0_v0 : Ref sig .tc := ⟨.hbm, 23, rfl⟩
abbrev main_v11 : Ref sig .tc := ⟨.hbm, 24, rfl⟩
abbrev main_c_2 : Ref sig .tc := ⟨.hbm, 25, rfl⟩
abbrev main_call1_v0 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_call2_v0 : Ref sig .tc := ⟨.hbm, 43, rfl⟩
abbrev main_v25 : Ref sig .tc := ⟨.hbm, 44, rfl⟩
abbrev main_c_6 : Ref sig .tc := ⟨.hbm, 45, rfl⟩
abbrev main_call3_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨2, ![196, 196], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![40, 40], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8192x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S8192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10000x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bitsLt_bf16_f32 : FTy.bits .bf16 < FTy.bits .f32
  pads_S1600000x128_S1605632x128_056320_000 : S1600000x128.Pads (![0, 0] : Fin 2 → Nat) ![5632, 0] ![0, 0] S1605632x128
  h_S_ : 0 < S_.numel
  pads_S1600000_S1605632_056320 : S1600000.Pads (![0] : Fin 1 → Nat) ![5632] ![0] S1605632
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192_S8192_0 : ∀ a, (![0] : Fin 1 → Nat) a + S8192.size a ≤ S8192.size a
  h_S8192 : 0 < S8192.numel
  shapeCasts_S8192_S8192 : S8192.ShapeCasts S8192
  iota_S8192x256_d1_w32 : S8192x256.Iotas .tc 32 [1]
  shapeCasts_S8192_S8192x1 : S8192.ShapeCasts S8192x1
  broadcasts_S8192x1_S8192x256 : S8192x1.Broadcasts S8192x256
  natLt_1_32 : 1 < 32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x128_0_1 : S320000x1.BroadcastsInDim S320000x128 (![0, 1] : Fin 2 → Fin S320000x128.rank)
  pads_S320000x128_S327680x128_076800_000 : S320000x128.Pads (![0, 0] : Fin 2 → Nat) ![7680, 0] ![0, 0] S327680x128
  pads_S320000_S327680_076800 : S320000.Pads (![0] : Fin 1 → Nat) ![7680] ![0] S327680
  slices_S10240x128_S10000x128_0_0 : S10240x128.Slices ![0, 0] S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  gather_S100000x128_S1600000x1_S1600000x128_1_0_n_n_0_1_1128_wf : GatherDims.WF S100000x128 S1600000x1 S1600000x128 [1] [0] [] [0] [] 1 ![1, 128]
  dot_S8192x256_S8192x128_S256x128_0_0_1_1_n_n_wf : DotDims.WF S8192x256 S8192x128 S256x128 [0] [0] [1] [1] [] []
  gather_S50176x128_S320000x1_S320000x128_1_0_n_n_0_1_1128_wf : GatherDims.WF S50176x128 S320000x1 S320000x128 [1] [0] [] [0] [] 1 ![1, 128]
  dot_S10000x128_S128x128_S10000x128_1_1_0_0_n_n_wf : DotDims.WF S10000x128 S128x128 S10000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1605632x128.size a
  hwx0_0 : ∀ i : grid0.Coords, EltTy.bits .bf16 = 32 ∨ (Rect.block (s := S1605632x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1605632.size a
  hwx0_1 : ∀ i : grid0.Coords, EltTy.bits .i32 = 32 ∨ (Rect.block (s := S1605632) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S50176x128.size a
  hwx0_2 : ∀ i : grid0.Coords, EltTy.bits .f32 = 32 ∨ (Rect.block (s := S50176x128) S256x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S327680x128.size a
  hwx1_0 : ∀ i : grid1.Coords, EltTy.bits .bf16 = 32 ∨ (Rect.block (s := S327680x128) S8192x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S327680.size a
  hwx1_1 : ∀ i : grid1.Coords, EltTy.bits .i32 = 32 ∨ (Rect.block (s := S327680) S8192.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S10240x128.size a
  hwx1_2 : ∀ i : grid1.Coords, EltTy.bits .f32 = 32 ∨ (Rect.block (s := S10240x128) S256x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S10000x128.size a
  hwx2_0 : ∀ i : grid2.Coords, EltTy.bits .f32 = 32 ∨ (Rect.block (s := S10000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S10000x128.size a
  hwx2_3 : ∀ i : grid2.Coords, EltTy.bits .f32 = 32 ∨ (Rect.block (s := S10000x128) S10000x128.size (cc2_transform_3 i) (hinb2_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8192x256_S8192x128_S256x128_0_0_1_1_n_n : DotDims S8192x256 S8192x128 S256x128 where
  lhsContracting := [0]
  rhsContracting := [0]
  lhsNonContracting := [1]
  rhsNonContracting := [1]
  lhsBatch := []
  rhsBatch := []
  wf := dot_S8192x256_S8192x128_S256x128_0_0_1_1_n_n_wf
def gather_S50176x128_S320000x1_S320000x128_1_0_n_n_0_1_1128 : GatherDims S50176x128 S320000x1 S320000x128 where
  offsetDims := [1]
  collapsedSliceDims := [0]
  operandBatchingDims := []
  startIndicesBatchingDims := []
  startIndexMap := [0]
  indexVectorDim := 1
  sliceSizes := ![1, 128]
  wf := gather_S50176x128_S320000x1_S320000x128_1_0_n_n_0_1_1128_wf
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf

abbrev win0_0 : Pipeline.Window sig grid0 :=
  Pipeline.Window.ofSpec (Memref.whole main_v11) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v28) S10000x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S10000x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S320000 : Shape := ⟨1, ![320000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S50000x128 : Shape := ⟨2, ![50000, 128]⟩
abbrev S320000x1 : Shape := ⟨2, ![320000, 1]⟩
abbrev S320000x128 : Shape := ⟨2, ![320000, 128]⟩
abbrev S10000x128 : Shape := ⟨2, ![10000, 128]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S320000, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S320000, .i32⟩
  | .hbm, ⟨8, _⟩ => ⟨S320000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S50000x128, .f32⟩
  | .hbm, ⟨23, _⟩ => ⟨S1600000x1, .i32⟩
  | .hbm, ⟨24, _⟩ => ⟨S50000x128, .f32⟩
  | .hbm, ⟨25, _⟩ => ⟨S_, .i32⟩
  | .hbm, ⟨26, _⟩ => ⟨S320000, .i32⟩
  | .hbm, ⟨27, _⟩ => ⟨S320000, .i1⟩
  | .hbm, ⟨28, _⟩ => ⟨S_, .i32⟩
  | .hbm, ⟨29, _⟩ => ⟨S320000, .i32⟩
  | .hbm, ⟨30, _⟩ => ⟨S320000, .i32⟩
  | .hbm, ⟨31, _⟩ => ⟨S320000, .i32⟩
  | .hbm, ⟨32, _⟩ => ⟨S320000x1, .i32⟩
  | .hbm, ⟨33, _⟩ => ⟨S320000x128, .f32⟩
  | .hbm, ⟨34, _⟩ => ⟨S320000x1, .f32⟩
  | .hbm, ⟨35, _⟩ => ⟨S320000x128, .f32⟩
  | .hbm, ⟨36, _⟩ => ⟨S320000x128, .f32⟩
  | .hbm, ⟨37, _⟩ => ⟨S_, .f32⟩
  | .hbm, ⟨38, _⟩ => ⟨S10000x128, .f32⟩
  | .hbm, ⟨39, _⟩ => ⟨S320000x1, .i32⟩
  | .hbm, ⟨40, _⟩ => ⟨S10000x128, .f32⟩
  | .hbm, ⟨41, _⟩ => ⟨S128x128, .f32⟩
  | .hbm, ⟨42, _⟩ => ⟨S10000x128, .f32⟩
  | .hbm, ⟨43, _⟩ => ⟨S1x128, .f32⟩
  | .hbm, ⟨44, _⟩ => ⟨S10000x128, .f32⟩
  | .hbm, ⟨45, _⟩ => ⟨S10000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x128_0_1 : S320000x1.BroadcastsInDim S320000x128 (![0, 1] : Fin 2 → Fin S320000x128.rank)
  bcast_S_S10000x128 : S_.BroadcastsInDim S10000x128 (![] : Fin 0 → Fin S10000x128.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x128_S320000x1_S320000x128_1_0_n_n_0_1_1128_wf : GatherDims.WF S50000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x128_S10000x128_1_0_0_1_n_n_wf : DotDims.WF S10000x128 S128x128 S10000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x128_S320000x1_S320000x128_1_0_n_n_0_1_1128 : GatherDims S50000x128 S320000x1 S320000x128 where
  offsetDims := [1]
  collapsedSliceDims := [0]
  operandBatchingDims := []
  startIndicesBatchingDims := []
  startIndexMap := [0]
  indexVectorDim := 1
  sliceSizes := ![1, 128]
  wf := gather_S50000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Kernel_Region0.lean ====
/-
  Region 0 of the kernel's @main (the first segment-sum pallas_call, grid 196 × 196: destination tile
  major, edge tile minor), at a PARAMETER V — the TensorCore's buffer contents when the region is entered.
  The body keeps a 256 × 128 accumulator in a scratch buffer between grid points: at the first edge tile of a
  destination tile it is reset to zero, at every point the one-hot product of the point's 8192 destinations with
  the point's 8192 messages is added to it, and the sum so far is copied to the output window's buffer.
  Here: the body's run in its two control cases (reset taken / not taken), what the accumulator and the output
  buffer hold after each point by recursion on the point, the pipeline's proof data with the accumulator carried
  in the invariant, and the body obligation.
-/
import proofs.«405226_j38242388803875_1_alg».proof.Proof.Gen.Kernel.Launch
import proofs.«405226_j38242388803875_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The message window's current buffer holds the point's block of messages, for any proof data over V that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The destination window's current buffer holds the point's block of destinations. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one branch: "this is the first edge tile of the destination tile" -/

/-- The reset condition as the body computes it from the grid coordinates. -/
abbrev cond0 (i : grid0.Coords) : Prop :=
  (Scalar.cmpi .ne (Scalar.extui (Scalar.cmpi .eq (BitVec.ofNat 32 (i 1).val) 0#32)) 0#32) = 1#1

/-- The staging memrefs the pipeline passes at point t, and the scratch. -/
abbrev ms0_0 (t : Fin cfg0.N) : Memref sig .tc .vmem S8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev scM0 : Memref sig .tc .vmem S256x128 .f32 := Memref.whole cc0_scratch0
abbrev VO0 : View sig .tc .vmem S256x128 .f32 := (Memref.whole cc0_stg2_0 : Memref sig .tc .vmem S256x128 .f32).view
abbrev VS0 : View sig .tc .vmem S256x128 .f32 := scM0.view

/-- The body as the pipeline calls it at point t. -/
abbrev bodyAt0 (t : Fin cfg0.N) : Prog (TpuEff nD τ sig (Elt F) Λ₀ .tc) PUnit :=
  cc0_kernel (grid0.coords t) (ms0_0 t) (hs0_0 t) (ms0_1 t) (hs0_1 t) (ms0_2 t) (hs0_2 t) scM0 (Memref.isWhole_whole _)

/-- The scoped buffers no window of this region stages, the accumulator apart: each whole at some contents. -/
abbrev srest0 (c : Dev nD) : sProp 𝕄 :=
  Pipeline.scopedRestBut (Ix := Unit) (Name := ℕ) (U := UR sig nD τ) (Lvl := ℕ) (Val := Elt F) spec0 c [cc0_scratch0]

/-- The class's invariant with the accumulator scratch named: it at some contents, the other scoped buffers at some contents, the generator register. -/
theorem PhiA0_eq (c : Dev nD) :
    (Pipeline.ΦA spec0 c : sProp 𝕄)
      = iprop(iprop((∃ d, owns (c : Thread nD τ) scM0 fullShare d) ∗ srest0 (F := F) c) ∗ (∃ r, prngReg c r)) := by
  unfold Pipeline.ΦA
  rw [Pipeline.scopedRest_split_of_list spec0 c [cc0_scratch0] (by decide) (by decide)]
  simp only [scM0, owns_whole, bigSepL_singleton]; try rfl

/-! ## The body's run, case by case -/

set_option maxHeartbeats 1000000 in
/-- CASE A (the reset is taken): on whole memrefs, the messages' and the destinations' at their contents, the
    output's and the accumulator's at anything, the body runs to the continuation holding the inputs as they
    were and the output's and the accumulator's buffers with the pieces the run finds written. -/
noncomputable def kernelRun0_A (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond0 i)
    (x0 : Vec F S8192x128 .bf16) (x1 : Vec F S8192 .i32) :
    Σ' (L2 : List (View.Piece (Elt F) S256x128 .f32)), { LS : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

set_option maxHeartbeats 1000000 in
/-- CASE B (the reset is not taken): the same with the accumulator's buffer at the contents xs the point before left. -/
noncomputable def kernelRun0_B (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond0 i)
    (x0 : Vec F S8192x128 .bf16) (x1 : Vec F S8192 .i32) (xs : Vec F S256x128 .f32) :
    Σ' (L2 : List (View.Piece (Elt F) S256x128 .f32)), { LS : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

/-! ## What each case leaves in the output's buffer and in the accumulator -/

theorem cover0_A (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond0 i)
    (x0 : Vec F S8192x128 .bf16) (x1 : Vec F S8192 .i32) (y : S256x128.Idx) :
    ∃ pc ∈ (kernelRun0_A c i arg2 harg2 arg3 harg3 arg4 harg4 arg5 harg5 hc x0 x1).1, y ∈ pc.1.set :=
  View.cover_of_tiledL (kernelRun0_A c i arg2 harg2 arg3 harg3 arg4 harg4 arg5 harg5 hc x0 x1).1 S256x128.size (by sl_kernel_rfl) y

theorem scover0_A (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond0 i)
    (x0 : Vec F S8192x128 .bf16) (x1 : Vec F S8192 .i32) (y : S256x128.Idx) :
    ∃ pc ∈ (kernelRun0_A c i arg2 harg2 arg3 harg3 arg4 harg4 arg5 harg5 hc x0 x1).2.1, y ∈ pc.1.set :=
  View.cover_of_tiledL (kernelRun0_A c i arg2 harg2 arg3 harg3 arg4 harg4 arg5 harg5 hc x0 x1).2.1 S256x128.size (by sl_kernel_rfl) y

/-- What case A leaves in the output's staging buffer: its pieces read back. -/
def out0_A (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond0 i)
    (x0 : Vec F S8192x128 .bf16) (x1 : Vec F S8192 .i32) : Vec F S256x128 .f32 :=
  VO0.read (Elt F) (VO0.writes (Elt F) VO0.junk (kernelRun0_A c i arg2 harg2 arg3 harg3 arg4 harg4 arg5 harg5 hc x0 x1).1)

/-- What case A leaves in the accumulator. -/
def sout0_A (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond0 i)
    (x0 : Vec F S8192x128 .bf16) (x1 : Vec F S8192 .i32) : Vec F S256x128 .f32 :=
  VS0.read (Elt F) (VS0.writes (Elt F) VS0.junk (kernelRun0_A c i arg2 harg2 arg3 harg3 arg4 harg4 arg5 harg5 hc x0 x1).2.1)

theorem cover0_B (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond0 i)
    (x0 : Vec F S8192x128 .bf16) (x1 : Vec F S8192 .i32) (xs : Vec F S256x128 .f32) (y : S256x128.Idx) :
    ∃ pc ∈ (kernelRun0_B c i arg2 harg2 arg3 harg3 arg4 harg4 arg5 harg5 hc x0 x1 xs).1, y ∈ pc.1.set :=
  View.cover_of_tiledL (kernelRun0_B c i arg2 harg2 arg3 harg3 arg4 harg4 arg5 harg5 hc x0 x1 xs).1 S256x128.size (by sl_kernel_rfl) y

theorem scover0_B (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond0 i)
    (x0 : Vec F S8192x128 .bf16) (x1 : Vec F S8192 .i32) (xs : Vec F S256x128 .f32) (y : S256x128.Idx) :
    ∃ pc ∈ (kernelRun0_B c i arg2 harg2 arg3 harg3 arg4 harg4 arg5 harg5 hc x0 x1 xs).2.1, y ∈ pc.1.set :=
  View.cover_of_tiledL (kernelRun0_B c i arg2 harg2 arg3 harg3 arg4 harg4 arg5 harg5 hc x0 x1 xs).2.1 S256x128.size (by sl_kernel_rfl) y

/-- What case B leaves in the output's staging buffer. -/
def out0_B (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond0 i)
    (x0 : Vec F S8192x128 .bf16) (x1 : Vec F S8192 .i32) (xs : Vec F S256x128 .f32) : Vec F S256x128 .f32 :=
  VO0.read (Elt F) (VO0.writes (Elt F) VO0.junk (kernelRun0_B c i arg2 harg2 arg3 harg3 arg4 harg4 arg5 harg5 hc x0 x1 xs).1)

/-- What case B leaves in the accumulator. -/
def sout0_B (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond0 i)
    (x0 : Vec F S8192x128 .bf16) (x1 : Vec F S8192 .i32) (xs : Vec F S256x128 .f32) : Vec F S256x128 .f32 :=
  VS0.read (Elt F) (VS0.writes (Elt F) VS0.junk (kernelRun0_B c i arg2 harg2 arg3 harg3 arg4 harg4 arg5 harg5 hc x0 x1 xs).2.1)

/-! ## What the output's buffer and the accumulator hold after each point -/

/-- The first point of the grid takes the reset. -/
theorem cond0_zero (hn : 0 < cfg0.N) : cond0 (grid0.coords ⟨0, hn⟩) := by
  have h : ((grid0.coords ⟨0, hn⟩) 1).val = 0 := by simp [Pipeline.Grid.coords]
  show (Scalar.cmpi .ne (Scalar.extui (Scalar.cmpi .eq (BitVec.ofNat 32 ((grid0.coords ⟨0, hn⟩) 1).val) 0#32)) 0#32) = 1#1
  rw [h]; decide

/-- After the body at position n: (the output's staging buffer, the accumulator). The case is the one the point's
    coordinates select; where the reset is not taken the accumulator starts from what position n - 1 left. -/
def outsAt0 (c : Dev nD) : (n : ℕ) → n < cfg0.N → Vec F S256x128 .f32 × Vec F S256x128 .f32
  | 0, hn =>
    (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (cond0_zero hn) (iblk0 V c 0 ⟨0, hn⟩) (iblk0 V c 1 ⟨0, hn⟩),
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (cond0_zero hn) (iblk0 V c 0 ⟨0, hn⟩) (iblk0 V c 1 ⟨0, hn⟩))
  | n + 1, hn =>
    if h : cond0 (grid0.coords ⟨n + 1, hn⟩) then
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) h (iblk0 V c 0 ⟨n + 1, hn⟩) (iblk0 V c 1 ⟨n + 1, hn⟩),
       sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) h (iblk0 V c 0 ⟨n + 1, hn⟩) (iblk0 V c 1 ⟨n + 1, hn⟩))
    else
      (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) h (iblk0 V c 0 ⟨n + 1, hn⟩) (iblk0 V c 1 ⟨n + 1, hn⟩) (outsAt0 c n (Nat.lt_of_succ_lt hn)).2,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) h (iblk0 V c 0 ⟨n + 1, hn⟩) (iblk0 V c 1 ⟨n + 1, hn⟩) (outsAt0 c n (Nat.lt_of_succ_lt hn)).2)

/-- At a point that takes the reset: case A's contents. -/
theorem outsAt0_A (c : Dev nD) (t : Fin cfg0.N) (h : cond0 (grid0.coords t)) :
    outsAt0 V c t.val t.isLt =
      (out0_A c (grid0.coords t) (ms0_0 t) (hs0_0 t) (ms0_1 t) (hs0_1 t) (ms0_2 t) (hs0_2 t) scM0 (Memref.isWhole_whole _) h (iblk0 V c 0 t) (iblk0 V c 1 t),
       sout0_A c (grid0.coords t) (ms0_0 t) (hs0_0 t) (ms0_1 t) (hs0_1 t) (ms0_2 t) (hs0_2 t) scM0 (Memref.isWhole_whole _) h (iblk0 V c 0 t) (iblk0 V c 1 t)) := by
  obtain ⟨n, hn⟩ := t
  cases n with
  | zero => rfl
  | succ n => exact (dif_pos h).trans rfl

/-- At a point that does not: case B's contents over what the point before left in the accumulator. -/
theorem outsAt0_B (c : Dev nD) (t : Fin cfg0.N) (h : ¬cond0 (grid0.coords t)) :
    outsAt0 V c t.val t.isLt =
      (out0_B c (grid0.coords t) (ms0_0 t) (hs0_0 t) (ms0_1 t) (hs0_1 t) (ms0_2 t) (hs0_2 t) scM0 (Memref.isWhole_whole _) h (iblk0 V c 0 t) (iblk0 V c 1 t) (outsAt0 V c (t.val - 1) (Nat.lt_of_le_of_lt (Nat.sub_le _ _) t.isLt)).2,
       sout0_B c (grid0.coords t) (ms0_0 t) (hs0_0 t) (ms0_1 t) (hs0_1 t) (ms0_2 t) (hs0_2 t) scM0 (Memref.isWhole_whole _) h (iblk0 V c 0 t) (iblk0 V c 1 t) (outsAt0 V c (t.val - 1) (Nat.lt_of_le_of_lt (Nat.sub_le _ _) t.isLt)).2) := by
  obtain ⟨n, hn⟩ := t
  cases n with
  | zero => exact absurd (cond0_zero hn) h
  | succ n => exact (dif_neg h).trans rfl

/-! ## The invariant: the accumulator carried between points -/

/-- Before position n: before the first point the class's invariant (the accumulator at anything); afterwards the
    accumulator at what the point before left in it, the other scoped buffers at anything, the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ srest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ srest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ srest0 (F := F) c) ∗ (∃ r, prngReg c r)) := by
  cases n with
  | zero => exact absurd rfl hz
  | succ n => rfl

/-! ## The pipeline's proof data -/

/-- Pipeline 0's proof data on core c: the arrays as the region finds them; after the body at point t the two
    inputs' buffers at their blocks and the output's at the sum so far; the invariant carrying the accumulator;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 2000000 in
/-- The body at any point. The inputs' memrefs hold their blocks; the point's coordinates say which case it is in;
    the invariant hands the body the accumulator at what the point before left (at anything at the first point)
    and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  by_cases h : cond0 (grid0.coords t)
  · rw [outsAt0_A V c t h]
    unfold out0_A sout0_A; (try dsimp only)
    by_cases hz : t.val = 0
    · rw [Phi0_castSucc V c t, PhiS0_zero V c _ _ hz, PhiA0_eq]
      iintro ⟨⟨⟨HS, Hr⟩, Hg⟩, Ho, ⟨%d0, H0⟩, ⟨%d1, H1⟩, ⟨%d2, H2⟩⟩
      iapply ((kernelRun0_A c (grid0.coords t) _ _ _ _ _ _ _ _ h (iblk0 V c 0 t) (iblk0 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (scover0_A c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
    · rw [Phi0_castSucc V c t, PhiS0_pos V c _ _ hz]
      iintro ⟨⟨⟨HS, Hr⟩, Hg⟩, Ho, ⟨%d0, H0⟩, ⟨%d1, H1⟩, ⟨%d2, H2⟩⟩
      iapply ((kernelRun0_A c (grid0.coords t) _ _ _ _ _ _ _ _ h (iblk0 V c 0 t) (iblk0 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (scover0_A c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
  · rw [outsAt0_B V c t h]
    unfold out0_B sout0_B; (try dsimp only)
    have hz : t.val ≠ 0 := fun hz => h (by
      have : t = ⟨0, hz ▸ t.isLt⟩ := Fin.ext hz
      rw [this]; exact cond0_zero _)
    rw [Phi0_castSucc V c t, PhiS0_pos V c _ _ hz]
    iintro ⟨⟨⟨HS, Hr⟩, Hg⟩, Ho, ⟨%d0, H0⟩, ⟨%d1, H1⟩, ⟨%d2, H2⟩⟩
    iapply ((kernelRun0_B c (grid0.coords t) _ _ _ _ _ _ _ _ h (iblk0 V c 0 t) (iblk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hr Hg]
    · isplitl [HS Hr]
      · isplitl [HS]
        · unfold owns; iexists _; isplitr
          swap; · iexact HS
          ipureintro; exact View.read_writes_of_cover _ _ _ _ _ (scover0_B c _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 38416 := N_0; omega
  rw [show (dat0 V c).Φ (Fin.last cfg0.N) = PhiS0 V c (Fin.last cfg0.N).val (Nat.le_of_lt_succ (Fin.last cfg0.N).isLt) from rfl, PhiS0_pos V c _ _ hN, PhiA0_eq]
  iintro ⟨⟨HS, Hr⟩, Hg⟩
  isplitl [HS Hr]
  · isplitl [HS]
    · iexists _; iexact HS
    iexact Hr
  iexact Hg

end Cert.Kernel.Hand

end
-- ==== Proof.Kernel_Region1.lean ====
/-
  Region 1 of the kernel's @main (the second segment-sum pallas_call, grid 40 × 40: destination tile
  major, edge tile minor), at a PARAMETER V — the TensorCore's buffer contents when the region is entered.
  The body keeps a 256 × 128 accumulator in a scratch buffer between grid points: at the first edge tile of a
  destination tile it is reset to zero, at every point the one-hot product of the point's 8192 destinations with
  the point's 8192 messages is added to it, and the sum so far is copied to the output window's buffer.
  Here: the body's run in its two control cases (reset taken / not taken), what the accumulator and the output
  buffer hold after each point by recursion on the point, the pipeline's proof data with the accumulator carried
  in the invariant, and the body obligation.
-/
import proofs.«405226_j38242388803875_1_alg».proof.Proof.Gen.Kernel.Launch
import proofs.«405226_j38242388803875_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The message window's current buffer holds the point's block of messages, for any proof data over V that leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The destination window's current buffer holds the point's block of destinations. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's one branch: "this is the first edge tile of the destination tile" -/

/-- The reset condition as the body computes it from the grid coordinates. -/
abbrev cond1 (i : grid1.Coords) : Prop :=
  (Scalar.cmpi .ne (Scalar.extui (Scalar.cmpi .eq (BitVec.ofNat 32 (i 1).val) 0#32)) 0#32) = 1#1

/-- The staging memrefs the pipeline passes at point t, and the scratch. -/
abbrev ms1_0 (t : Fin cfg1.N) : Memref sig .tc .vmem S8192x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .f32 := win1_2.stage (cfg1.slots t 2)
abbrev hs1_2 (t : Fin cfg1.N) : (ms1_2 t).IsWhole := hstage1_2 ((cfg1.slots t 2).cast nbuf1_2)
abbrev scM1 : Memref sig .tc .vmem S256x128 .f32 := Memref.whole cc1_scratch0
abbrev VO1 : View sig .tc .vmem S256x128 .f32 := (Memref.whole cc1_stg2_0 : Memref sig .tc .vmem S256x128 .f32).view
abbrev VS1 : View sig .tc .vmem S256x128 .f32 := scM1.view

/-- The body as the pipeline calls it at point t. -/
abbrev bodyAt1 (t : Fin cfg1.N) : Prog (TpuEff nD τ sig (Elt F) Λ₀ .tc) PUnit :=
  cc1_kernel (grid1.coords t) (ms1_0 t) (hs1_0 t) (ms1_1 t) (hs1_1 t) (ms1_2 t) (hs1_2 t) scM1 (Memref.isWhole_whole _)

/-- The scoped buffers no window of this region stages, the accumulator apart: each whole at some contents. -/
abbrev srest1 (c : Dev nD) : sProp 𝕄 :=
  Pipeline.scopedRestBut (Ix := Unit) (Name := ℕ) (U := UR sig nD τ) (Lvl := ℕ) (Val := Elt F) spec1 c [cc1_scratch0]

/-- The class's invariant with the accumulator scratch named: it at some contents, the other scoped buffers at some contents, the generator register. -/
theorem PhiA1_eq (c : Dev nD) :
    (Pipeline.ΦA spec1 c : sProp 𝕄)
      = iprop(iprop((∃ d, owns (c : Thread nD τ) scM1 fullShare d) ∗ srest1 (F := F) c) ∗ (∃ r, prngReg c r)) := by
  unfold Pipeline.ΦA
  rw [Pipeline.scopedRest_split_of_list spec1 c [cc1_scratch0] (by decide) (by decide)]
  simp only [scM1, owns_whole, bigSepL_singleton]; try rfl

/-! ## The body's run, case by case -/

set_option maxHeartbeats 1000000 in
/-- CASE A (the reset is taken): on whole memrefs, the messages' and the destinations' at their contents, the
    output's and the accumulator's at anything, the body runs to the continuation holding the inputs as they
    were and the output's and the accumulator's buffers with the pieces the run finds written. -/
noncomputable def kernelRun1_A (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond1 i)
    (x0 : Vec F S8192x128 .bf16) (x1 : Vec F S8192 .i32) :
    Σ' (L2 : List (View.Piece (Elt F) S256x128 .f32)), { LS : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

set_option maxHeartbeats 1000000 in
/-- CASE B (the reset is not taken): the same with the accumulator's buffer at the contents xs the point before left. -/
noncomputable def kernelRun1_B (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond1 i)
    (x0 : Vec F S8192x128 .bf16) (x1 : Vec F S8192 .i32) (xs : Vec F S256x128 .f32) :
    Σ' (L2 : List (View.Piece (Elt F) S256x128 .f32)), { LS : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

/-! ## What each case leaves in the output's buffer and in the accumulator -/

theorem cover1_A (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond1 i)
    (x0 : Vec F S8192x128 .bf16) (x1 : Vec F S8192 .i32) (y : S256x128.Idx) :
    ∃ pc ∈ (kernelRun1_A c i arg2 harg2 arg3 harg3 arg4 harg4 arg5 harg5 hc x0 x1).1, y ∈ pc.1.set :=
  View.cover_of_tiledL (kernelRun1_A c i arg2 harg2 arg3 harg3 arg4 harg4 arg5 harg5 hc x0 x1).1 S256x128.size (by sl_kernel_rfl) y

theorem scover1_A (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond1 i)
    (x0 : Vec F S8192x128 .bf16) (x1 : Vec F S8192 .i32) (y : S256x128.Idx) :
    ∃ pc ∈ (kernelRun1_A c i arg2 harg2 arg3 harg3 arg4 harg4 arg5 harg5 hc x0 x1).2.1, y ∈ pc.1.set :=
  View.cover_of_tiledL (kernelRun1_A c i arg2 harg2 arg3 harg3 arg4 harg4 arg5 harg5 hc x0 x1).2.1 S256x128.size (by sl_kernel_rfl) y

/-- What case A leaves in the output's staging buffer: its pieces read back. -/
def out1_A (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond1 i)
    (x0 : Vec F S8192x128 .bf16) (x1 : Vec F S8192 .i32) : Vec F S256x128 .f32 :=
  VO1.read (Elt F) (VO1.writes (Elt F) VO1.junk (kernelRun1_A c i arg2 harg2 arg3 harg3 arg4 harg4 arg5 harg5 hc x0 x1).1)

/-- What case A leaves in the accumulator. -/
def sout1_A (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond1 i)
    (x0 : Vec F S8192x128 .bf16) (x1 : Vec F S8192 .i32) : Vec F S256x128 .f32 :=
  VS1.read (Elt F) (VS1.writes (Elt F) VS1.junk (kernelRun1_A c i arg2 harg2 arg3 harg3 arg4 harg4 arg5 harg5 hc x0 x1).2.1)

theorem cover1_B (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond1 i)
    (x0 : Vec F S8192x128 .bf16) (x1 : Vec F S8192 .i32) (xs : Vec F S256x128 .f32) (y : S256x128.Idx) :
    ∃ pc ∈ (kernelRun1_B c i arg2 harg2 arg3 harg3 arg4 harg4 arg5 harg5 hc x0 x1 xs).1, y ∈ pc.1.set :=
  View.cover_of_tiledL (kernelRun1_B c i arg2 harg2 arg3 harg3 arg4 harg4 arg5 harg5 hc x0 x1 xs).1 S256x128.size (by sl_kernel_rfl) y

theorem scover1_B (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond1 i)
    (x0 : Vec F S8192x128 .bf16) (x1 : Vec F S8192 .i32) (xs : Vec F S256x128 .f32) (y : S256x128.Idx) :
    ∃ pc ∈ (kernelRun1_B c i arg2 harg2 arg3 harg3 arg4 harg4 arg5 harg5 hc x0 x1 xs).2.1, y ∈ pc.1.set :=
  View.cover_of_tiledL (kernelRun1_B c i arg2 harg2 arg3 harg3 arg4 harg4 arg5 harg5 hc x0 x1 xs).2.1 S256x128.size (by sl_kernel_rfl) y

/-- What case B leaves in the output's staging buffer. -/
def out1_B (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond1 i)
    (x0 : Vec F S8192x128 .bf16) (x1 : Vec F S8192 .i32) (xs : Vec F S256x128 .f32) : Vec F S256x128 .f32 :=
  VO1.read (Elt F) (VO1.writes (Elt F) VO1.junk (kernelRun1_B c i arg2 harg2 arg3 harg3 arg4 harg4 arg5 harg5 hc x0 x1 xs).1)

/-- What case B leaves in the accumulator. -/
def sout1_B (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond1 i)
    (x0 : Vec F S8192x128 .bf16) (x1 : Vec F S8192 .i32) (xs : Vec F S256x128 .f32) : Vec F S256x128 .f32 :=
  VS1.read (Elt F) (VS1.writes (Elt F) VS1.junk (kernelRun1_B c i arg2 harg2 arg3 harg3 arg4 harg4 arg5 harg5 hc x0 x1 xs).2.1)

/-! ## What the output's buffer and the accumulator hold after each point -/

/-- The first point of the grid takes the reset. -/
theorem cond1_zero (hn : 0 < cfg1.N) : cond1 (grid1.coords ⟨0, hn⟩) := by
  have h : ((grid1.coords ⟨0, hn⟩) 1).val = 0 := by simp [Pipeline.Grid.coords]
  show (Scalar.cmpi .ne (Scalar.extui (Scalar.cmpi .eq (BitVec.ofNat 32 ((grid1.coords ⟨0, hn⟩) 1).val) 0#32)) 0#32) = 1#1
  rw [h]; decide

/-- After the body at position n: (the output's staging buffer, the accumulator). The case is the one the point's
    coordinates select; where the reset is not taken the accumulator starts from what position n - 1 left. -/
def outsAt1 (c : Dev nD) : (n : ℕ) → n < cfg1.N → Vec F S256x128 .f32 × Vec F S256x128 .f32
  | 0, hn =>
    (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) (cond1_zero hn) (iblk1 V c 0 ⟨0, hn⟩) (iblk1 V c 1 ⟨0, hn⟩),
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) (cond1_zero hn) (iblk1 V c 0 ⟨0, hn⟩) (iblk1 V c 1 ⟨0, hn⟩))
  | n + 1, hn =>
    if h : cond1 (grid1.coords ⟨n + 1, hn⟩) then
      (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) h (iblk1 V c 0 ⟨n + 1, hn⟩) (iblk1 V c 1 ⟨n + 1, hn⟩),
       sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) h (iblk1 V c 0 ⟨n + 1, hn⟩) (iblk1 V c 1 ⟨n + 1, hn⟩))
    else
      (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) h (iblk1 V c 0 ⟨n + 1, hn⟩) (iblk1 V c 1 ⟨n + 1, hn⟩) (outsAt1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) h (iblk1 V c 0 ⟨n + 1, hn⟩) (iblk1 V c 1 ⟨n + 1, hn⟩) (outsAt1 c n (Nat.lt_of_succ_lt hn)).2)

/-- At a point that takes the reset: case A's contents. -/
theorem outsAt1_A (c : Dev nD) (t : Fin cfg1.N) (h : cond1 (grid1.coords t)) :
    outsAt1 V c t.val t.isLt =
      (out1_A c (grid1.coords t) (ms1_0 t) (hs1_0 t) (ms1_1 t) (hs1_1 t) (ms1_2 t) (hs1_2 t) scM1 (Memref.isWhole_whole _) h (iblk1 V c 0 t) (iblk1 V c 1 t),
       sout1_A c (grid1.coords t) (ms1_0 t) (hs1_0 t) (ms1_1 t) (hs1_1 t) (ms1_2 t) (hs1_2 t) scM1 (Memref.isWhole_whole _) h (iblk1 V c 0 t) (iblk1 V c 1 t)) := by
  obtain ⟨n, hn⟩ := t
  cases n with
  | zero => rfl
  | succ n => exact (dif_pos h).trans rfl

/-- At a point that does not: case B's contents over what the point before left in the accumulator. -/
theorem outsAt1_B (c : Dev nD) (t : Fin cfg1.N) (h : ¬cond1 (grid1.coords t)) :
    outsAt1 V c t.val t.isLt =
      (out1_B c (grid1.coords t) (ms1_0 t) (hs1_0 t) (ms1_1 t) (hs1_1 t) (ms1_2 t) (hs1_2 t) scM1 (Memref.isWhole_whole _) h (iblk1 V c 0 t) (iblk1 V c 1 t) (outsAt1 V c (t.val - 1) (Nat.lt_of_le_of_lt (Nat.sub_le _ _) t.isLt)).2,
       sout1_B c (grid1.coords t) (ms1_0 t) (hs1_0 t) (ms1_1 t) (hs1_1 t) (ms1_2 t) (hs1_2 t) scM1 (Memref.isWhole_whole _) h (iblk1 V c 0 t) (iblk1 V c 1 t) (outsAt1 V c (t.val - 1) (Nat.lt_of_le_of_lt (Nat.sub_le _ _) t.isLt)).2) := by
  obtain ⟨n, hn⟩ := t
  cases n with
  | zero => exact absurd (cond1_zero hn) h
  | succ n => exact (dif_neg h).trans rfl

/-! ## The invariant: the accumulator carried between points -/

/-- Before position n: before the first point the class's invariant (the accumulator at anything); afterwards the
    accumulator at what the point before left in it, the other scoped buffers at anything, the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ srest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ srest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ srest1 (F := F) c) ∗ (∃ r, prngReg c r)) := by
  cases n with
  | zero => exact absurd rfl hz
  | succ n => rfl

/-! ## The pipeline's proof data -/

/-- Pipeline 1's proof data on core c: the arrays as the region finds them; after the body at point t the two
    inputs' buffers at their blocks and the output's at the sum so far; the invariant carrying the accumulator;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 2000000 in
/-- The body at any point. The inputs' memrefs hold their blocks; the point's coordinates say which case it is in;
    the invariant hands the body the accumulator at what the point before left (at anything at the first point)
    and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  by_cases h : cond1 (grid1.coords t)
  · rw [outsAt1_A V c t h]
    unfold out1_A sout1_A; (try dsimp only)
    by_cases hz : t.val = 0
    · rw [Phi1_castSucc V c t, PhiS1_zero V c _ _ hz, PhiA1_eq]
      iintro ⟨⟨⟨HS, Hr⟩, Hg⟩, Ho, ⟨%d0, H0⟩, ⟨%d1, H1⟩, ⟨%d2, H2⟩⟩
      iapply ((kernelRun1_A c (grid1.coords t) _ _ _ _ _ _ _ _ h (iblk1 V c 0 t) (iblk1 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (scover1_A c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
    · rw [Phi1_castSucc V c t, PhiS1_pos V c _ _ hz]
      iintro ⟨⟨⟨HS, Hr⟩, Hg⟩, Ho, ⟨%d0, H0⟩, ⟨%d1, H1⟩, ⟨%d2, H2⟩⟩
      iapply ((kernelRun1_A c (grid1.coords t) _ _ _ _ _ _ _ _ h (iblk1 V c 0 t) (iblk1 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (scover1_A c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
  · rw [outsAt1_B V c t h]
    unfold out1_B sout1_B; (try dsimp only)
    have hz : t.val ≠ 0 := fun hz => h (by
      have : t = ⟨0, hz ▸ t.isLt⟩ := Fin.ext hz
      rw [this]; exact cond1_zero _)
    rw [Phi1_castSucc V c t, PhiS1_pos V c _ _ hz]
    iintro ⟨⟨⟨HS, Hr⟩, Hg⟩, Ho, ⟨%d0, H0⟩, ⟨%d1, H1⟩, ⟨%d2, H2⟩⟩
    iapply ((kernelRun1_B c (grid1.coords t) _ _ _ _ _ _ _ _ h (iblk1 V c 0 t) (iblk1 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hr Hg]
    · isplitl [HS Hr]
      · isplitl [HS]
        · unfold owns; iexists _; isplitr
          swap; · iexact HS
          ipureintro; exact View.read_writes_of_cover _ _ _ _ _ (scover1_B c _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 1600 := N_1; omega
  rw [show (dat1 V c).Φ (Fin.last cfg1.N) = PhiS1 V c (Fin.last cfg1.N).val (Nat.le_of_lt_succ (Fin.last cfg1.N).isLt) from rfl, PhiS1_pos V c _ _ hN, PhiA1_eq]
  iintro ⟨⟨HS, Hr⟩, Hg⟩
  isplitl [HS Hr]
  · isplitl [HS]
    · iexists _; iexact HS
    iexact Hr
  iexact Hg

end Cert.Kernel.Hand

end
-- ==== Proof.Kernel_Region2.lean ====
/-
  Region 2 of the kernel's @main (the linear layer's pallas_call: one grid point, the whole 10000 × 128
  activation, the 128 × 128 weight and the 128-long bias staged whole), at a PARAMETER V — the TensorCore's buffer
  contents when the region is entered. The body loads the three inputs, multiplies the activation by the weight
  contracting both on their second axis, adds the bias along the rows and stores the result whole. Here: the body's
  run, what it leaves in the output window's buffer, the pipeline's proof data and the body obligation.
-/
import proofs.«405226_j38242388803875_1_alg».proof.Proof.Gen.Kernel.Launch
import proofs.«405226_j38242388803875_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at the point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The staging memrefs the pipeline passes at point t. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x128 .f32 := win2_3.stage (cfg2.slots t 3)
abbrev hs2_3 (t : Fin cfg2.N) : (ms2_3 t).IsWhole := hstage2_3 ((cfg2.slots t 3).cast nbuf2_3)
abbrev VO2 : View sig .tc .vmem S10000x128 .f32 := (Memref.whole cc2_stg3_0 : Memref sig .tc .vmem S10000x128 .f32).view

/-- The body as the pipeline calls it at point t. -/
abbrev bodyAt2 (t : Fin cfg2.N) : Prog (TpuEff nD τ sig (Elt F) Λ₀ .tc) PUnit :=
  cc2_kernel (grid2.coords t) (ms2_0 t) (hs2_0 t) (ms2_1 t) (hs2_1 t) (ms2_2 t) (hs2_2 t) (ms2_3 t) (hs2_3 t)

/-! ## The body's run -/

set_option maxHeartbeats 1000000 in
/-- On whole memrefs, the three inputs' at their contents and the output's at anything, the body runs to the
    continuation holding the inputs as they were and the output's buffer with the pieces the run finds written. -/
noncomputable def kernelRun2 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S10000x128 .f32) (harg4 : arg4.IsWhole)
    (x0 : Vec F S10000x128 .f32) (x1 : Vec F S128x128 .f32) (x2 : Vec F S128 .f32) :
    { L3 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc2_kernel i arg1 harg1 arg2 harg2 arg3 harg3 arg4 harg4) K } := by
  refine ⟨?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

theorem cover2 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S10000x128 .f32) (harg4 : arg4.IsWhole)
    (x0 : Vec F S10000x128 .f32) (x1 : Vec F S128x128 .f32) (x2 : Vec F S128 .f32) (y : S10000x128.Idx) :
    ∃ pc ∈ (kernelRun2 c i arg1 harg1 arg2 harg2 arg3 harg3 arg4 harg4 x0 x1 x2).1, y ∈ pc.1.set :=
  View.cover_of_tiledL (kernelRun2 c i arg1 harg1 arg2 harg2 arg3 harg3 arg4 harg4 x0 x1 x2).1 S10000x128.size (by sl_kernel_rfl) y

/-- What the body leaves in the output's staging buffer: its pieces read back. -/
def out2 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S10000x128 .f32) (harg4 : arg4.IsWhole)
    (x0 : Vec F S10000x128 .f32) (x1 : Vec F S128x128 .f32) (x2 : Vec F S128 .f32) : Vec F S10000x128 .f32 :=
  VO2.read (Elt F) (VO2.writes (Elt F) VO2.junk (kernelRun2 c i arg1 harg1 arg2 harg2 arg3 harg3 arg4 harg4 x0 x1 x2).1)

/-- The output's buffer after the body at point t. -/
def outAt2 (c : Dev nD) (t : Fin cfg2.N) : Vec F S10000x128 .f32 :=
  out2 c (grid2.coords t) (ms2_0 t) (hs2_0 t) (ms2_1 t) (hs2_1 t) (ms2_2 t) (hs2_2 t) (ms2_3 t) (hs2_3 t) (iblk2 V c 0 t) (iblk2 V c 1 t) (iblk2 V c 2 t)

/-! ## The pipeline's proof data -/

/-- Pipeline 2's proof data on core c: the arrays as the region finds them; after the body each input's buffer at
    its block and the output's at what the body stored; the class's invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 1000000 in
/-- The body at the point: the inputs' memrefs hold their blocks, so the run applies; the invariant and the core's
    debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  unfold outAt2 out2
  iintro ⟨HΦ, Ho, ⟨%d0, H0⟩, ⟨%d1, H1⟩, ⟨%d2, H2⟩, ⟨%d3, H3⟩⟩
  iapply ((kernelRun2 c (grid2.coords t) _ _ _ _ _ _ _ _ (iblk2 V c 0 t) (iblk2 V c 1 t) (iblk2 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2 c _ _ _ _ _ _ _ _ _ _ _ _)

/-- The library's body obligation, at the point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the point, and after it the invariant is the class's again. -/
theorem hin2 (c : Dev nD) : Pipeline.ΦA spec2 c ⊢ (dat2 V c).Φ 0 := Idealize.SL.BI.Entails.refl _
theorem hout2 (c : Dev nD) : (dat2 V c).Φ (Fin.last cfg2.N) ⊢ Pipeline.ΦA spec2 c := Idealize.SL.BI.Entails.refl _

end Cert.Kernel.Hand

end
-- ==== Proof.Kernel_Run.lean ====
/-
  The idealized kernel's @main from the launch to the return: twelve items — four stretches of host operations
  (the first gather, the edge-weight product, the two zero paddings), the first segment-sum region, four more
  stretches (the second gather from the padded first result, the product, the paddings), the second segment-sum
  region, the slice to the true row count, the linear layer's region. Here: the buffers' contents at every item
  boundary as a fold from the launch memory, every pipeline's proof data at its region's entry contents, each
  item as a segment over the thread state "every unscoped buffer at the boundary's contents, the generator register
  at some state, nothing owed", and the launch: every weakly fair execution terminates and every final state holds
  every unscoped buffer at the last boundary's contents.
-/
import proofs.«405226_j38242388803875_1_alg».proof.Proof.Kernel_Region0
import proofs.«405226_j38242388803875_1_alg».proof.Proof.Kernel_Region1
import proofs.«405226_j38242388803875_1_alg».proof.Proof.Kernel_Region2
import proofs.«405226_j38242388803875_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item boundary -/

/-- Core c's buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- Region 0's entry. -/
abbrev W4 : Dev nD → Valuation τ sig (Elt F) := fun c => StableHlo.after hostOps0_3 (W3 m ρ c)
abbrev E0 : (c : Dev nD) → (b : Ref sig .tc) → Buf (Elt F) ((c : Thread nD τ).loc b) := fun c b => W4 m ρ c b

/-- At region 0's exit: its arrays at what the pipeline leaves (the inputs as entered, the output's write-backs
    folded), every other buffer as entered. -/
def W5 (c : Dev nD) : Valuation τ sig (Elt F) :=
  Pipeline.withArrays spec0 c (W4 m ρ c) fun w => (dat0 (E0 m ρ) c).arrAt w cfg0.N
theorem W5_arr (c : Dev nD) (w : Fin cfg0.W) :
    W5 m ρ c (Proc.devRef .tc (Pipeline.arrRef spec0 w)) = (dat0 (E0 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- The same read at the TensorCore's references. -/
abbrev X0 : (c : Dev nD) → (b : Ref sig .tc) → Buf (Elt F) ((c : Thread nD τ).loc b) := fun c b => W5 m ρ c b
theorem hF0 (c : Dev nD) (w : Fin cfg0.W) : (dat0 (E0 m ρ) c).arrAt w cfg0.N = X0 m ρ c (Pipeline.arrRef spec0 w) :=
  (W5_arr m ρ c w).symm
theorem hrest0 (c : Dev nD) : ∀ b, b ∉ Finset.univ.image (Pipeline.arrRef spec0) → X0 m ρ c b = E0 m ρ c b :=
  fun b hb => W5_of_ne m ρ c b fun w e => hb (Finset.mem_image.mpr ⟨w, Finset.mem_univ _, e⟩)

abbrev W6 : Dev nD → Valuation τ sig (Elt F) := fun c => StableHlo.after hostOps1 (W5 m ρ c)
abbrev W7 : Dev nD → Valuation τ sig (Elt F) := fun c => StableHlo.after hostOps1_1 (W6 m ρ c)
abbrev W8 : Dev nD → Valuation τ sig (Elt F) := fun c => StableHlo.after hostOps1_2 (W7 m ρ c)
/-- Region 1's entry. -/
abbrev W9 : Dev nD → Valuation τ sig (Elt F) := fun c => StableHlo.after hostOps1_3 (W8 m ρ c)
abbrev E1 : (c : Dev nD) → (b : Ref sig .tc) → Buf (Elt F) ((c : Thread nD τ).loc b) := fun c b => W9 m ρ c b

/-- At region 1's exit: its arrays at what the pipeline leaves (the inputs as entered, the output's write-backs
    folded), every other buffer as entered. -/
def W10 (c : Dev nD) : Valuation τ sig (Elt F) :=
  Pipeline.withArrays spec1 c (W9 m ρ c) fun w => (dat1 (E1 m ρ) c).arrAt w cfg1.N
theorem W10_arr (c : Dev nD) (w : Fin cfg1.W) :
    W10 m ρ c (Proc.devRef .tc (Pipeline.arrRef spec1 w)) = (dat1 (E1 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
/-- The same read at the TensorCore's references. -/
abbrev X1 : (c : Dev nD) → (b : Ref sig .tc) → Buf (Elt F) ((c : Thread nD τ).loc b) := fun c b => W10 m ρ c b
theorem hF1 (c : Dev nD) (w : Fin cfg1.W) : (dat1 (E1 m ρ) c).arrAt w cfg1.N = X1 m ρ c (Pipeline.arrRef spec1 w) :=
  (W10_arr m ρ c w).symm
theorem hrest1 (c : Dev nD) : ∀ b, b ∉ Finset.univ.image (Pipeline.arrRef spec1) → X1 m ρ c b = E1 m ρ c b :=
  fun b hb => W10_of_ne m ρ c b fun w e => hb (Finset.mem_image.mpr ⟨w, Finset.mem_univ _, e⟩)

/-- Region 2's entry. -/
abbrev W11 : Dev nD → Valuation τ sig (Elt F) := fun c => StableHlo.after hostOps2 (W10 m ρ c)
abbrev E2 : (c : Dev nD) → (b : Ref sig .tc) → Buf (Elt F) ((c : Thread nD τ).loc b) := fun c b => W11 m ρ c b

/-- At region 2's exit: its arrays at what the pipeline leaves (the inputs as entered, the output's write-backs
    folded), every other buffer as entered. -/
def W12 (c : Dev nD) : Valuation τ sig (Elt F) :=
  Pipeline.withArrays spec2 c (W11 m ρ c) fun w => (dat2 (E2 m ρ) c).arrAt w cfg2.N
theorem W12_arr (c : Dev nD) (w : Fin cfg2.W) :
    W12 m ρ c (Proc.devRef .tc (Pipeline.arrRef spec2 w)) = (dat2 (E2 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
/-- The same read at the TensorCore's references. -/
abbrev X2 : (c : Dev nD) → (b : Ref sig .tc) → Buf (Elt F) ((c : Thread nD τ).loc b) := fun c b => W12 m ρ c b
theorem hF2 (c : Dev nD) (w : Fin cfg2.W) : (dat2 (E2 m ρ) c).arrAt w cfg2.N = X2 m ρ c (Pipeline.arrRef spec2 w) :=
  (W12_arr m ρ c w).symm
theorem hrest2 (c : Dev nD) : ∀ b, b ∉ Finset.univ.image (Pipeline.arrRef spec2) → X2 m ρ c b = E2 m ρ c b :=
  fun b hb => W12_of_ne m ρ c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register at some state. -/
abbrev Tₙ (c : Dev nD) : sProp 𝕄 := iprop(StableHlo.held (c : Thread nD τ) (Pipeline.ucRefs τ sig) (W12 m ρ c) ∗ ∃ r, prngReg c r)

/-- What a region's entry hands the kernel (the generator register, the tables — none here —, the scoped buffers no window stages) is the class's invariant. -/
theorem toΦA {gr W : Nat} (win : Fin W → Pipeline.WinSpec sig gr) (c : Dev nD) (P : sProp 𝕄) :
    iprop((∃ r, prngReg c r) ∗ P ∗ Pipeline.scopedRest win c) ⊢ (Pipeline.ΦA win c : sProp 𝕄) := by
  unfold Pipeline.ΦA
  iintro ⟨Hp, -, Hr⟩
  isplitl [Hr]; · iexact Hr
  iexact Hp

/-- And back at the exit. -/
theorem ofΦA {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

/-! ## The regions as segments -/

set_option backward.isDefEq.respectTransparency.types false in
/-- Region 0 over the thread state: entered from every unscoped buffer at the contents before it, left at the
    contents after it. Its arrays are split out of the unscoped buffers and put back at the exit contents; the
    generator register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA spec0 c _).trans (hin0 (E0 m ρ) c)
  hout c := by
    rw [Pipeline.ownSems0_none]
    exact (hout0 (E0 m ρ) c).trans (ofΦA spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at the exit contents; the
    generator register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA spec1 c _).trans (hin1 (E1 m ρ) c)
  hout c := by
    rw [Pipeline.ownSems0_none]
    exact (hout1 (E1 m ρ) c).trans (ofΦA spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at the exit contents; the
    generator register goes into the invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA spec2 c _).trans (hin2 (E2 m ρ) c)
  hout c := by
    rw [Pipeline.ownSems0_none]
    exact (hout2 (E2 m ρ) c).trans (ofΦA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .host (hseg hostOps1_1 hostOps1_1_sub hostOps1_1_fresh (W6 m ρ)),
    .host (hseg hostOps1_2 hostOps1_2_sub hostOps1_2_fresh (W7 m ρ)),
    .host (hseg hostOps1_3 hostOps1_3_sub hostOps1_3_fresh (W8 m ρ)),
    .region (reg1 m ρ),
    .host (hseg hostOps2 hostOps2_sub hostOps2_fresh (W10 m ρ)),
    .region (reg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.Kernel.Hand

end
-- ==== Proof.Kernel_Frame.lean ====
/-
  The frame and the named result, read off the run: no host stretch writes an argument array and no region's
  output window is one, so each argument's buffer at the last boundary is its launch contents; the result buffer
  at the last boundary is what the linear layer's region leaves in its output array.
-/
import proofs.«405226_j38242388803875_1_alg».proof.Proof.Kernel_Run

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The linear layer's region leaves every buffer but its output array as it found it: an input window's array is never written. -/
theorem W12_keep (c : Dev nD) (r : Ref sig .tc) (h : r ≠ main_v29) :
    W12 m ρ c (Proc.devRef .tc r) = W11 m ρ c (Proc.devRef .tc r) := by
  by_cases h0 : r = main_v28
  · subst h0; exact (W12_arr m ρ c 0).trans (((dat2 (E2 m ρ) c).arrAt_in 0 rfl _).trans (A_eq2 (E2 m ρ) c 0))
  by_cases h1 : r = main_arg3
  · subst h1; exact (W12_arr m ρ c 1).trans (((dat2 (E2 m ρ) c).arrAt_in 1 rfl _).trans (A_eq2 (E2 m ρ) c 1))
  by_cases h2 : r = main_arg4
  · subst h2; exact (W12_arr m ρ c 2).trans (((dat2 (E2 m ρ) c).arrAt_in 2 rfl _).trans (A_eq2 (E2 m ρ) c 2))
  refine W12_of_ne m ρ c r fun w => ?_
  match w with
  | ⟨0, _⟩ => exact fun e => h0 e.symm
  | ⟨1, _⟩ => exact fun e => h1 e.symm
  | ⟨2, _⟩ => exact fun e => h2 e.symm
  | ⟨3, _⟩ => exact fun e => h e.symm

/-- A buffer the first four host stretches do not write and the first segment-sum region does not stage holds, when
    that region ends, what it held at launch. -/
theorem W5_of_untouched (c : Dev nD) (r : Ref sig .tc)
    (h4 : ∀ w, Pipeline.arrRef spec0 w ≠ r) (h3 : r ∉ hostOps0_3_W) (h2 : r ∉ hostOps0_2_W) (h1 : r ∉ hostOps0_1_W) (h0 : r ∉ hostOps0_W) :
    W5 m ρ c (Proc.devRef .tc r) = m ((c : Thread nD τ).loc r) :=
  (W5_of_ne m ρ c r h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- The same up to the linear layer's entry. -/
theorem W11_of_untouched (c : Dev nD) (r : Ref sig .tc) (h10 : r ∉ hostOps2_W)
    (h9 : ∀ w, Pipeline.arrRef spec1 w ≠ r) (h8 : r ∉ hostOps1_3_W) (h7 : r ∉ hostOps1_2_W) (h6 : r ∉ hostOps1_1_W) (h5 : r ∉ hostOps1_W)
    (h4 : ∀ w, Pipeline.arrRef spec0 w ≠ r) (h3 : r ∉ hostOps0_3_W) (h2 : r ∉ hostOps0_2_W) (h1 : r ∉ hostOps0_1_W) (h0 : r ∉ hostOps0_W) :
    W11 m ρ c (Proc.devRef .tc r) = m ((c : Thread nD τ).loc r) :=
  (StableHlo.after_of_writes_sub hostOps2 _ hostOps2_writes h10).trans <|
  (W10_of_ne m ρ c r h9).trans <|
  (StableHlo.after_of_writes_sub hostOps1_3 _ hostOps1_3_writes h8).trans <|
  (StableHlo.after_of_writes_sub hostOps1_2 _ hostOps1_2_writes h7).trans <|
  (StableHlo.after_of_writes_sub hostOps1_1 _ hostOps1_1_writes h6).trans <|
  (StableHlo.after_of_writes_sub hostOps1 _ hostOps1_writes h5).trans <|
  W5_of_untouched m ρ c r h4 h3 h2 h1 h0

/-- And to the last boundary, for any buffer but the result. -/
theorem W12_of_untouched (c : Dev nD) (r : Ref sig .tc) (h12 : r ≠ main_v29) (h10 : r ∉ hostOps2_W)
    (h9 : ∀ w, Pipeline.arrRef spec1 w ≠ r) (h8 : r ∉ hostOps1_3_W) (h7 : r ∉ hostOps1_2_W) (h6 : r ∉ hostOps1_1_W) (h5 : r ∉ hostOps1_W)
    (h4 : ∀ w, Pipeline.arrRef spec0 w ≠ r) (h3 : r ∉ hostOps0_3_W) (h2 : r ∉ hostOps0_2_W) (h1 : r ∉ hostOps0_1_W) (h0 : r ∉ hostOps0_W) :
    W12 m ρ c (Proc.devRef .tc r) = m ((c : Thread nD τ).loc r) :=
  (W12_keep m ρ c r h12).trans (W11_of_untouched m ρ c r h10 h9 h8 h7 h6 h5 h4 h3 h2 h1 h0)

theorem W12_main_arg0 (c : Dev nD) : W12 m ρ c (Proc.devRef .tc main_arg0) = m ((c : Thread nD τ).loc main_arg0) :=
  W12_of_untouched m ρ c main_arg0 (by decide) (by decide) (by decide) (by decide) (by decide) (by decide) (by decide) (by decide) (by decide) (by decide) (by decide) (by decide)
theorem W12_main_arg1 (c : Dev nD) : W12 m ρ c (Proc.devRef .tc main_arg1) = m ((c : Thread nD τ).loc main_arg1) :=
  W12_of_untouched m ρ c main_arg1 (by decide) (by decide) (by decide) (by decide) (by decide) (by decide) (by decide) (by decide) (by decide) (by decide) (by decide) (by decide)
theorem W12_main_arg2 (c : Dev nD) : W12 m ρ c (Proc.devRef .tc main_arg2) = m ((c : Thread nD τ).loc main_arg2) :=
  W12_of_untouched m ρ c main_arg2 (by decide) (by decide) (by decide) (by decide) (by decide) (by decide) (by decide) (by decide) (by decide) (by decide) (by decide) (by decide)
theorem W12_main_arg3 (c : Dev nD) : W12 m ρ c (Proc.devRef .tc main_arg3) = m ((c : Thread nD τ).loc main_arg3) :=
  W12_of_untouched m ρ c main_arg3 (by decide) (by decide) (by decide) (by decide) (by decide) (by decide) (by decide) (by decide) (by decide) (by decide) (by decide) (by decide)
theorem W12_main_arg4 (c : Dev nD) : W12 m ρ c (Proc.devRef .tc main_arg4) = m ((c : Thread nD τ).loc main_arg4) :=
  W12_of_untouched m ρ c main_arg4 (by decide) (by decide) (by decide) (by decide) (by decide) (by decide) (by decide) (by decide) (by decide) (by decide) (by decide) (by decide)
theorem W12_main_arg5 (c : Dev nD) : W12 m ρ c (Proc.devRef .tc main_arg5) = m ((c : Thread nD τ).loc main_arg5) :=
  W12_of_untouched m ρ c main_arg5 (by decide) (by decide) (by decide) (by decide) (by decide) (by decide) (by decide) (by decide) (by decide) (by decide) (by decide) (by decide)
theorem W12_main_arg6 (c : Dev nD) : W12 m ρ c (Proc.devRef .tc main_arg6) = m ((c : Thread nD τ).loc main_arg6) :=
  W12_of_untouched m ρ c main_arg6 (by decide) (by decide) (by decide) (by decide) (by decide) (by decide) (by decide) (by decide) (by decide) (by decide) (by decide) (by decide)
theorem W12_main_arg7 (c : Dev nD) : W12 m ρ c (Proc.devRef .tc main_arg7) = m ((c : Thread nD τ).loc main_arg7) :=
  W12_of_untouched m ρ c main_arg7 (by decide) (by decide) (by decide) (by decide) (by decide) (by decide) (by decide) (by decide) (by decide) (by decide) (by decide) (by decide)
theorem W12_main_arg8 (c : Dev nD) : W12 m ρ c (Proc.devRef .tc main_arg8) = m ((c : Thread nD τ).loc main_arg8) :=
  W12_of_untouched m ρ c main_arg8 (by decide) (by decide) (by decide) (by decide) (by decide) (by decide) (by decide) (by decide) (by decide) (by decide) (by decide) (by decide)

/-- The result buffer at the last boundary is what the linear layer's region leaves in its output array. -/
theorem W12_main_v29 (c : Dev nD) : W12 m ρ c (Proc.devRef .tc main_v29) = (dat2 (E2 m ρ) c).arrAt 3 cfg2.N :=
  W12_arr m ρ c 3

/-- THE RUN WITH THE RESULT NAMED: every weakly fair execution terminates; the result buffer ends at what the
    last region leaves in its output array and every argument array ends as launched. -/
theorem run_named : θ_run defs (onTc (τ := τ) (main (F := F))) ⟨m, fun _ => 0, ρ⟩ (fun r => ∀ c : Dev nD,
      r.2.mem ((c.tc : Thread nD τ).loc main_v29) = (dat2 (E2 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v29 (by decide))).trans (W12_main_v29 m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c)⟩) (run m ρ)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_named m ρ)

end Cert.Kernel.Hand

end
-- ==== Proof.KernelIdeal_Region0.lean ====
/-
  Region 0 of the idealized kernel's @main (the first segment-sum pallas_call, grid 196 × 196: destination tile
  major, edge tile minor), at a PARAMETER V — the TensorCore's buffer contents when the region is entered.
  The body keeps a 256 × 128 accumulator in a scratch buffer between grid points: at the first edge tile of a
  destination tile it is reset to zero, at every point the one-hot product of the point's 8192 destinations with
  the point's 8192 messages is added to it, and the sum so far is copied to the output window's buffer.
  Here: the body's run in its two control cases (reset taken / not taken), what the accumulator and the output
  buffer hold after each point by recursion on the point, the pipeline's proof data with the accumulator carried
  in the invariant, and the body obligation.
-/
import proofs.«405226_j38242388803875_1_alg».proof.Proof.Gen.KernelIdeal.Launch
import proofs.«405226_j38242388803875_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The message window's current buffer holds the point's block of messages, for any proof data over V that leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The destination window's current buffer holds the point's block of destinations. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one branch: "this is the first edge tile of the destination tile" -/

/-- The reset condition as the body computes it from the grid coordinates. -/
abbrev cond0 (i : grid0.Coords) : Prop :=
  (Scalar.cmpi .ne (Scalar.extui (Scalar.cmpi .eq (BitVec.ofNat 32 (i 1).val) 0#32)) 0#32) = 1#1

/-- The staging memrefs the pipeline passes at point t, and the scratch. -/
abbrev ms0_0 (t : Fin cfg0.N) : Memref sig .tc .vmem S8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev scM0 : Memref sig .tc .vmem S256x128 .f32 := Memref.whole cc0_scratch0
abbrev VO0 : View sig .tc .vmem S256x128 .f32 := (Memref.whole cc0_stg2_0 : Memref sig .tc .vmem S256x128 .f32).view
abbrev VS0 : View sig .tc .vmem S256x128 .f32 := scM0.view

/-- The body as the pipeline calls it at point t. -/
abbrev bodyAt0 (t : Fin cfg0.N) : Prog (TpuEff nD τ sig (Elt F) Λ₀ .tc) PUnit :=
  cc0_kernel (grid0.coords t) (ms0_0 t) (hs0_0 t) (ms0_1 t) (hs0_1 t) (ms0_2 t) (hs0_2 t) scM0 (Memref.isWhole_whole _)

/-- The scoped buffers no window of this region stages, the accumulator apart: each whole at some contents. -/
abbrev srest0 (c : Dev nD) : sProp 𝕄 :=
  Pipeline.scopedRestBut (Ix := Unit) (Name := ℕ) (U := UR sig nD τ) (Lvl := ℕ) (Val := Elt F) spec0 c [cc0_scratch0]

/-- The class's invariant with the accumulator scratch named: it at some contents, the other scoped buffers at some contents, the generator register. -/
theorem PhiA0_eq (c : Dev nD) :
    (Pipeline.ΦA spec0 c : sProp 𝕄)
      = iprop(iprop((∃ d, owns (c : Thread nD τ) scM0 fullShare d) ∗ srest0 (F := F) c) ∗ (∃ r, prngReg c r)) := by
  unfold Pipeline.ΦA
  rw [Pipeline.scopedRest_split_of_list spec0 c [cc0_scratch0] (by decide) (by decide)]
  simp only [scM0, owns_whole, bigSepL_singleton]; try rfl

/-! ## The body's run, case by case -/

set_option maxHeartbeats 1000000 in
/-- CASE A (the reset is taken): on whole memrefs, the messages' and the destinations' at their contents, the
    output's and the accumulator's at anything, the body runs to the continuation holding the inputs as they
    were and the output's and the accumulator's buffers with the pieces the run finds written. -/
noncomputable def kernelRun0_A (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond0 i)
    (x0 : Vec F S8192x128 .bf16) (x1 : Vec F S8192 .i32) :
    Σ' (L2 : List (View.Piece (Elt F) S256x128 .f32)), { LS : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

set_option maxHeartbeats 1000000 in
/-- CASE B (the reset is not taken): the same with the accumulator's buffer at the contents xs the point before left. -/
noncomputable def kernelRun0_B (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond0 i)
    (x0 : Vec F S8192x128 .bf16) (x1 : Vec F S8192 .i32) (xs : Vec F S256x128 .f32) :
    Σ' (L2 : List (View.Piece (Elt F) S256x128 .f32)), { LS : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0_kernel i arg2 harg2 arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

/-! ## What each case leaves in the output's buffer and in the accumulator -/

theorem cover0_A (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond0 i)
    (x0 : Vec F S8192x128 .bf16) (x1 : Vec F S8192 .i32) (y : S256x128.Idx) :
    ∃ pc ∈ (kernelRun0_A c i arg2 harg2 arg3 harg3 arg4 harg4 arg5 harg5 hc x0 x1).1, y ∈ pc.1.set :=
  View.cover_of_tiledL (kernelRun0_A c i arg2 harg2 arg3 harg3 arg4 harg4 arg5 harg5 hc x0 x1).1 S256x128.size (by sl_kernel_rfl) y

theorem scover0_A (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond0 i)
    (x0 : Vec F S8192x128 .bf16) (x1 : Vec F S8192 .i32) (y : S256x128.Idx) :
    ∃ pc ∈ (kernelRun0_A c i arg2 harg2 arg3 harg3 arg4 harg4 arg5 harg5 hc x0 x1).2.1, y ∈ pc.1.set :=
  View.cover_of_tiledL (kernelRun0_A c i arg2 harg2 arg3 harg3 arg4 harg4 arg5 harg5 hc x0 x1).2.1 S256x128.size (by sl_kernel_rfl) y

/-- What case A leaves in the output's staging buffer: its pieces read back. -/
def out0_A (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond0 i)
    (x0 : Vec F S8192x128 .bf16) (x1 : Vec F S8192 .i32) : Vec F S256x128 .f32 :=
  VO0.read (Elt F) (VO0.writes (Elt F) VO0.junk (kernelRun0_A c i arg2 harg2 arg3 harg3 arg4 harg4 arg5 harg5 hc x0 x1).1)

/-- What case A leaves in the accumulator. -/
def sout0_A (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond0 i)
    (x0 : Vec F S8192x128 .bf16) (x1 : Vec F S8192 .i32) : Vec F S256x128 .f32 :=
  VS0.read (Elt F) (VS0.writes (Elt F) VS0.junk (kernelRun0_A c i arg2 harg2 arg3 harg3 arg4 harg4 arg5 harg5 hc x0 x1).2.1)

theorem cover0_B (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond0 i)
    (x0 : Vec F S8192x128 .bf16) (x1 : Vec F S8192 .i32) (xs : Vec F S256x128 .f32) (y : S256x128.Idx) :
    ∃ pc ∈ (kernelRun0_B c i arg2 harg2 arg3 harg3 arg4 harg4 arg5 harg5 hc x0 x1 xs).1, y ∈ pc.1.set :=
  View.cover_of_tiledL (kernelRun0_B c i arg2 harg2 arg3 harg3 arg4 harg4 arg5 harg5 hc x0 x1 xs).1 S256x128.size (by sl_kernel_rfl) y

theorem scover0_B (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond0 i)
    (x0 : Vec F S8192x128 .bf16) (x1 : Vec F S8192 .i32) (xs : Vec F S256x128 .f32) (y : S256x128.Idx) :
    ∃ pc ∈ (kernelRun0_B c i arg2 harg2 arg3 harg3 arg4 harg4 arg5 harg5 hc x0 x1 xs).2.1, y ∈ pc.1.set :=
  View.cover_of_tiledL (kernelRun0_B c i arg2 harg2 arg3 harg3 arg4 harg4 arg5 harg5 hc x0 x1 xs).2.1 S256x128.size (by sl_kernel_rfl) y

/-- What case B leaves in the output's staging buffer. -/
def out0_B (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond0 i)
    (x0 : Vec F S8192x128 .bf16) (x1 : Vec F S8192 .i32) (xs : Vec F S256x128 .f32) : Vec F S256x128 .f32 :=
  VO0.read (Elt F) (VO0.writes (Elt F) VO0.junk (kernelRun0_B c i arg2 harg2 arg3 harg3 arg4 harg4 arg5 harg5 hc x0 x1 xs).1)

/-- What case B leaves in the accumulator. -/
def sout0_B (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond0 i)
    (x0 : Vec F S8192x128 .bf16) (x1 : Vec F S8192 .i32) (xs : Vec F S256x128 .f32) : Vec F S256x128 .f32 :=
  VS0.read (Elt F) (VS0.writes (Elt F) VS0.junk (kernelRun0_B c i arg2 harg2 arg3 harg3 arg4 harg4 arg5 harg5 hc x0 x1 xs).2.1)

/-! ## What the output's buffer and the accumulator hold after each point -/

/-- The first point of the grid takes the reset. -/
theorem cond0_zero (hn : 0 < cfg0.N) : cond0 (grid0.coords ⟨0, hn⟩) := by
  have h : ((grid0.coords ⟨0, hn⟩) 1).val = 0 := by simp [Pipeline.Grid.coords]
  show (Scalar.cmpi .ne (Scalar.extui (Scalar.cmpi .eq (BitVec.ofNat 32 ((grid0.coords ⟨0, hn⟩) 1).val) 0#32)) 0#32) = 1#1
  rw [h]; decide

/-- After the body at position n: (the output's staging buffer, the accumulator). The case is the one the point's
    coordinates select; where the reset is not taken the accumulator starts from what position n - 1 left. -/
def outsAt0 (c : Dev nD) : (n : ℕ) → n < cfg0.N → Vec F S256x128 .f32 × Vec F S256x128 .f32
  | 0, hn =>
    (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (cond0_zero hn) (iblk0 V c 0 ⟨0, hn⟩) (iblk0 V c 1 ⟨0, hn⟩),
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (cond0_zero hn) (iblk0 V c 0 ⟨0, hn⟩) (iblk0 V c 1 ⟨0, hn⟩))
  | n + 1, hn =>
    if h : cond0 (grid0.coords ⟨n + 1, hn⟩) then
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) h (iblk0 V c 0 ⟨n + 1, hn⟩) (iblk0 V c 1 ⟨n + 1, hn⟩),
       sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) h (iblk0 V c 0 ⟨n + 1, hn⟩) (iblk0 V c 1 ⟨n + 1, hn⟩))
    else
      (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) h (iblk0 V c 0 ⟨n + 1, hn⟩) (iblk0 V c 1 ⟨n + 1, hn⟩) (outsAt0 c n (Nat.lt_of_succ_lt hn)).2,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) h (iblk0 V c 0 ⟨n + 1, hn⟩) (iblk0 V c 1 ⟨n + 1, hn⟩) (outsAt0 c n (Nat.lt_of_succ_lt hn)).2)

/-- At a point that takes the reset: case A's contents. -/
theorem outsAt0_A (c : Dev nD) (t : Fin cfg0.N) (h : cond0 (grid0.coords t)) :
    outsAt0 V c t.val t.isLt =
      (out0_A c (grid0.coords t) (ms0_0 t) (hs0_0 t) (ms0_1 t) (hs0_1 t) (ms0_2 t) (hs0_2 t) scM0 (Memref.isWhole_whole _) h (iblk0 V c 0 t) (iblk0 V c 1 t),
       sout0_A c (grid0.coords t) (ms0_0 t) (hs0_0 t) (ms0_1 t) (hs0_1 t) (ms0_2 t) (hs0_2 t) scM0 (Memref.isWhole_whole _) h (iblk0 V c 0 t) (iblk0 V c 1 t)) := by
  obtain ⟨n, hn⟩ := t
  cases n with
  | zero => rfl
  | succ n => exact (dif_pos h).trans rfl

/-- At a point that does not: case B's contents over what the point before left in the accumulator. -/
theorem outsAt0_B (c : Dev nD) (t : Fin cfg0.N) (h : ¬cond0 (grid0.coords t)) :
    outsAt0 V c t.val t.isLt =
      (out0_B c (grid0.coords t) (ms0_0 t) (hs0_0 t) (ms0_1 t) (hs0_1 t) (ms0_2 t) (hs0_2 t) scM0 (Memref.isWhole_whole _) h (iblk0 V c 0 t) (iblk0 V c 1 t) (outsAt0 V c (t.val - 1) (Nat.lt_of_le_of_lt (Nat.sub_le _ _) t.isLt)).2,
       sout0_B c (grid0.coords t) (ms0_0 t) (hs0_0 t) (ms0_1 t) (hs0_1 t) (ms0_2 t) (hs0_2 t) scM0 (Memref.isWhole_whole _) h (iblk0 V c 0 t) (iblk0 V c 1 t) (outsAt0 V c (t.val - 1) (Nat.lt_of_le_of_lt (Nat.sub_le _ _) t.isLt)).2) := by
  obtain ⟨n, hn⟩ := t
  cases n with
  | zero => exact absurd (cond0_zero hn) h
  | succ n => exact (dif_neg h).trans rfl

/-! ## The invariant: the accumulator carried between points -/

/-- Before position n: before the first point the class's invariant (the accumulator at anything); afterwards the
    accumulator at what the point before left in it, the other scoped buffers at anything, the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ srest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ srest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ srest0 (F := F) c) ∗ (∃ r, prngReg c r)) := by
  cases n with
  | zero => exact absurd rfl hz
  | succ n => rfl

/-! ## The pipeline's proof data -/

/-- Pipeline 0's proof data on core c: the arrays as the region finds them; after the body at point t the two
    inputs' buffers at their blocks and the output's at the sum so far; the invariant carrying the accumulator;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 2000000 in
/-- The body at any point. The inputs' memrefs hold their blocks; the point's coordinates say which case it is in;
    the invariant hands the body the accumulator at what the point before left (at anything at the first point)
    and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  by_cases h : cond0 (grid0.coords t)
  · rw [outsAt0_A V c t h]
    unfold out0_A sout0_A; (try dsimp only)
    by_cases hz : t.val = 0
    · rw [Phi0_castSucc V c t, PhiS0_zero V c _ _ hz, PhiA0_eq]
      iintro ⟨⟨⟨HS, Hr⟩, Hg⟩, Ho, ⟨%d0, H0⟩, ⟨%d1, H1⟩, ⟨%d2, H2⟩⟩
      iapply ((kernelRun0_A c (grid0.coords t) _ _ _ _ _ _ _ _ h (iblk0 V c 0 t) (iblk0 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (scover0_A c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
    · rw [Phi0_castSucc V c t, PhiS0_pos V c _ _ hz]
      iintro ⟨⟨⟨HS, Hr⟩, Hg⟩, Ho, ⟨%d0, H0⟩, ⟨%d1, H1⟩, ⟨%d2, H2⟩⟩
      iapply ((kernelRun0_A c (grid0.coords t) _ _ _ _ _ _ _ _ h (iblk0 V c 0 t) (iblk0 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (scover0_A c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A c _ _ _ _ _ _ _ _ _ _ _ _)
  · rw [outsAt0_B V c t h]
    unfold out0_B sout0_B; (try dsimp only)
    have hz : t.val ≠ 0 := fun hz => h (by
      have : t = ⟨0, hz ▸ t.isLt⟩ := Fin.ext hz
      rw [this]; exact cond0_zero _)
    rw [Phi0_castSucc V c t, PhiS0_pos V c _ _ hz]
    iintro ⟨⟨⟨HS, Hr⟩, Hg⟩, Ho, ⟨%d0, H0⟩, ⟨%d1, H1⟩, ⟨%d2, H2⟩⟩
    iapply ((kernelRun0_B c (grid0.coords t) _ _ _ _ _ _ _ _ h (iblk0 V c 0 t) (iblk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hr Hg]
    · isplitl [HS Hr]
      · isplitl [HS]
        · unfold owns; iexists _; isplitr
          swap; · iexact HS
          ipureintro; exact View.read_writes_of_cover _ _ _ _ _ (scover0_B c _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 38416 := N_0; omega
  rw [show (dat0 V c).Φ (Fin.last cfg0.N) = PhiS0 V c (Fin.last cfg0.N).val (Nat.le_of_lt_succ (Fin.last cfg0.N).isLt) from rfl, PhiS0_pos V c _ _ hN, PhiA0_eq]
  iintro ⟨⟨HS, Hr⟩, Hg⟩
  isplitl [HS Hr]
  · isplitl [HS]
    · iexists _; iexact HS
    iexact Hr
  iexact Hg

end Cert.KernelIdeal.Hand

end
-- ==== Proof.KernelIdeal_Region1.lean ====
/-
  Region 1 of the idealized kernel's @main (the second segment-sum pallas_call, grid 40 × 40: destination tile
  major, edge tile minor), at a PARAMETER V — the TensorCore's buffer contents when the region is entered.
  The body keeps a 256 × 128 accumulator in a scratch buffer between grid points: at the first edge tile of a
  destination tile it is reset to zero, at every point the one-hot product of the point's 8192 destinations with
  the point's 8192 messages is added to it, and the sum so far is copied to the output window's buffer.
  Here: the body's run in its two control cases (reset taken / not taken), what the accumulator and the output
  buffer hold after each point by recursion on the point, the pipeline's proof data with the accumulator carried
  in the invariant, and the body obligation.
-/
import proofs.«405226_j38242388803875_1_alg».proof.Proof.Gen.KernelIdeal.Launch
import proofs.«405226_j38242388803875_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The message window's current buffer holds the point's block of messages, for any proof data over V that leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The destination window's current buffer holds the point's block of destinations. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's one branch: "this is the first edge tile of the destination tile" -/

/-- The reset condition as the body computes it from the grid coordinates. -/
abbrev cond1 (i : grid1.Coords) : Prop :=
  (Scalar.cmpi .ne (Scalar.extui (Scalar.cmpi .eq (BitVec.ofNat 32 (i 1).val) 0#32)) 0#32) = 1#1

/-- The staging memrefs the pipeline passes at point t, and the scratch. -/
abbrev ms1_0 (t : Fin cfg1.N) : Memref sig .tc .vmem S8192x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .f32 := win1_2.stage (cfg1.slots t 2)
abbrev hs1_2 (t : Fin cfg1.N) : (ms1_2 t).IsWhole := hstage1_2 ((cfg1.slots t 2).cast nbuf1_2)
abbrev scM1 : Memref sig .tc .vmem S256x128 .f32 := Memref.whole cc1_scratch0
abbrev VO1 : View sig .tc .vmem S256x128 .f32 := (Memref.whole cc1_stg2_0 : Memref sig .tc .vmem S256x128 .f32).view
abbrev VS1 : View sig .tc .vmem S256x128 .f32 := scM1.view

/-- The body as the pipeline calls it at point t. -/
abbrev bodyAt1 (t : Fin cfg1.N) : Prog (TpuEff nD τ sig (Elt F) Λ₀ .tc) PUnit :=
  cc1_kernel (grid1.coords t) (ms1_0 t) (hs1_0 t) (ms1_1 t) (hs1_1 t) (ms1_2 t) (hs1_2 t) scM1 (Memref.isWhole_whole _)

/-- The scoped buffers no window of this region stages, the accumulator apart: each whole at some contents. -/
abbrev srest1 (c : Dev nD) : sProp 𝕄 :=
  Pipeline.scopedRestBut (Ix := Unit) (Name := ℕ) (U := UR sig nD τ) (Lvl := ℕ) (Val := Elt F) spec1 c [cc1_scratch0]

/-- The class's invariant with the accumulator scratch named: it at some contents, the other scoped buffers at some contents, the generator register. -/
theorem PhiA1_eq (c : Dev nD) :
    (Pipeline.ΦA spec1 c : sProp 𝕄)
      = iprop(iprop((∃ d, owns (c : Thread nD τ) scM1 fullShare d) ∗ srest1 (F := F) c) ∗ (∃ r, prngReg c r)) := by
  unfold Pipeline.ΦA
  rw [Pipeline.scopedRest_split_of_list spec1 c [cc1_scratch0] (by decide) (by decide)]
  simp only [scM1, owns_whole, bigSepL_singleton]; try rfl

/-! ## The body's run, case by case -/

set_option maxHeartbeats 1000000 in
/-- CASE A (the reset is taken): on whole memrefs, the messages' and the destinations' at their contents, the
    output's and the accumulator's at anything, the body runs to the continuation holding the inputs as they
    were and the output's and the accumulator's buffers with the pieces the run finds written. -/
noncomputable def kernelRun1_A (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond1 i)
    (x0 : Vec F S8192x128 .bf16) (x1 : Vec F S8192 .i32) :
    Σ' (L2 : List (View.Piece (Elt F) S256x128 .f32)), { LS : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

set_option maxHeartbeats 1000000 in
/-- CASE B (the reset is not taken): the same with the accumulator's buffer at the contents xs the point before left. -/
noncomputable def kernelRun1_B (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond1 i)
    (x0 : Vec F S8192x128 .bf16) (x1 : Vec F S8192 .i32) (xs : Vec F S256x128 .f32) :
    Σ' (L2 : List (View.Piece (Elt F) S256x128 .f32)), { LS : List (View.Piece (Elt F) S256x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

/-! ## What each case leaves in the output's buffer and in the accumulator -/

theorem cover1_A (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond1 i)
    (x0 : Vec F S8192x128 .bf16) (x1 : Vec F S8192 .i32) (y : S256x128.Idx) :
    ∃ pc ∈ (kernelRun1_A c i arg2 harg2 arg3 harg3 arg4 harg4 arg5 harg5 hc x0 x1).1, y ∈ pc.1.set :=
  View.cover_of_tiledL (kernelRun1_A c i arg2 harg2 arg3 harg3 arg4 harg4 arg5 harg5 hc x0 x1).1 S256x128.size (by sl_kernel_rfl) y

theorem scover1_A (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond1 i)
    (x0 : Vec F S8192x128 .bf16) (x1 : Vec F S8192 .i32) (y : S256x128.Idx) :
    ∃ pc ∈ (kernelRun1_A c i arg2 harg2 arg3 harg3 arg4 harg4 arg5 harg5 hc x0 x1).2.1, y ∈ pc.1.set :=
  View.cover_of_tiledL (kernelRun1_A c i arg2 harg2 arg3 harg3 arg4 harg4 arg5 harg5 hc x0 x1).2.1 S256x128.size (by sl_kernel_rfl) y

/-- What case A leaves in the output's staging buffer: its pieces read back. -/
def out1_A (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond1 i)
    (x0 : Vec F S8192x128 .bf16) (x1 : Vec F S8192 .i32) : Vec F S256x128 .f32 :=
  VO1.read (Elt F) (VO1.writes (Elt F) VO1.junk (kernelRun1_A c i arg2 harg2 arg3 harg3 arg4 harg4 arg5 harg5 hc x0 x1).1)

/-- What case A leaves in the accumulator. -/
def sout1_A (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond1 i)
    (x0 : Vec F S8192x128 .bf16) (x1 : Vec F S8192 .i32) : Vec F S256x128 .f32 :=
  VS1.read (Elt F) (VS1.writes (Elt F) VS1.junk (kernelRun1_A c i arg2 harg2 arg3 harg3 arg4 harg4 arg5 harg5 hc x0 x1).2.1)

theorem cover1_B (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond1 i)
    (x0 : Vec F S8192x128 .bf16) (x1 : Vec F S8192 .i32) (xs : Vec F S256x128 .f32) (y : S256x128.Idx) :
    ∃ pc ∈ (kernelRun1_B c i arg2 harg2 arg3 harg3 arg4 harg4 arg5 harg5 hc x0 x1 xs).1, y ∈ pc.1.set :=
  View.cover_of_tiledL (kernelRun1_B c i arg2 harg2 arg3 harg3 arg4 harg4 arg5 harg5 hc x0 x1 xs).1 S256x128.size (by sl_kernel_rfl) y

theorem scover1_B (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond1 i)
    (x0 : Vec F S8192x128 .bf16) (x1 : Vec F S8192 .i32) (xs : Vec F S256x128 .f32) (y : S256x128.Idx) :
    ∃ pc ∈ (kernelRun1_B c i arg2 harg2 arg3 harg3 arg4 harg4 arg5 harg5 hc x0 x1 xs).2.1, y ∈ pc.1.set :=
  View.cover_of_tiledL (kernelRun1_B c i arg2 harg2 arg3 harg3 arg4 harg4 arg5 harg5 hc x0 x1 xs).2.1 S256x128.size (by sl_kernel_rfl) y

/-- What case B leaves in the output's staging buffer. -/
def out1_B (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond1 i)
    (x0 : Vec F S8192x128 .bf16) (x1 : Vec F S8192 .i32) (xs : Vec F S256x128 .f32) : Vec F S256x128 .f32 :=
  VO1.read (Elt F) (VO1.writes (Elt F) VO1.junk (kernelRun1_B c i arg2 harg2 arg3 harg3 arg4 harg4 arg5 harg5 hc x0 x1 xs).1)

/-- What case B leaves in the accumulator. -/
def sout1_B (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond1 i)
    (x0 : Vec F S8192x128 .bf16) (x1 : Vec F S8192 .i32) (xs : Vec F S256x128 .f32) : Vec F S256x128 .f32 :=
  VS1.read (Elt F) (VS1.writes (Elt F) VS1.junk (kernelRun1_B c i arg2 harg2 arg3 harg3 arg4 harg4 arg5 harg5 hc x0 x1 xs).2.1)

/-! ## What the output's buffer and the accumulator hold after each point -/

/-- The first point of the grid takes the reset. -/
theorem cond1_zero (hn : 0 < cfg1.N) : cond1 (grid1.coords ⟨0, hn⟩) := by
  have h : ((grid1.coords ⟨0, hn⟩) 1).val = 0 := by simp [Pipeline.Grid.coords]
  show (Scalar.cmpi .ne (Scalar.extui (Scalar.cmpi .eq (BitVec.ofNat 32 ((grid1.coords ⟨0, hn⟩) 1).val) 0#32)) 0#32) = 1#1
  rw [h]; decide

/-- After the body at position n: (the output's staging buffer, the accumulator). The case is the one the point's
    coordinates select; where the reset is not taken the accumulator starts from what position n - 1 left. -/
def outsAt1 (c : Dev nD) : (n : ℕ) → n < cfg1.N → Vec F S256x128 .f32 × Vec F S256x128 .f32
  | 0, hn =>
    (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) (cond1_zero hn) (iblk1 V c 0 ⟨0, hn⟩) (iblk1 V c 1 ⟨0, hn⟩),
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) (cond1_zero hn) (iblk1 V c 0 ⟨0, hn⟩) (iblk1 V c 1 ⟨0, hn⟩))
  | n + 1, hn =>
    if h : cond1 (grid1.coords ⟨n + 1, hn⟩) then
      (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) h (iblk1 V c 0 ⟨n + 1, hn⟩) (iblk1 V c 1 ⟨n + 1, hn⟩),
       sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) h (iblk1 V c 0 ⟨n + 1, hn⟩) (iblk1 V c 1 ⟨n + 1, hn⟩))
    else
      (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) h (iblk1 V c 0 ⟨n + 1, hn⟩) (iblk1 V c 1 ⟨n + 1, hn⟩) (outsAt1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) h (iblk1 V c 0 ⟨n + 1, hn⟩) (iblk1 V c 1 ⟨n + 1, hn⟩) (outsAt1 c n (Nat.lt_of_succ_lt hn)).2)

/-- At a point that takes the reset: case A's contents. -/
theorem outsAt1_A (c : Dev nD) (t : Fin cfg1.N) (h : cond1 (grid1.coords t)) :
    outsAt1 V c t.val t.isLt =
      (out1_A c (grid1.coords t) (ms1_0 t) (hs1_0 t) (ms1_1 t) (hs1_1 t) (ms1_2 t) (hs1_2 t) scM1 (Memref.isWhole_whole _) h (iblk1 V c 0 t) (iblk1 V c 1 t),
       sout1_A c (grid1.coords t) (ms1_0 t) (hs1_0 t) (ms1_1 t) (hs1_1 t) (ms1_2 t) (hs1_2 t) scM1 (Memref.isWhole_whole _) h (iblk1 V c 0 t) (iblk1 V c 1 t)) := by
  obtain ⟨n, hn⟩ := t
  cases n with
  | zero => rfl
  | succ n => exact (dif_pos h).trans rfl

/-- At a point that does not: case B's contents over what the point before left in the accumulator. -/
theorem outsAt1_B (c : Dev nD) (t : Fin cfg1.N) (h : ¬cond1 (grid1.coords t)) :
    outsAt1 V c t.val t.isLt =
      (out1_B c (grid1.coords t) (ms1_0 t) (hs1_0 t) (ms1_1 t) (hs1_1 t) (ms1_2 t) (hs1_2 t) scM1 (Memref.isWhole_whole _) h (iblk1 V c 0 t) (iblk1 V c 1 t) (outsAt1 V c (t.val - 1) (Nat.lt_of_le_of_lt (Nat.sub_le _ _) t.isLt)).2,
       sout1_B c (grid1.coords t) (ms1_0 t) (hs1_0 t) (ms1_1 t) (hs1_1 t) (ms1_2 t) (hs1_2 t) scM1 (Memref.isWhole_whole _) h (iblk1 V c 0 t) (iblk1 V c 1 t) (outsAt1 V c (t.val - 1) (Nat.lt_of_le_of_lt (Nat.sub_le _ _) t.isLt)).2) := by
  obtain ⟨n, hn⟩ := t
  cases n with
  | zero => exact absurd (cond1_zero hn) h
  | succ n => exact (dif_neg h).trans rfl

/-! ## The invariant: the accumulator carried between points -/

/-- Before position n: before the first point the class's invariant (the accumulator at anything); afterwards the
    accumulator at what the point before left in it, the other scoped buffers at anything, the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ srest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ srest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ srest1 (F := F) c) ∗ (∃ r, prngReg c r)) := by
  cases n with
  | zero => exact absurd rfl hz
  | succ n => rfl

/-! ## The pipeline's proof data -/

/-- Pipeline 1's proof data on core c: the arrays as the region finds them; after the body at point t the two
    inputs' buffers at their blocks and the output's at the sum so far; the invariant carrying the accumulator;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 2000000 in
/-- The body at any point. The inputs' memrefs hold their blocks; the point's coordinates say which case it is in;
    the invariant hands the body the accumulator at what the point before left (at anything at the first point)
    and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  by_cases h : cond1 (grid1.coords t)
  · rw [outsAt1_A V c t h]
    unfold out1_A sout1_A; (try dsimp only)
    by_cases hz : t.val = 0
    · rw [Phi1_castSucc V c t, PhiS1_zero V c _ _ hz, PhiA1_eq]
      iintro ⟨⟨⟨HS, Hr⟩, Hg⟩, Ho, ⟨%d0, H0⟩, ⟨%d1, H1⟩, ⟨%d2, H2⟩⟩
      iapply ((kernelRun1_A c (grid1.coords t) _ _ _ _ _ _ _ _ h (iblk1 V c 0 t) (iblk1 V c 1 t)).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (scover1_A c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
    · rw [Phi1_castSucc V c t, PhiS1_pos V c _ _ hz]
      iintro ⟨⟨⟨HS, Hr⟩, Hg⟩, Ho, ⟨%d0, H0⟩, ⟨%d1, H1⟩, ⟨%d2, H2⟩⟩
      iapply ((kernelRun1_A c (grid1.coords t) _ _ _ _ _ _ _ _ h (iblk1 V c 0 t) (iblk1 V c 1 t)).2.2 Set.univ _)
      isplitl [H0]; · iexact H0
      isplitl [H1]; · iexact H1
      isplitl [H2]; · iexists _; iexact H2
      isplitl [HS]; · iexists _; iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro; exact View.read_writes_of_cover _ _ _ _ _ (scover1_A c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A c _ _ _ _ _ _ _ _ _ _ _ _)
  · rw [outsAt1_B V c t h]
    unfold out1_B sout1_B; (try dsimp only)
    have hz : t.val ≠ 0 := fun hz => h (by
      have : t = ⟨0, hz ▸ t.isLt⟩ := Fin.ext hz
      rw [this]; exact cond1_zero _)
    rw [Phi1_castSucc V c t, PhiS1_pos V c _ _ hz]
    iintro ⟨⟨⟨HS, Hr⟩, Hg⟩, Ho, ⟨%d0, H0⟩, ⟨%d1, H1⟩, ⟨%d2, H2⟩⟩
    iapply ((kernelRun1_B c (grid1.coords t) _ _ _ _ _ _ _ _ h (iblk1 V c 0 t) (iblk1 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hr Hg]
    · isplitl [HS Hr]
      · isplitl [HS]
        · unfold owns; iexists _; isplitr
          swap; · iexact HS
          ipureintro; exact View.read_writes_of_cover _ _ _ _ _ (scover1_B c _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 1600 := N_1; omega
  rw [show (dat1 V c).Φ (Fin.last cfg1.N) = PhiS1 V c (Fin.last cfg1.N).val (Nat.le_of_lt_succ (Fin.last cfg1.N).isLt) from rfl, PhiS1_pos V c _ _ hN, PhiA1_eq]
  iintro ⟨⟨HS, Hr⟩, Hg⟩
  isplitl [HS Hr]
  · isplitl [HS]
    · iexists _; iexact HS
    iexact Hr
  iexact Hg

end Cert.KernelIdeal.Hand

end
-- ==== Proof.KernelIdeal_Region2.lean ====
/-
  Region 2 of the idealized kernel's @main (the linear layer's pallas_call: one grid point, the whole 10000 × 128
  activation, the 128 × 128 weight and the 128-long bias staged whole), at a PARAMETER V — the TensorCore's buffer
  contents when the region is entered. The body loads the three inputs, multiplies the activation by the weight
  contracting both on their second axis, adds the bias along the rows and stores the result whole. Here: the body's
  run, what it leaves in the output window's buffer, the pipeline's proof data and the body obligation.
-/
import proofs.«405226_j38242388803875_1_alg».proof.Proof.Gen.KernelIdeal.Launch
import proofs.«405226_j38242388803875_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at the point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The staging memrefs the pipeline passes at point t. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S10000x128 .f32 := win2_3.stage (cfg2.slots t 3)
abbrev hs2_3 (t : Fin cfg2.N) : (ms2_3 t).IsWhole := hstage2_3 ((cfg2.slots t 3).cast nbuf2_3)
abbrev VO2 : View sig .tc .vmem S10000x128 .f32 := (Memref.whole cc2_stg3_0 : Memref sig .tc .vmem S10000x128 .f32).view

/-- The body as the pipeline calls it at point t. -/
abbrev bodyAt2 (t : Fin cfg2.N) : Prog (TpuEff nD τ sig (Elt F) Λ₀ .tc) PUnit :=
  cc2_kernel (grid2.coords t) (ms2_0 t) (hs2_0 t) (ms2_1 t) (hs2_1 t) (ms2_2 t) (hs2_2 t) (ms2_3 t) (hs2_3 t)

/-! ## The body's run -/

set_option maxHeartbeats 1000000 in
/-- On whole memrefs, the three inputs' at their contents and the output's at anything, the body runs to the
    continuation holding the inputs as they were and the output's buffer with the pieces the run finds written. -/
noncomputable def kernelRun2 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S10000x128 .f32) (harg4 : arg4.IsWhole)
    (x0 : Vec F S10000x128 .f32) (x1 : Vec F S128x128 .f32) (x2 : Vec F S128 .f32) :
    { L3 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc2_kernel i arg1 harg1 arg2 harg2 arg3 harg3 arg4 harg4) K } := by
  refine ⟨?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

theorem cover2 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S10000x128 .f32) (harg4 : arg4.IsWhole)
    (x0 : Vec F S10000x128 .f32) (x1 : Vec F S128x128 .f32) (x2 : Vec F S128 .f32) (y : S10000x128.Idx) :
    ∃ pc ∈ (kernelRun2 c i arg1 harg1 arg2 harg2 arg3 harg3 arg4 harg4 x0 x1 x2).1, y ∈ pc.1.set :=
  View.cover_of_tiledL (kernelRun2 c i arg1 harg1 arg2 harg2 arg3 harg3 arg4 harg4 x0 x1 x2).1 S10000x128.size (by sl_kernel_rfl) y

/-- What the body leaves in the output's staging buffer: its pieces read back. -/
def out2 (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S10000x128 .f32) (harg4 : arg4.IsWhole)
    (x0 : Vec F S10000x128 .f32) (x1 : Vec F S128x128 .f32) (x2 : Vec F S128 .f32) : Vec F S10000x128 .f32 :=
  VO2.read (Elt F) (VO2.writes (Elt F) VO2.junk (kernelRun2 c i arg1 harg1 arg2 harg2 arg3 harg3 arg4 harg4 x0 x1 x2).1)

/-- The output's buffer after the body at point t. -/
def outAt2 (c : Dev nD) (t : Fin cfg2.N) : Vec F S10000x128 .f32 :=
  out2 c (grid2.coords t) (ms2_0 t) (hs2_0 t) (ms2_1 t) (hs2_1 t) (ms2_2 t) (hs2_2 t) (ms2_3 t) (hs2_3 t) (iblk2 V c 0 t) (iblk2 V c 1 t) (iblk2 V c 2 t)

/-! ## The pipeline's proof data -/

/-- Pipeline 2's proof data on core c: the arrays as the region finds them; after the body each input's buffer at
    its block and the output's at what the body stored; the class's invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 1000000 in
/-- The body at the point: the inputs' memrefs hold their blocks, so the run applies; the invariant and the core's
    debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  unfold outAt2 out2
  iintro ⟨HΦ, Ho, ⟨%d0, H0⟩, ⟨%d1, H1⟩, ⟨%d2, H2⟩, ⟨%d3, H3⟩⟩
  iapply ((kernelRun2 c (grid2.coords t) _ _ _ _ _ _ _ _ (iblk2 V c 0 t) (iblk2 V c 1 t) (iblk2 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2 c _ _ _ _ _ _ _ _ _ _ _ _)

/-- The library's body obligation, at the point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the point, and after it the invariant is the class's again. -/
theorem hin2 (c : Dev nD) : Pipeline.ΦA spec2 c ⊢ (dat2 V c).Φ 0 := Idealize.SL.BI.Entails.refl _
theorem hout2 (c : Dev nD) : (dat2 V c).Φ (Fin.last cfg2.N) ⊢ Pipeline.ΦA spec2 c := Idealize.SL.BI.Entails.refl _

end Cert.KernelIdeal.Hand

end
-- ==== Proof.KernelIdeal_Run.lean ====
/-
  The idealized kernel's @main from the launch to the return: twelve items — four stretches of host operations
  (the first gather, the edge-weight product, the two zero paddings), the first segment-sum region, four more
  stretches (the second gather from the padded first result, the product, the paddings), the second segment-sum
  region, the slice to the true row count, the linear layer's region. Here: the buffers' contents at every item
  boundary as a fold from the launch memory, every pipeline's proof data at its region's entry contents, each
  item as a segment over the thread state "every unscoped buffer at the boundary's contents, the generator register
  at some state, nothing owed", and the launch: every weakly fair execution terminates and every final state holds
  every unscoped buffer at the last boundary's contents.
-/
import proofs.«405226_j38242388803875_1_alg».proof.Proof.KernelIdeal_Region0
import proofs.«405226_j38242388803875_1_alg».proof.Proof.KernelIdeal_Region1
import proofs.«405226_j38242388803875_1_alg».proof.Proof.KernelIdeal_Region2
import proofs.«405226_j38242388803875_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each item boundary -/

/-- Core c's buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- Region 0's entry. -/
abbrev W4 : Dev nD → Valuation τ sig (Elt F) := fun c => StableHlo.after hostOps0_3 (W3 m ρ c)
abbrev E0 : (c : Dev nD) → (b : Ref sig .tc) → Buf (Elt F) ((c : Thread nD τ).loc b) := fun c b => W4 m ρ c b

/-- At region 0's exit: its arrays at what the pipeline leaves (the inputs as entered, the output's write-backs
    folded), every other buffer as entered. -/
def W5 (c : Dev nD) : Valuation τ sig (Elt F) :=
  Pipeline.withArrays spec0 c (W4 m ρ c) fun w => (dat0 (E0 m ρ) c).arrAt w cfg0.N
theorem W5_arr (c : Dev nD) (w : Fin cfg0.W) :
    W5 m ρ c (Proc.devRef .tc (Pipeline.arrRef spec0 w)) = (dat0 (E0 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
/-- The same read at the TensorCore's references. -/
abbrev X0 : (c : Dev nD) → (b : Ref sig .tc) → Buf (Elt F) ((c : Thread nD τ).loc b) := fun c b => W5 m ρ c b
theorem hF0 (c : Dev nD) (w : Fin cfg0.W) : (dat0 (E0 m ρ) c).arrAt w cfg0.N = X0 m ρ c (Pipeline.arrRef spec0 w) :=
  (W5_arr m ρ c w).symm
theorem hrest0 (c : Dev nD) : ∀ b, b ∉ Finset.univ.image (Pipeline.arrRef spec0) → X0 m ρ c b = E0 m ρ c b :=
  fun b hb => W5_of_ne m ρ c b fun w e => hb (Finset.mem_image.mpr ⟨w, Finset.mem_univ _, e⟩)

abbrev W6 : Dev nD → Valuation τ sig (Elt F) := fun c => StableHlo.after hostOps1 (W5 m ρ c)
abbrev W7 : Dev nD → Valuation τ sig (Elt F) := fun c => StableHlo.after hostOps1_1 (W6 m ρ c)
abbrev W8 : Dev nD → Valuation τ sig (Elt F) := fun c => StableHlo.after hostOps1_2 (W7 m ρ c)
/-- Region 1's entry. -/
abbrev W9 : Dev nD → Valuation τ sig (Elt F) := fun c => StableHlo.after hostOps1_3 (W8 m ρ c)
abbrev E1 : (c : Dev nD) → (b : Ref sig .tc) → Buf (Elt F) ((c : Thread nD τ).loc b) := fun c b => W9 m ρ c b

/-- At region 1's exit: its arrays at what the pipeline leaves (the inputs as entered, the output's write-backs
    folded), every other buffer as entered. -/
def W10 (c : Dev nD) : Valuation τ sig (Elt F) :=
  Pipeline.withArrays spec1 c (W9 m ρ c) fun w => (dat1 (E1 m ρ) c).arrAt w cfg1.N
theorem W10_arr (c : Dev nD) (w : Fin cfg1.W) :
    W10 m ρ c (Proc.devRef .tc (Pipeline.arrRef spec1 w)) = (dat1 (E1 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
/-- The same read at the TensorCore's references. -/
abbrev X1 : (c : Dev nD) → (b : Ref sig .tc) → Buf (Elt F) ((c : Thread nD τ).loc b) := fun c b => W10 m ρ c b
theorem hF1 (c : Dev nD) (w : Fin cfg1.W) : (dat1 (E1 m ρ) c).arrAt w cfg1.N = X1 m ρ c (Pipeline.arrRef spec1 w) :=
  (W10_arr m ρ c w).symm
theorem hrest1 (c : Dev nD) : ∀ b, b ∉ Finset.univ.image (Pipeline.arrRef spec1) → X1 m ρ c b = E1 m ρ c b :=
  fun b hb => W10_of_ne m ρ c b fun w e => hb (Finset.mem_image.mpr ⟨w, Finset.mem_univ _, e⟩)

/-- Region 2's entry. -/
abbrev W11 : Dev nD → Valuation τ sig (Elt F) := fun c => StableHlo.after hostOps2 (W10 m ρ c)
abbrev E2 : (c : Dev nD) → (b : Ref sig .tc) → Buf (Elt F) ((c : Thread nD τ).loc b) := fun c b => W11 m ρ c b

/-- At region 2's exit: its arrays at what the pipeline leaves (the inputs as entered, the output's write-backs
    folded), every other buffer as entered. -/
def W12 (c : Dev nD) : Valuation τ sig (Elt F) :=
  Pipeline.withArrays spec2 c (W11 m ρ c) fun w => (dat2 (E2 m ρ) c).arrAt w cfg2.N
theorem W12_arr (c : Dev nD) (w : Fin cfg2.W) :
    W12 m ρ c (Proc.devRef .tc (Pipeline.arrRef spec2 w)) = (dat2 (E2 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
/-- The same read at the TensorCore's references. -/
abbrev X2 : (c : Dev nD) → (b : Ref sig .tc) → Buf (Elt F) ((c : Thread nD τ).loc b) := fun c b => W12 m ρ c b
theorem hF2 (c : Dev nD) (w : Fin cfg2.W) : (dat2 (E2 m ρ) c).arrAt w cfg2.N = X2 m ρ c (Pipeline.arrRef spec2 w) :=
  (W12_arr m ρ c w).symm
theorem hrest2 (c : Dev nD) : ∀ b, b ∉ Finset.univ.image (Pipeline.arrRef spec2) → X2 m ρ c b = E2 m ρ c b :=
  fun b hb => W12_of_ne m ρ c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register at some state. -/
abbrev Tₙ (c : Dev nD) : sProp 𝕄 := iprop(StableHlo.held (c : Thread nD τ) (Pipeline.ucRefs τ sig) (W12 m ρ c) ∗ ∃ r, prngReg c r)

/-- What a region's entry hands the kernel (the generator register, the tables — none here —, the scoped buffers no window stages) is the class's invariant. -/
theorem toΦA {gr W : Nat} (win : Fin W → Pipeline.WinSpec sig gr) (c : Dev nD) (P : sProp 𝕄) :
    iprop((∃ r, prngReg c r) ∗ P ∗ Pipeline.scopedRest win c) ⊢ (Pipeline.ΦA win c : sProp 𝕄) := by
  unfold Pipeline.ΦA
  iintro ⟨Hp, -, Hr⟩
  isplitl [Hr]; · iexact Hr
  iexact Hp

/-- And back at the exit. -/
theorem ofΦA {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

/-! ## The regions as segments -/

set_option backward.isDefEq.respectTransparency.types false in
/-- Region 0 over the thread state: entered from every unscoped buffer at the contents before it, left at the
    contents after it. Its arrays are split out of the unscoped buffers and put back at the exit contents; the
    generator register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA spec0 c _).trans (hin0 (E0 m ρ) c)
  hout c := by
    rw [Pipeline.ownSems0_none]
    exact (hout0 (E0 m ρ) c).trans (ofΦA spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at the exit contents; the
    generator register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA spec1 c _).trans (hin1 (E1 m ρ) c)
  hout c := by
    rw [Pipeline.ownSems0_none]
    exact (hout1 (E1 m ρ) c).trans (ofΦA spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at the exit contents; the
    generator register goes into the invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA spec2 c _).trans (hin2 (E2 m ρ) c)
  hout c := by
    rw [Pipeline.ownSems0_none]
    exact (hout2 (E2 m ρ) c).trans (ofΦA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .host (hseg hostOps1_1 hostOps1_1_sub hostOps1_1_fresh (W6 m ρ)),
    .host (hseg hostOps1_2 hostOps1_2_sub hostOps1_2_fresh (W7 m ρ)),
    .host (hseg hostOps1_3 hostOps1_3_sub hostOps1_3_fresh (W8 m ρ)),
    .region (reg1 m ρ),
    .host (hseg hostOps2 hostOps2_sub hostOps2_fresh (W10 m ρ)),
    .region (reg2 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Hand

end
-- ==== Proof.KernelIdeal_Frame.lean ====
/-
  The frame and the named result, read off the run: no host stretch writes an argument array and no region's
  output window is one, so each argument's buffer at the last boundary is its launch contents; the result buffer
  at the last boundary is what the linear layer's region leaves in its output array.
-/
import proofs.«405226_j38242388803875_1_alg».proof.Proof.KernelIdeal_Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The linear layer's region leaves every buffer but its output array as it found it: an input window's array is never written. -/
theorem W12_keep (c : Dev nD) (r : Ref sig .tc) (h : r ≠ main_v29) :
    W12 m ρ c (Proc.devRef .tc r) = W11 m ρ c (Proc.devRef .tc r) := by
  by_cases h0 : r = main_v28
  · subst h0; exact (W12_arr m ρ c 0).trans (((dat2 (E2 m ρ) c).arrAt_in 0 rfl _).trans (A_eq2 (E2 m ρ) c 0))
  by_cases h1 : r = main_arg3
  · subst h1; exact (W12_arr m ρ c 1).trans (((dat2 (E2 m ρ) c).arrAt_in 1 rfl _).trans (A_eq2 (E2 m ρ) c 1))
  by_cases h2 : r = main_arg4
  · subst h2; exact (W12_arr m ρ c 2).trans (((dat2 (E2 m ρ) c).arrAt_in 2 rfl _).trans (A_eq2 (E2 m ρ) c 2))
  refine W12_of_ne m ρ c r fun w => ?_
  match w with
  | ⟨0, _⟩ => exact fun e => h0 e.symm
  | ⟨1, _⟩ => exact fun e => h1 e.symm
  | ⟨2, _⟩ => exact fun e => h2 e.symm
  | ⟨3, _⟩ => exact fun e => h e.symm

/-- A buffer the first four host stretches do not write and the first segment-sum region does not stage holds, when
    that region ends, what it held at launch. -/
theorem W5_of_untouched (c : Dev nD) (r : Ref sig .tc)
    (h4 : ∀ w, Pipeline.arrRef spec0 w ≠ r) (h3 : r ∉ hostOps0_3_W) (h2 : r ∉ hostOps0_2_W) (h1 : r ∉ hostOps0_1_W) (h0 : r ∉ hostOps0_W) :
    W5 m ρ c (Proc.devRef .tc r) = m ((c : Thread nD τ).loc r) :=
  (W5_of_ne m ρ c r h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- The same up to the linear layer's entry. -/
theorem W11_of_untouched (c : Dev nD) (r : Ref sig .tc) (h10 : r ∉ hostOps2_W)
    (h9 : ∀ w, Pipeline.arrRef spec1 w ≠ r) (h8 : r ∉ hostOps1_3_W) (h7 : r ∉ hostOps1_2_W) (h6 : r ∉ hostOps1_1_W) (h5 : r ∉ hostOps1_W)
    (h4 : ∀ w, Pipeline.arrRef spec0 w ≠ r) (h3 : r ∉ hostOps0_3_W) (h2 : r ∉ hostOps0_2_W) (h1 : r ∉ hostOps0_1_W) (h0 : r ∉ hostOps0_W) :
    W11 m ρ c (Proc.devRef .tc r) = m ((c : Thread nD τ).loc r) :=
  (StableHlo.after_of_writes_sub hostOps2 _ hostOps2_writes h10).trans <|
  (W10_of_ne m ρ c r h9).trans <|
  (StableHlo.after_of_writes_sub hostOps1_3 _ hostOps1_3_writes h8).trans <|
  (StableHlo.after_of_writes_sub hostOps1_2 _ hostOps1_2_writes h7).trans <|
  (StableHlo.after_of_writes_sub hostOps1_1 _ hostOps1_1_writes h6).trans <|
  (StableHlo.after_of_writes_sub hostOps1 _ hostOps1_writes h5).trans <|
  W5_of_untouched m ρ c r h4 h3 h2 h1 h0

/-- And to the last boundary, for any buffer but the result. -/
theorem W12_of_untouched (c : Dev nD) (r : Ref sig .tc) (h12 : r ≠ main_v29) (h10 : r ∉ hostOps2_W)
    (h9 : ∀ w, Pipeline.arrRef spec1 w ≠ r) (h8 : r ∉ hostOps1_3_W) (h7 : r ∉ hostOps1_2_W) (h6 : r ∉ hostOps1_1_W) (h5 : r ∉ hostOps1_W)
    (h4 : ∀ w, Pipeline.arrRef spec0 w ≠ r) (h3 : r ∉ hostOps0_3_W) (h2 : r ∉ hostOps0_2_W) (h1 : r ∉ hostOps0_1_W) (h0 : r ∉ hostOps0_W) :
    W12 m ρ c (Proc.devRef .tc r) = m ((c : Thread nD τ).loc r) :=
  (W12_keep m ρ c r h12).trans (W11_of_untouched m ρ c r h10 h9 h8 h7 h6 h5 h4 h3 h2 h1 h0)

theorem W12_main_arg0 (c : Dev nD) : W12 m ρ c (Proc.devRef .tc main_arg0) = m ((c : Thread nD τ).loc main_arg0) :=
  W12_of_untouched m ρ c main_arg0 (by decide) (by decide) (by decide) (by decide) (by decide) (by decide) (by decide) (by decide) (by decide) (by decide) (by decide) (by decide)
theorem W12_main_arg1 (c : Dev nD) : W12 m ρ c (Proc.devRef .tc main_arg1) = m ((c : Thread nD τ).loc main_arg1) :=
  W12_of_untouched m ρ c main_arg1 (by decide) (by decide) (by decide) (by decide) (by decide) (by decide) (by decide) (by decide) (by decide) (by decide) (by decide) (by decide)
theorem W12_main_arg2 (c : Dev nD) : W12 m ρ c (Proc.devRef .tc main_arg2) = m ((c : Thread nD τ).loc main_arg2) :=
  W12_of_untouched m ρ c main_arg2 (by decide) (by decide) (by decide) (by decide) (by decide) (by decide) (by decide) (by decide) (by decide) (by decide) (by decide) (by decide)
theorem W12_main_arg3 (c : Dev nD) : W12 m ρ c (Proc.devRef .tc main_arg3) = m ((c : Thread nD τ).loc main_arg3) :=
  W12_of_untouched m ρ c main_arg3 (by decide) (by decide) (by decide) (by decide) (by decide) (by decide) (by decide) (by decide) (by decide) (by decide) (by decide) (by decide)
theorem W12_main_arg4 (c : Dev nD) : W12 m ρ c (Proc.devRef .tc main_arg4) = m ((c : Thread nD τ).loc main_arg4) :=
  W12_of_untouched m ρ c main_arg4 (by decide) (by decide) (by decide) (by decide) (by decide) (by decide) (by decide) (by decide) (by decide) (by decide) (by decide) (by decide)
theorem W12_main_arg5 (c : Dev nD) : W12 m ρ c (Proc.devRef .tc main_arg5) = m ((c : Thread nD τ).loc main_arg5) :=
  W12_of_untouched m ρ c main_arg5 (by decide) (by decide) (by decide) (by decide) (by decide) (by decide) (by decide) (by decide) (by decide) (by decide) (by decide) (by decide)
theorem W12_main_arg6 (c : Dev nD) : W12 m ρ c (Proc.devRef .tc main_arg6) = m ((c : Thread nD τ).loc main_arg6) :=
  W12_of_untouched m ρ c main_arg6 (by decide) (by decide) (by decide) (by decide) (by decide) (by decide) (by decide) (by decide) (by decide) (by decide) (by decide) (by decide)
theorem W12_main_arg7 (c : Dev nD) : W12 m ρ c (Proc.devRef .tc main_arg7) = m ((c : Thread nD τ).loc main_arg7) :=
  W12_of_untouched m ρ c main_arg7 (by decide) (by decide) (by decide) (by decide) (by decide) (by decide) (by decide) (by decide) (by decide) (by decide) (by decide) (by decide)
theorem W12_main_arg8 (c : Dev nD) : W12 m ρ c (Proc.devRef .tc main_arg8) = m ((c : Thread nD τ).loc main_arg8) :=
  W12_of_untouched m ρ c main_arg8 (by decide) (by decide) (by decide) (by decide) (by decide) (by decide) (by decide) (by decide) (by decide) (by decide) (by decide) (by decide)

/-- The result buffer at the last boundary is what the linear layer's region leaves in its output array. -/
theorem W12_main_v29 (c : Dev nD) : W12 m ρ c (Proc.devRef .tc main_v29) = (dat2 (E2 m ρ) c).arrAt 3 cfg2.N :=
  W12_arr m ρ c 3

/-- THE RUN WITH THE RESULT NAMED: every weakly fair execution terminates; the result buffer ends at what the
    last region leaves in its output array and every argument array ends as launched. -/
theorem run_named : θ_run defs (onTc (τ := τ) (main (F := F))) ⟨m, fun _ => 0, ρ⟩ (fun r => ∀ c : Dev nD,
      r.2.mem ((c.tc : Thread nD τ).loc main_v29) = (dat2 (E2 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v29 (by decide))).trans (W12_main_v29 m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c)⟩) (run m ρ)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_named m ρ)

end Cert.KernelIdeal.Hand

end
-- ==== Proof.KernelIdeal_Value2.lean ====
/-
  What region 2 (the linear layer's call) leaves in its output array: the body's arithmetic applied to the three
  arrays it is handed. The grid has one point; each window's block there is its whole array, so the blocks the
  body loads are the arrays themselves, the one block written back covers the output array, and the array ends
  holding the matrix product with the weight's rows plus the bias.
-/
import proofs.«405226_j38242388803875_1_alg».proof.Proof.KernelIdeal_Region2
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-- The one piece the body's run finds for the output is the body's arithmetic of the three loaded blocks. -/
theorem out2_eq (c : Dev nD) (i : grid2.Coords) (arg1 : Memref sig .tc .vmem S10000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S10000x128 .f32) (harg4 : arg4.IsWhole)
    (x0 : Vec F S10000x128 .f32) (x1 : Vec F S128x128 .f32) (x2 : Vec F S128 .f32) :
    out2 (F := F) c i arg1 harg1 arg2 harg2 arg3 harg3 arg4 harg4 x0 x1 x2 = k2_pay1 x0 x1 x2 := by
  unfold out2
  rw [View.read_writes_eq_canon _ _ _ (cover2 c i arg1 harg1 arg2 harg2 arg3 harg3 arg4 harg4 x0 x1 x2)]
  unfold kernelRun2
  dsimp only
  sl_unfold_words
  have hz2 : (![0, 0] : Fin 2 → Nat) = fun _ => 0 := by funext a; fin_cases a <;> rfl
  have hz1 : (![0] : Fin 1 → Nat) = fun _ => 0 := by funext a; fin_cases a; rfl
  rw [View.canon_unit_zero hz2]
  simp only [View.readAt_eq_ld, Memref.IsWhole.read_unread, View.ld_unit_zero (S := S10000x128) hz2, View.ld_unit_zero (S := S128x128) hz2, View.ld_unit_zero (S := S128) hz1]

variable (V : (c : Dev nD) → (b : Ref sig .tc) → Buf (Elt F) ((c : Thread nD τ).loc b))

/-- The activation window's block at the point is the whole activation array. -/
theorem iblk2_0_eq (c : Dev nD) (t : Fin cfg2.N) : iblk2 V c 0 t = (V c main_v28 : Vec F S10000x128 .f32) := by
  funext j
  show V c main_v28 (((cfg2.win 0).blk t).view.emb j) = V c main_v28 j
  refine congrArg _ (funext fun a => Fin.ext ?_)
  match a with
  | ⟨0, _⟩ => show win2_0.index t (0 : Fin 2) * 10000 + 1 * (j 0).val = (j 0).val; have h : win2_0.index t (0 : Fin 2) = 0 := rfl; omega
  | ⟨1, _⟩ => show win2_0.index t (1 : Fin 2) * 128 + 1 * (j 1).val = (j 1).val; have h : win2_0.index t (1 : Fin 2) = 0 := rfl; omega

/-- The weight window's block is the whole weight. -/
theorem iblk2_1_eq (c : Dev nD) (t : Fin cfg2.N) : iblk2 V c 1 t = (V c main_arg3 : Vec F S128x128 .f32) := by
  funext j
  show V c main_arg3 (((cfg2.win 1).blk t).view.emb j) = V c main_arg3 j
  refine congrArg _ (funext fun a => Fin.ext ?_)
  match a with
  | ⟨0, _⟩ => show win2_1.index t (0 : Fin 2) * 128 + 1 * (j 0).val = (j 0).val; have h : win2_1.index t (0 : Fin 2) = 0 := rfl; omega
  | ⟨1, _⟩ => show win2_1.index t (1 : Fin 2) * 128 + 1 * (j 1).val = (j 1).val; have h : win2_1.index t (1 : Fin 2) = 0 := rfl; omega

/-- The bias window's block is the whole bias. -/
theorem iblk2_2_eq (c : Dev nD) (t : Fin cfg2.N) : iblk2 V c 2 t = (V c main_arg4 : Vec F S128 .f32) := by
  funext j
  show V c main_arg4 (((cfg2.win 2).blk t).view.emb j) = V c main_arg4 j
  refine congrArg _ (funext fun a => Fin.ext ?_)
  match a with
  | ⟨0, _⟩ => show win2_2.index t (0 : Fin 1) * 128 + 1 * (j 0).val = (j 0).val; have h : win2_2.index t (0 : Fin 1) = 0 := rfl; omega

/-- What the point writes back is its block — the whole array — of the body's arithmetic of the three arrays. -/
theorem flushed2_eq (c : Dev nD) (t : Fin cfg2.N) :
    (dat2 V c).flushed 3 t = ((cfg2.win 3).blk t).view.read (Elt F) (k2_pay1 (V c main_v28) (V c main_arg3) (V c main_arg4)) := by
  show (cfg2.win 3).cut (grid2.coords t) ((dat2 V c).after 3 t) = _
  rw [after2_3]
  unfold outAt2
  rw [out2_eq, iblk2_0_eq, iblk2_1_eq, iblk2_2_eq]
  funext j
  show k2_pay1 (V c main_v28) (V c main_arg3) (V c main_arg4) j = k2_pay1 (V c main_v28) (V c main_arg3) (V c main_arg4) (((cfg2.win 3).blk t).view.emb j)
  refine congrArg _ (funext fun a => Fin.ext ?_)
  match a with
  | ⟨0, _⟩ => show (j 0).val = win2_3.index t (0 : Fin 2) * 10000 + 1 * (j 0).val; have h : win2_3.index t (0 : Fin 2) = 0 := rfl; omega
  | ⟨1, _⟩ => show (j 1).val = win2_3.index t (1 : Fin 2) * 128 + 1 * (j 1).val; have h : win2_3.index t (1 : Fin 2) = 0 := rfl; omega

/-- The grid's one point. -/
def pt2 : Fin cfg2.N := ⟨0, by rw [show cfg2.N = 1 from N_2]; decide⟩

theorem flush2_pt : (cfg2.win 3).flush pt2 = true := by decide

/-- THE OUTPUT ARRAY after the region: the body's arithmetic of the three arrays the region is handed. -/
theorem final2 (c : Dev nD) :
    (dat2 V c).arrAt 3 cfg2.N = k2_pay1 (V c main_v28) (V c main_arg3) (V c main_arg4) := by
  refine (dat2 V c).arrAt_eq_of_cover 3 _ (fun t _ => flushed2_eq V c t) fun i => ⟨pt2, flush2_pt, ?_⟩
  show i ∈ ((View.whole main_v29).slice (win2_3.rect pt2)).set
  rw [View.set_slice_whole, Rect.mem_set_unit]
  intro a
  match a with
  | ⟨0, _⟩ => show win2_3.index pt2 (0 : Fin 2) * 10000 ≤ (i 0).val ∧ (i 0).val < win2_3.index pt2 (0 : Fin 2) * 10000 + 10000; have h : win2_3.index pt2 (0 : Fin 2) = 0 := rfl; have hi : (i 0).val < 10000 := (i 0).isLt; omega
  | ⟨1, _⟩ => show win2_3.index pt2 (1 : Fin 2) * 128 ≤ (i 1).val ∧ (i 1).val < win2_3.index pt2 (1 : Fin 2) * 128 + 128; have h : win2_3.index pt2 (1 : Fin 2) = 0 := rfl; have hi : (i 1).val < 128 := (i 1).isLt; omega

end Cert.KernelIdeal.Hand

end
-- ==== Proof.Spec.lean ====
/-
  The specification: what both programs compute, as ONE function of the nine argument arrays over the extended
  reals, index by index. Two rounds of weighted message passing — a message on edge e is the source row
  (NumPy-style: a negative row number counted from the end, then clamped into the table) scaled by the edge's weight,
  and a destination row is the sum of the messages of the edges that name it (an edge whose destination is not a row
  of the result contributes nothing) — followed by a linear layer x ↦ x · Wᵀ + b.
  No program is imported here; indices are literal.
-/
import Idealize.ShloMosaic.PureOps.Ideal
import Idealize.ShloMosaic.Lib.ValueIdx

noncomputable section

open scoped BigOperators

namespace Cert.Spec

open Idealize.ShloMosaic Idealize.ShloMosaic.ValueIdx

/-- A row number as jnp indexing reads it into a table of n rows: a negative one has n added (as 32-bit words). -/
def wrap (n : ℕ) (s : BitVec 32) : BitVec 32 := if s.slt 0#32 then s + BitVec.ofNat 32 n else s

/-- The table row a gather then reads: the wrapped number, signed, clamped into [0, n − 1]. -/
def row (n : ℕ) (hn : 0 < n) (s : BitVec 32) : Fin n := ⟨min (wrap n s).toInt.toNat (n - 1), by omega⟩

/-- The one-hot entry the segment-sum kernels form: destination word d, taken relative to the first row 256·tile of
    a destination tile (as 32-bit words), against the row r inside the tile: one where they agree, else zero. -/
def hot (d : BitVec 32) (tile r : ℕ) : EReal :=
  if d - BitVec.ofNat 32 tile * 256#32 = BitVec.ofNat 32 r then 1 else 0

section
variable (X : FVec Ideal ⟨2, ![100000, 128]⟩ .f32) (EW1 : FVec Ideal ⟨1, ![1600000]⟩ .f32) (EW2 : FVec Ideal ⟨1, ![320000]⟩ .f32)
  (Wt : FVec Ideal ⟨2, ![128, 128]⟩ .f32) (B : FVec Ideal ⟨1, ![128]⟩ .f32)
  (S1 D1 : IVec ⟨1, ![1600000]⟩ 32) (S2 D2 : IVec ⟨1, ![320000]⟩ 32)

/-- Round 1's message on edge e, feature col. -/
def M1 (e : Fin 1600000) (col : Fin 128) : EReal :=
  X (ix2 (row 100000 (by decide) (S1 (ix1 e))) col) * EW1 (ix1 e)

/-- Round 1's result at row n of 50000: the messages of the edges whose destination is n. -/
def H1 (n : Fin 50000) (col : Fin 128) : EReal :=
  ∑ e ∈ Finset.univ.filter (fun e : Fin 1600000 => (D1 (ix1 e)).toInt = (n.val : ℤ)), M1 X EW1 S1 e col

/-- Round 2's message on edge e. -/
def M2 (e : Fin 320000) (col : Fin 128) : EReal :=
  H1 X EW1 S1 D1 (row 50000 (by decide) (S2 (ix1 e))) col * EW2 (ix1 e)

/-- Round 2's result at row n of 10000. -/
def H2 (n : Fin 10000) (col : Fin 128) : EReal :=
  ∑ e ∈ Finset.univ.filter (fun e : Fin 320000 => (D2 (ix1 e)).toInt = (n.val : ℤ)), M2 X EW1 EW2 S1 D1 S2 e col

/-- The result: the linear layer on round 2's rows. -/
def G (n : Fin 10000) (col : Fin 128) : EReal :=
  (∑ k : Fin 128, H2 X EW1 EW2 S1 D1 S2 D2 n k * Wt (ix2 col k)) + B (ix1 col)

end

end Cert.Spec

end
-- ==== Proof.KernelIdeal_PayIdx.lean ====
/-
  The kernel bodies' arithmetic at the ideal values, read at an index: the zero fill is zero; the segment-sum step is the accumulator plus the sum over the tile's 8192 edges of the one-hot entry times the message; the linear layer is the row-by-row product with the weight's rows plus the bias.
-/
import proofs.«405226_j38242388803875_1_alg».proof.Proof.Gen.KernelIdeal.Skeleton
import proofs.«405226_j38242388803875_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

/-! ## Column forms of a cast and a broadcast, read at coordinates -/

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along rows to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## An equality test of two words, widened and converted: one or zero -/

theorem flag_value (A B : BitVec 32) :
    (FloatOps.sitofp (F := Ideal) .f32 ((IntOp.cmpi .eq A B).setWidth 32) : EReal) = if A = B then 1 else 0 := by
  show ((((IntOp.cmpi .eq A B).setWidth 32).toInt : ℝ) : EReal) = _
  by_cases h : A = B
  · have hb : (A == B) = true := beq_iff_eq.mpr h
    have hc : IntOp.cmpi .eq A B = 1#1 := by show BitVec.ofBool (A == B) = 1#1; rw [hb]; rfl
    rw [if_pos h, hc]
    have : ((1#1 : BitVec 1).setWidth 32).toInt = 1 := by decide
    rw [this]; norm_num
  · have hb : (A == B) = false := beq_eq_false_iff_ne.mpr h
    have hc : IntOp.cmpi .eq A B = 0#1 := by show BitVec.ofBool (A == B) = 0#1; rw [hb]; rfl
    rw [if_neg h, hc]
    have : ((0#1 : BitVec 1).setWidth 32).toInt = 0 := by decide
    rw [this]; norm_num

/-! ## The segment-sum product's operand indices: both operands contract their axis 0 -/

theorem seg_lhs_0 (i : S256x128.Idx) (q : dot_S8192x256_S8192x128_S256x128_0_0_1_1_n_n.contr.Idx) :
    (dot_S8192x256_S8192x128_S256x128_0_0_1_1_n_n.lhsIdx i q 0).val = (q ⟨0, by decide⟩).val :=
  dot_S8192x256_S8192x128_S256x128_0_0_1_1_n_n.lhsIdx_val_of_single rfl i q
theorem seg_lhs_1 (i : S256x128.Idx) (q : dot_S8192x256_S8192x128_S256x128_0_0_1_1_n_n.contr.Idx) :
    (dot_S8192x256_S8192x128_S256x128_0_0_1_1_n_n.lhsIdx i q 1).val = (i 0).val := by
  unfold DotDims.lhsIdx
  rw [dif_neg (show ¬(1 : Fin S8192x256.rank) ∈ dot_S8192x256_S8192x128_S256x128_0_0_1_1_n_n.lhsBatch by decide), dif_pos (show (1 : Fin S8192x256.rank) ∈ dot_S8192x256_S8192x128_S256x128_0_0_1_1_n_n.lhsNonContracting by decide)]
  rfl
theorem seg_rhs_0 (i : S256x128.Idx) (q : dot_S8192x256_S8192x128_S256x128_0_0_1_1_n_n.contr.Idx) :
    (dot_S8192x256_S8192x128_S256x128_0_0_1_1_n_n.rhsIdx i q 0).val = (q ⟨0, by decide⟩).val :=
  dot_S8192x256_S8192x128_S256x128_0_0_1_1_n_n.rhsIdx_val_of_single rfl i q
theorem seg_rhs_1 (i : S256x128.Idx) (q : dot_S8192x256_S8192x128_S256x128_0_0_1_1_n_n.contr.Idx) :
    (dot_S8192x256_S8192x128_S256x128_0_0_1_1_n_n.rhsIdx i q 1).val = (i 1).val := by
  unfold DotDims.rhsIdx
  rw [dif_neg (show ¬(1 : Fin S8192x128.rank) ∈ dot_S8192x256_S8192x128_S256x128_0_0_1_1_n_n.rhsBatch by decide), dif_pos (show (1 : Fin S8192x128.rank) ∈ dot_S8192x256_S8192x128_S256x128_0_0_1_1_n_n.rhsNonContracting by decide)]
  rfl

/-- The product of the transposed left operand with the right one, into a zero accumulator: entry (r, col) is the sum over the 8192 rows e of left (e, r) times right (e, col). -/
theorem seg_matmul_apply (L : FVec Ideal S8192x256 .bf16) (R : FVec Ideal S8192x128 .bf16) (r : Fin 256) (col : Fin 128) :
    matmul dot_S8192x256_S8192x128_S256x128_0_0_1_1_n_n none L R (constant (F := Ideal) S256x128 .f32 0x00000000#32) (ix2 r col)
      = ∑ e : Fin 8192, L (ix2 e r) * R (ix2 e col) := by
  simp only [matmul]
  rw [Ideal.matmul_constant_zero_apply, ← Equiv.sum_comp (contrEquiv1 dot_S8192x256_S8192x128_S256x128_0_0_1_1_n_n 8192 rfl rfl).symm]
  refine Finset.sum_congr rfl fun e _ => ?_
  have he := contrEquiv1_symm_val dot_S8192x256_S8192x128_S256x128_0_0_1_1_n_n 8192 rfl rfl e
  have el : dot_S8192x256_S8192x128_S256x128_0_0_1_1_n_n.lhsIdx (ix2 r col) ((contrEquiv1 dot_S8192x256_S8192x128_S256x128_0_0_1_1_n_n 8192 rfl rfl).symm e) = ix2 e r := funext fun a => Fin.ext (by
    match a with
    | ⟨0, _⟩ => exact (seg_lhs_0 _ _).trans he
    | ⟨1, _⟩ => exact seg_lhs_1 _ _)
  have er : dot_S8192x256_S8192x128_S256x128_0_0_1_1_n_n.rhsIdx (ix2 r col) ((contrEquiv1 dot_S8192x256_S8192x128_S256x128_0_0_1_1_n_n 8192 rfl rfl).symm e) = ix2 e col := funext fun a => Fin.ext (by
    match a with
    | ⟨0, _⟩ => exact (seg_rhs_0 _ _).trans he
    | ⟨1, _⟩ => exact seg_rhs_1 _ _)
  rw [el, er]

/-! ## The linear layer's operand indices: both operands contract their axis 1 -/

theorem lin_lhs_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem lin_lhs_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem lin_rhs_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem lin_rhs_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- The product of the rows with the weight's rows, into a zero accumulator: entry (n, col) is the sum over k of left (n, k) times right (col, k). -/
theorem lin_matmul_apply (L : FVec Ideal S10000x128 .bf16) (R : FVec Ideal S128x128 .bf16) (n : Fin 10000) (col : Fin 128) :
    matmul dot_S10000x128_S128x128_S10000x128_1_1_0_0_n_n none L R (constant (F := Ideal) S10000x128 .f32 0x00000000#32) (ix2 n col)
      = ∑ k : Fin 128, L (ix2 n k) * R (ix2 col k) := by
  simp only [matmul]
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 n col) ((contrEquiv1 dot_S10000x128_S128x128_S10000x128_1_1_0_0_n_n 128 rfl rfl).symm k) = ix2 n k := funext fun a => Fin.ext (by
    match a with
    | ⟨0, _⟩ => exact lin_lhs_0 _ _
    | ⟨1, _⟩ => exact (lin_lhs_1 _ _).trans hk)
  have er : dot_S10000x128_S128x128_S10000x128_1_1_0_0_n_n.rhsIdx (ix2 n col) ((contrEquiv1 dot_S10000x128_S128x128_S10000x128_1_1_0_0_n_n 128 rfl rfl).symm k) = ix2 col k := funext fun a => Fin.ext (by
    match a with
    | ⟨0, _⟩ => exact lin_rhs_0 _ _
    | ⟨1, _⟩ => exact (lin_rhs_1 _ _).trans hk)
  rw [el, er]

/-! ## The one-hot matrix of a tile -/

/-- The one-hot matrix the segment-sum step forms from the destination words and the tile's first row t (a word):
    entry (e, j) tests whether destination e, less t, is j. -/
def hotMat (t : BitVec 32) (dst : Vec Ideal S8192 .i32) : FVec Ideal S8192x256 .bf16 :=
  truncf .bf16 (sitofp .f32 (extui 32 (cmpi .eq
    (broadcastTo S8192x256 (shapeCast S8192x1 (subi dst (broadcast S8192 t)) shapeCasts_S8192_S8192x1) broadcasts_S8192x1_S8192x256)
    (iota .tc S8192x256 32 [1] iota_S8192x256_d1_w32)) natLt_1_32)) bitsLt_bf16_f32

theorem hotMat_apply (t : BitVec 32) (dst : Vec Ideal S8192 .i32) (e : Fin 8192) (r : Fin 256) :
    hotMat t dst (ix2 e r) = if dst (ix1 e) - t = BitVec.ofNat 32 r.val then 1 else 0 := by
  unfold hotMat
  show FloatOps.sitofp (F := Ideal) .f32 ((IntOp.cmpi .eq
      (broadcastTo S8192x256 (shapeCast S8192x1 (subi dst (broadcast S8192 t)) shapeCasts_S8192_S8192x1) broadcasts_S8192x1_S8192x256 (ix2 e r))
      (iota .tc S8192x256 32 [1] iota_S8192x256_d1_w32 (ix2 e r))).setWidth 32) = _
  rw [broadcastTo_a1_ab_apply, shapeCast_a_a1_apply, iota_single_apply, flag_value]
  rfl

/-! ## The payloads at an index -/

theorem k0_pay1_apply (y : S256x128.Idx) : k0_pay1 (F := Ideal) y = 0 := by
  unfold k0_pay1
  simp only [shapeCast_self]
  exact Ideal.ofBits_zero_f32

theorem k1_pay1_apply (y : S256x128.Idx) : k1_pay1 (F := Ideal) y = 0 := by
  unfold k1_pay1
  simp only [shapeCast_self]
  exact Ideal.ofBits_zero_f32

theorem k0_pay2_eq (i : grid0.Coords) (dst : Vec Ideal S8192 .i32) (msgs : Vec Ideal S8192x128 .bf16) (acc : Vec Ideal S256x128 .f32) :
    k0_pay2 (F := Ideal) i dst msgs acc
      = addf acc (matmul (φ₁ := .bf16) (φ₂ := .bf16) dot_S8192x256_S8192x128_S256x128_0_0_1_1_n_n none (hotMat (BitVec.ofNat 32 (i 0).val * 256#32) dst) msgs
          (constant (F := Ideal) S256x128 .f32 0x00000000#32)) := by
  unfold k0_pay2 hotMat
  simp only [shapeCast_self]
  rfl

theorem k1_pay2_eq (i : grid1.Coords) (dst : Vec Ideal S8192 .i32) (msgs : Vec Ideal S8192x128 .bf16) (acc : Vec Ideal S256x128 .f32) :
    k1_pay2 (F := Ideal) i dst msgs acc
      = addf acc (matmul (φ₁ := .bf16) (φ₂ := .bf16) dot_S8192x256_S8192x128_S256x128_0_0_1_1_n_n none (hotMat (BitVec.ofNat 32 (i 0).val * 256#32) dst) msgs
          (constant (F := Ideal) S256x128 .f32 0x00000000#32)) := by
  unfold k1_pay2 hotMat
  simp only [shapeCast_self]
  rfl

/-- The accumulator plus the one-hot product, at entry (r, col). -/
theorem seg_step_apply (t : ℕ) (dst : Vec Ideal S8192 .i32) (msgs : Vec Ideal S8192x128 .bf16) (acc : Vec Ideal S256x128 .f32)
    (r : Fin 256) (col : Fin 128) :
    addf acc (matmul (φ₁ := .bf16) (φ₂ := .bf16) dot_S8192x256_S8192x128_S256x128_0_0_1_1_n_n none (hotMat (BitVec.ofNat 32 t * 256#32) dst) msgs
          (constant (F := Ideal) S256x128 .f32 0x00000000#32)) (ix2 r col)
      = acc (ix2 r col) + ∑ e : Fin 8192, Cert.Spec.hot (dst (ix1 e)) t r.val * msgs (ix2 e col) := by
  rw [addf_apply, seg_matmul_apply]
  refine congrArg (acc (ix2 r col) + ·) (Finset.sum_congr rfl fun e _ => ?_)
  rw [hotMat_apply]
  rfl

theorem k0_pay2_apply (i : grid0.Coords) (dst : Vec Ideal S8192 .i32) (msgs : Vec Ideal S8192x128 .bf16) (acc : Vec Ideal S256x128 .f32)
    (r : Fin 256) (col : Fin 128) :
    k0_pay2 (F := Ideal) i dst msgs acc (ix2 r col)
      = acc (ix2 r col) + ∑ e : Fin 8192, Cert.Spec.hot (dst (ix1 e)) (i 0).val r.val * msgs (ix2 e col) := by
  rw [k0_pay2_eq]
  exact seg_step_apply (i 0).val dst msgs acc r col

theorem k1_pay2_apply (i : grid1.Coords) (dst : Vec Ideal S8192 .i32) (msgs : Vec Ideal S8192x128 .bf16) (acc : Vec Ideal S256x128 .f32)
    (r : Fin 256) (col : Fin 128) :
    k1_pay2 (F := Ideal) i dst msgs acc (ix2 r col)
      = acc (ix2 r col) + ∑ e : Fin 8192, Cert.Spec.hot (dst (ix1 e)) (i 0).val r.val * msgs (ix2 e col) := by
  rw [k1_pay2_eq]
  exact seg_step_apply (i 0).val dst msgs acc r col

theorem k2_pay1_apply (h : Vec Ideal S10000x128 .f32) (w : Vec Ideal S128x128 .f32) (b : Vec Ideal S128 .f32) (n : Fin 10000) (col : Fin 128) :
    k2_pay1 (F := Ideal) h w b (ix2 n col) = (∑ k : Fin 128, h (ix2 n k) * w (ix2 col k)) + b (ix1 col) := by
  unfold k2_pay1
  simp only [shapeCast_self]
  show matmul (φ₁ := .bf16) (φ₂ := .bf16) dot_S10000x128_S128x128_S10000x128_1_1_0_0_n_n none (truncf .bf16 h bitsLt_bf16_f32) (truncf .bf16 w bitsLt_bf16_f32) (constant (F := Ideal) S10000x128 .f32 0x00000000#32) (ix2 n col)
      + broadcastTo S10000x128 (shapeCast S1x128 b shapeCasts_S128_S1x128) broadcasts_S1x128_S10000x128 (ix2 n col) = _
  rw [lin_matmul_apply, broadcastTo_1b_ab_apply, shapeCast_a_1a_apply]
  rfl

end Cert.KernelIdeal.Hand

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.KernelIdeal_Host.lean ====
/-
  The host stretches of the idealized kernel's @main at the ideal values, read at an index, from any contents W of the buffers before them: the gathered, weighted and zero-padded messages and the zero-padded destinations that each segment-sum call is handed, and the slice the linear layer is handed.
-/
import proofs.«405226_j38242388803875_1_alg».proof.Proof.Gen.KernelIdeal.Launch
import proofs.«405226_j38242388803875_1_alg».proof.Proof.Spec
import proofs.«405226_j38242388803875_1_alg».proof.Proof.LibRows
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

/-- The contents after the four stretches before the first segment sum. -/
abbrev aft0 (W : Valuation τ sig (Elt Ideal)) : Valuation τ sig (Elt Ideal) :=
  StableHlo.after (hostOps0_3 (F := Ideal)) (StableHlo.after (hostOps0_2 (F := Ideal)) (StableHlo.after (hostOps0_1 (F := Ideal)) (StableHlo.after (hostOps0 (F := Ideal)) W)))

/-- A list of row numbers with each negative one moved up by the word c, as the program spells it. -/
abbrev wrapVec {n : Nat} (c : BitVec 32) (hb : S_.BroadcastsInDim ⟨1, ![n]⟩ (![] : Fin 0 → Fin 1))
    (S : (⟨1, ![n]⟩ : Shape).Idx → BitVec 32) : (⟨1, ![n]⟩ : Shape).Idx → BitVec 32 :=
  select (cmpi .slt S (broadcastInDim ⟨1, ![n]⟩ ![] hb (constantI S_ 32 0#32)))
    (addi S (broadcastInDim ⟨1, ![n]⟩ ![] hb (constantI S_ 32 c))) S

/-- A message: the table's row that the row number s names (wrapped by the table's height, clamped), times the weight. -/
abbrev rowMsg {N E C : ℕ} (hN : 0 < N) (X : FVec Ideal ⟨2, ![N, C]⟩ .f32) (EW : FVec Ideal ⟨1, ![E]⟩ .f32)
    (S : IVec ⟨1, ![E]⟩ 32) (e : Fin E) (col : Fin C) : EReal :=
  X (ix2 (Cert.Spec.row N hN (S (ix1 e))) col) * EW (ix1 e)

/-- Round 1's message of the specification is the message over the 100000-row table. -/
theorem M1_eq_rowMsg (X : FVec Ideal ⟨2, ![100000, 128]⟩ .f32) (EW1 : FVec Ideal ⟨1, ![1600000]⟩ .f32)
    (S1 : IVec ⟨1, ![1600000]⟩ 32) (e : Fin 1600000) (col : Fin 128) :
    Cert.Spec.M1 X EW1 S1 e col = rowMsg (N := 100000) (by decide) X EW1 S1 e col := rfl

/-- The program's "move a negative row number up by n" at one word is the specification's. -/
theorem select_wrap (n : ℕ) (s : BitVec 32) :
    Scalar.select (IntOp.cmpi .slt s 0#32) (IntOp.addi s (BitVec.ofNat 32 n)) s = Cert.Spec.wrap n s := by
  unfold Scalar.select IntOp.cmpi IntOp.addi Cert.Spec.wrap
  cases h : s.slt 0#32 <;> simp

/-- The wrapped list read at a position. -/
theorem wrapVec_apply {n : Nat} (c : ℕ) (hb : S_.BroadcastsInDim ⟨1, ![n]⟩ (![] : Fin 0 → Fin 1))
    (S : (⟨1, ![n]⟩ : Shape).Idx → BitVec 32) (e : Fin n) :
    wrapVec (BitVec.ofNat 32 c) hb S (ix1 e) = Cert.Spec.wrap c (S (ix1 e)) :=
  select_wrap c (S (ix1 e))

/-- A list held as a one-column matrix, read at row e. -/
theorem col_apply {α : Type} {E : ℕ} (hE : E ≠ 1)
    (hb : (⟨1, ![E]⟩ : Shape).BroadcastsInDim ⟨2, ![E, 1]⟩ (![0] : Fin 1 → Fin 2))
    (x : (⟨1, ![E]⟩ : Shape).Idx → α) (e : Fin E) (z : Fin 1) :
    broadcastInDim ⟨2, ![E, 1]⟩ (![0] : Fin 1 → Fin 2) hb x (ix2 e z) = x (ix1 e) :=
  broadcastInDim_apply _ _ _ _ (ix1 e) (fun a => match a with
    | ⟨0, _⟩ => by
      show e.val = if E = 1 then 0 else e.val
      rw [if_neg hE])

/-- A one-column matrix repeated across C columns, read at (e, col). -/
theorem cols_apply {α : Type} {E C : ℕ} (hE : E ≠ 1)
    (hb : (⟨2, ![E, 1]⟩ : Shape).BroadcastsInDim ⟨2, ![E, C]⟩ (![0, 1] : Fin 2 → Fin 2))
    (x : (⟨2, ![E, 1]⟩ : Shape).Idx → α) (e : Fin E) (col : Fin C) :
    broadcastInDim ⟨2, ![E, C]⟩ (![0, 1] : Fin 2 → Fin 2) hb x (ix2 e col) = x (ix2 e (0 : Fin 1)) :=
  broadcastInDim_apply _ _ _ _ (ix2 e (0 : Fin 1)) (fun a => match a with
    | ⟨0, _⟩ => by
      show e.val = if E = 1 then 0 else e.val
      rw [if_neg hE]
    | ⟨1, _⟩ => rfl)

/-- THE MESSAGE on edge e, feature col: the table's row named by the wrapped and clamped row number, times the edge's
    weight (the conversion to the narrower format is the identity at the ideal values). -/
theorem msg_apply {N E C : ℕ} (hN : 0 < N) (hE : E ≠ 1)
    (wf : GatherDims.WF ⟨2, ![N, C]⟩ ⟨2, ![E, 1]⟩ ⟨2, ![E, C]⟩ [1] [0] [] [0] [] 1 ![1, C])
    (hb0 : S_.BroadcastsInDim ⟨1, ![E]⟩ (![] : Fin 0 → Fin 1))
    (hb1 : (⟨1, ![E]⟩ : Shape).BroadcastsInDim ⟨2, ![E, 1]⟩ (![0] : Fin 1 → Fin 2))
    (hb2 : (⟨2, ![E, 1]⟩ : Shape).BroadcastsInDim ⟨2, ![E, C]⟩ (![0, 1] : Fin 2 → Fin 2))
    (hbits : FTy.bits .bf16 < FTy.bits .f32)
    (X : FVec Ideal ⟨2, ![N, C]⟩ .f32) (S : IVec ⟨1, ![E]⟩ 32) (EW : FVec Ideal ⟨1, ![E]⟩ .f32) (e : Fin E) (col : Fin C) :
    truncf (F := Ideal) .bf16 (mulf (F := Ideal)
        (Host.gather (rowGatherDims N E C wf) X (broadcastInDim ⟨2, ![E, 1]⟩ (![0] : Fin 1 → Fin 2) hb1 (wrapVec (BitVec.ofNat 32 N) hb0 S)))
        (broadcastInDim ⟨2, ![E, C]⟩ (![0, 1] : Fin 2 → Fin 2) hb2 (broadcastInDim ⟨2, ![E, 1]⟩ (![0] : Fin 1 → Fin 2) hb1 EW)))
      hbits (ix2 e col)
      = X (ix2 (Cert.Spec.row N hN (S (ix1 e))) col) * EW (ix1 e) := by
  show Host.gather (rowGatherDims N E C wf) X (broadcastInDim ⟨2, ![E, 1]⟩ (![0] : Fin 1 → Fin 2) hb1 (wrapVec (BitVec.ofNat 32 N) hb0 S)) (ix2 e col)
      * broadcastInDim ⟨2, ![E, C]⟩ (![0, 1] : Fin 2 → Fin 2) hb2 (broadcastInDim ⟨2, ![E, 1]⟩ (![0] : Fin 1 → Fin 2) hb1 EW) (ix2 e col) = _
  have hi : broadcastInDim ⟨2, ![E, 1]⟩ (![0] : Fin 1 → Fin 2) hb1 (wrapVec (BitVec.ofNat 32 N) hb0 S) (ix2 e (0 : Fin 1))
      = Cert.Spec.wrap N (S (ix1 e)) := (col_apply hE hb1 _ e 0).trans (wrapVec_apply N hb0 S e)
  rw [rowGather_apply hN wf, cols_apply hE hb2, col_apply hE hb1 EW]
  refine congrArg (fun r : Fin N => X (ix2 r col) * EW (ix1 e)) (Fin.ext ?_)
  show min (broadcastInDim ⟨2, ![E, 1]⟩ (![0] : Fin 1 → Fin 2) hb1 (wrapVec (BitVec.ofNat 32 N) hb0 S) (ix2 e (0 : Fin 1))).toInt.toNat (N - 1)
    = min (Cert.Spec.wrap N (S (ix1 e))).toInt.toNat (N - 1)
  rw [hi]

/-- Rows appended below a matrix: inside the matrix its entry, below it the padding value. -/
theorem padRows2_apply {α : Type} {E P C hi : ℕ}
    (hp : (⟨2, ![E, C]⟩ : Shape).Pads (![0, 0] : Fin 2 → Nat) ![hi, 0] ![0, 0] ⟨2, ![P, C]⟩)
    (x : (⟨2, ![E, C]⟩ : Shape).Idx → α) {u : Shape} (v : u.Idx → α) (hu : 0 < u.numel) (e : Fin P) (col : Fin C) :
    pad ⟨2, ![P, C]⟩ (![0, 0] : Fin 2 → Nat) ![hi, 0] ![0, 0] x v hp hu (ix2 e col)
      = if h : e.val < E then x (ix2 (⟨e.val, h⟩ : Fin E) col) else v (Shape.Idx.first hu) := by
  by_cases h : e.val < E
  · rw [dif_pos h]
    exact pad_apply_of_inside _ _ _ _ _ _ _ (ix2 e col) (ix2 (⟨e.val, h⟩ : Fin E) col) (fun a => match a with
      | ⟨0, _⟩ => by show e.val = 0 + e.val * (0 + 1); omega
      | ⟨1, _⟩ => by show col.val = 0 + col.val * (0 + 1); omega)
  · rw [dif_neg h]
    refine pad_apply_of_not_inside _ _ _ _ _ _ _ (ix2 e col) (0 : Fin 2) (fun hh => h ?_)
    have h3 := hh.2.2
    change (e.val - 0) / (0 + 1) < E at h3
    simpa using h3

/-- Entries appended after a list: inside the list its entry, after it the padding value. -/
theorem padRows1_apply {α : Type} {E P hi : ℕ}
    (hp : (⟨1, ![E]⟩ : Shape).Pads (![0] : Fin 1 → Nat) ![hi] ![0] ⟨1, ![P]⟩)
    (x : (⟨1, ![E]⟩ : Shape).Idx → α) {u : Shape} (v : u.Idx → α) (hu : 0 < u.numel) (e : Fin P) :
    pad ⟨1, ![P]⟩ (![0] : Fin 1 → Nat) ![hi] ![0] x v hp hu (ix1 e)
      = if h : e.val < E then x (ix1 (⟨e.val, h⟩ : Fin E)) else v (Shape.Idx.first hu) := by
  by_cases h : e.val < E
  · rw [dif_pos h]
    exact pad_apply_of_inside _ _ _ _ _ _ _ (ix1 e) (ix1 (⟨e.val, h⟩ : Fin E)) (fun a => match a with
      | ⟨0, _⟩ => by show e.val = 0 + e.val * (0 + 1); omega)
  · rw [dif_neg h]
    refine pad_apply_of_not_inside _ _ _ _ _ _ _ (ix1 e) (0 : Fin 1) (fun hh => h ?_)
    have h3 := hh.2.2
    change (e.val - 0) / (0 + 1) < E at h3
    simpa using h3

/-! ## Before the first segment sum -/

/-- The padded messages as one composed term of the contents before. -/
theorem aft0_v11_term (W : Valuation τ sig (Elt Ideal)) :
    (aft0 W (Proc.devRef .tc main_v11) : FVec Ideal S1605632x128 .bf16)
      = pad S1605632x128 ![0, 0] ![5632, 0] ![0, 0]
          (truncf (F := Ideal) .bf16 (mulf (F := Ideal)
            (Host.gather gather_S100000x128_S1600000x1_S1600000x128_1_0_n_n_0_1_1128
              (W (Proc.devRef .tc main_arg0) : FVec Ideal S100000x128 .f32)
              (broadcastInDim S1600000x1 ![0] bcast_S1600000_S1600000x1_0
                (wrapVec 100000#32 bcast_S_S1600000 (W (Proc.devRef .tc main_arg5) : IVec S1600000 32))))
            (broadcastInDim S1600000x128 ![0, 1] bcast_S1600000x1_S1600000x128_0_1
              (broadcastInDim S1600000x1 ![0] bcast_S1600000_S1600000x1_0 (W (Proc.devRef .tc main_arg1) : FVec Ideal S1600000 .f32))))
            bitsLt_bf16_f32)
          (sitofp (F := Ideal) .bf16 (constantI S_ 32 0#32)) pads_S1600000x128_S1605632x128_056320_000 h_S_ := by
  dsimp only [aft0, hostOps0, hostOps0_1, hostOps0_2, hostOps0_3]
  after_results
  rfl

/-- The padded destinations as one composed term of the contents before. -/
theorem aft0_v12_term (W : Valuation τ sig (Elt Ideal)) :
    (aft0 W (Proc.devRef .tc main_v12) : IVec S1605632 32)
      = pad S1605632 ![0] ![5632] ![0] (W (Proc.devRef .tc main_arg6) : IVec S1600000 32)
          (constantI S_ 32 0#32) pads_S1600000_S1605632_056320 h_S_ := by
  dsimp only [aft0, hostOps0, hostOps0_1, hostOps0_2, hostOps0_3]
  after_results
  rfl

/-- THE FIRST SEGMENT SUM'S MESSAGES: row e of the 1605632, feature col, is round 1's message on edge e, and zero on
    the 5632 rows appended. -/
theorem aft0_v11 (W : Valuation τ sig (Elt Ideal)) (e : Fin 1605632) (col : Fin 128) :
    aft0 W (Proc.devRef .tc main_v11) (ix2 e col)
      = if h : e.val < 1600000 then
          Cert.Spec.M1 (W (Proc.devRef .tc main_arg0)) (W (Proc.devRef .tc main_arg1)) (W (Proc.devRef .tc main_arg5)) ⟨e.val, h⟩ col
        else 0 := by
  refine (congrFun (aft0_v11_term W) (ix2 e col)).trans ?_
  refine (padRows2_apply pads_S1600000x128_S1605632x128_056320_000 _ _ h_S_ e col).trans ?_
  by_cases h : e.val < 1600000
  · rw [dif_pos h, dif_pos h]
    exact msg_apply (N := 100000) (E := 1600000) (C := 128) (by decide) (by decide)
      gather_S100000x128_S1600000x1_S1600000x128_1_0_n_n_0_1_1128_wf bcast_S_S1600000 bcast_S1600000_S1600000x1_0
      bcast_S1600000x1_S1600000x128_0_1 bitsLt_bf16_f32 _ _ _ ⟨e.val, h⟩ col
  · rw [dif_neg h, dif_neg h]
    exact sitofp_zero (φ := .bf16)

/-- THE FIRST SEGMENT SUM'S DESTINATIONS: entry e of the 1605632 is edge e's destination word, and the word zero on
    the 5632 entries appended. -/
theorem aft0_v12 (W : Valuation τ sig (Elt Ideal)) (e : Fin 1605632) :
    aft0 W (Proc.devRef .tc main_v12) (ix1 e)
      = if h : e.val < 1600000 then W (Proc.devRef .tc main_arg6) (ix1 (⟨e.val, h⟩ : Fin 1600000)) else 0#32 := by
  refine (congrFun (aft0_v12_term W) (ix1 e)).trans ?_
  exact padRows1_apply pads_S1600000_S1605632_056320 _ _ h_S_ e

/-! ## Before the second segment sum -/

/-- The contents after the four stretches between the two segment sums. -/
abbrev aft1 (W' : Valuation τ sig (Elt Ideal)) : Valuation τ sig (Elt Ideal) :=
  StableHlo.after (hostOps1_3 (F := Ideal)) (StableHlo.after (hostOps1_2 (F := Ideal)) (StableHlo.after (hostOps1_1 (F := Ideal)) (StableHlo.after (hostOps1 (F := Ideal)) W')))

/-- The padded messages of round 2 as one composed term of the contents before. -/
theorem aft1_v25_term (W' : Valuation τ sig (Elt Ideal)) :
    (aft1 W' (Proc.devRef .tc main_v25) : FVec Ideal S327680x128 .bf16)
      = pad S327680x128 ![0, 0] ![7680, 0] ![0, 0]
          (truncf (F := Ideal) .bf16 (mulf (F := Ideal)
            (Host.gather gather_S50176x128_S320000x1_S320000x128_1_0_n_n_0_1_1128
              (W' (Proc.devRef .tc main_v13) : FVec Ideal S50176x128 .f32)
              (broadcastInDim S320000x1 ![0] bcast_S320000_S320000x1_0
                (wrapVec 50176#32 bcast_S_S320000 (W' (Proc.devRef .tc main_arg7) : IVec S320000 32))))
            (broadcastInDim S320000x128 ![0, 1] bcast_S320000x1_S320000x128_0_1
              (broadcastInDim S320000x1 ![0] bcast_S320000_S320000x1_0 (W' (Proc.devRef .tc main_arg2) : FVec Ideal S320000 .f32))))
            bitsLt_bf16_f32)
          (sitofp (F := Ideal) .bf16 (constantI S_ 32 0#32)) pads_S320000x128_S327680x128_076800_000 h_S_ := by
  dsimp only [aft1, hostOps1, hostOps1_1, hostOps1_2, hostOps1_3]
  after_results
  rfl

/-- The padded destinations of round 2 as one composed term of the contents before. -/
theorem aft1_v26_term (W' : Valuation τ sig (Elt Ideal)) :
    (aft1 W' (Proc.devRef .tc main_v26) : IVec S327680 32)
      = pad S327680 ![0] ![7680] ![0] (W' (Proc.devRef .tc main_arg8) : IVec S320000 32)
          (constantI S_ 32 0#32) pads_S320000_S327680_076800 h_S_ := by
  dsimp only [aft1, hostOps1, hostOps1_1, hostOps1_2, hostOps1_3]
  after_results
  rfl

/-- THE SECOND SEGMENT SUM'S MESSAGES: row e of the 327680, feature col, is the first sum's result at the row edge e
    names (wrapped by 50176, clamped) times the edge's weight, and zero on the 7680 rows appended. -/
theorem aft1_v25 (W' : Valuation τ sig (Elt Ideal)) (e : Fin 327680) (col : Fin 128) :
    aft1 W' (Proc.devRef .tc main_v25) (ix2 e col)
      = if h : e.val < 320000 then
          rowMsg (N := 50176) (by decide) (W' (Proc.devRef .tc main_v13)) (W' (Proc.devRef .tc main_arg2)) (W' (Proc.devRef .tc main_arg7)) ⟨e.val, h⟩ col
        else 0 := by
  refine (congrFun (aft1_v25_term W') (ix2 e col)).trans ?_
  refine (padRows2_apply pads_S320000x128_S327680x128_076800_000 _ _ h_S_ e col).trans ?_
  by_cases h : e.val < 320000
  · rw [dif_pos h, dif_pos h]
    exact msg_apply (N := 50176) (E := 320000) (C := 128) (by decide) (by decide)
      gather_S50176x128_S320000x1_S320000x128_1_0_n_n_0_1_1128_wf bcast_S_S320000 bcast_S320000_S320000x1_0
      bcast_S320000x1_S320000x128_0_1 bitsLt_bf16_f32 _ _ _ ⟨e.val, h⟩ col
  · rw [dif_neg h, dif_neg h]
    exact sitofp_zero (φ := .bf16)

/-- THE SECOND SEGMENT SUM'S DESTINATIONS: entry e of the 327680 is edge e's destination word, and the word zero on
    the 7680 entries appended. -/
theorem aft1_v26 (W' : Valuation τ sig (Elt Ideal)) (e : Fin 327680) :
    aft1 W' (Proc.devRef .tc main_v26) (ix1 e)
      = if h : e.val < 320000 then W' (Proc.devRef .tc main_arg8) (ix1 (⟨e.val, h⟩ : Fin 320000)) else 0#32 := by
  refine (congrFun (aft1_v26_term W') (ix1 e)).trans ?_
  exact padRows1_apply pads_S320000_S327680_076800 _ _ h_S_ e

/-! ## Before the linear layer -/

/-- THE LINEAR LAYER'S ROWS: the first 10000 rows of the second sum's result. -/
theorem aft2_v28 (W'' : Valuation τ sig (Elt Ideal)) (n : Fin 10000) (col : Fin 128) :
    StableHlo.after (hostOps2 (F := Ideal)) W'' (Proc.devRef .tc main_v28) (ix2 n col)
      = W'' (Proc.devRef .tc main_v27) (ix2 (⟨n.val, by omega⟩ : Fin 10240) col) := by
  have e : (StableHlo.after (hostOps2 (F := Ideal)) W'' (Proc.devRef .tc main_v28) : FVec Ideal S10000x128 .f32)
      = extractStridedSlice S10000x128 ![0, 0] (W'' (Proc.devRef .tc main_v27) : FVec Ideal S10240x128 .f32)
          slices_S10240x128_S10000x128_0_0 := by
    dsimp only [hostOps2]
    after_results
  refine (congrFun e (ix2 n col)).trans ?_
  exact slice2_axis0_apply 0 _ slices_S10240x128_S10000x128_0_0 n col ⟨n.val, by omega⟩ (Nat.zero_add _).symm

end Cert.KernelIdeal.Hand

end
-- ==== Proof.Bridge.lean ====
/-
  The arithmetic that joins the two programs. The kernel's segment sum is a double sum, over edge tiles and the
  8192 edges of a tile, of a one-hot entry times a message, over edge lists padded with zero messages (destination 0);
  the reference's is a sum over the edges whose destination is the row. They are equal: a one-hot entry is one
  exactly when the edge's destination is the row, a padding edge carries the message zero, and tile j's edge e is
  edge 8192·j + e. And a row number within [0, n) is read the same way into a table of n rows or of more.
-/
import proofs.«405226_j38242388803875_1_alg».proof.Proof.Spec
import Mathlib.Algebra.BigOperators.Fin
import Mathlib.Data.EReal.Basic
import Mathlib.Logic.Equiv.Fin.Basic
import Mathlib.Algebra.BigOperators.Group.Finset.Basic

noncomputable section

open scoped BigOperators

namespace Cert.Spec

/-- The 32-bit test "d − 256·(R / 256) = R % 256" is the test "d = R" when R is below 2²⁰. -/
theorem hot_cond_iff (d : BitVec 32) (R : ℕ) (hR : R < 1048576) :
    (d - BitVec.ofNat 32 (R / 256) * 256#32 = BitVec.ofNat 32 (R % 256)) ↔ d.toInt = (R : ℤ) := by
  have hq : R / 256 < 4096 := by omega
  have hr : R % 256 < 256 := Nat.mod_lt _ (by decide)
  have hdec : R / 256 * 256 + R % 256 = R := by omega
  have hd : d.toNat < 4294967296 := d.isLt
  constructor
  · intro h
    have h2 := congrArg BitVec.toNat h
    simp only [BitVec.toNat_sub, BitVec.toNat_mul, BitVec.toNat_ofNat] at h2
    rw [BitVec.toInt_eq_toNat_cond]
    omega
  · intro h
    rw [BitVec.toInt_eq_toNat_cond] at h
    apply BitVec.eq_of_toNat_eq
    simp only [BitVec.toNat_sub, BitVec.toNat_mul, BitVec.toNat_ofNat]
    omega

theorem hot_eq (d : BitVec 32) (R : ℕ) (hR : R < 1048576) :
    hot d (R / 256) (R % 256) = if d.toInt = (R : ℤ) then (1 : EReal) else 0 := by
  unfold hot
  by_cases h : d.toInt = (R : ℤ)
  · rw [if_pos h, if_pos ((hot_cond_iff d R hR).2 h)]
  · rw [if_neg h, if_neg (fun h' => h ((hot_cond_iff d R hR).1 h'))]

/-- A one-hot entry times a message is the message when the edge's destination is the row, else zero. -/
theorem hot_mul (d : BitVec 32) (R : ℕ) (hR : R < 1048576) (x : EReal) :
    hot d (R / 256) (R % 256) * x = if d.toInt = (R : ℤ) then x else 0 := by
  rw [hot_eq d R hR]
  by_cases h : d.toInt = (R : ℤ)
  · rw [if_pos h, if_pos h, one_mul]
  · rw [if_neg h, if_neg h, zero_mul]

/-- The summand of the padded list at position k: the message when k is an edge whose destination is the row. -/
def paddedTerm (E : ℕ) (D : Fin E → BitVec 32) (Mv : Fin E → EReal) (R : ℕ) (k : ℕ) : EReal :=
  if h : k < E then (if (D ⟨k, h⟩).toInt = (R : ℤ) then Mv ⟨k, h⟩ else 0) else 0

theorem summand_eq_term (E : ℕ) (D : Fin E → BitVec 32) (Mv : Fin E → EReal) (R : ℕ) (hR : R < 1048576) (k : ℕ) :
    hot (if h : k < E then D ⟨k, h⟩ else 0#32) (R / 256) (R % 256) * (if h : k < E then Mv ⟨k, h⟩ else 0)
      = paddedTerm E D Mv R k := by
  unfold paddedTerm
  by_cases h : k < E
  · rw [dif_pos h, dif_pos h, dif_pos h]
    exact hot_mul _ R hR _
  · rw [dif_neg h, dif_neg h, dif_neg h, mul_zero]

/-- Tile j's edge e is position 8192·j + e: the double sum over tiles and edges of a tile is the sum over all
    positions below 8192·J. -/
theorem sum_tiles (J : ℕ) (f : ℕ → EReal) :
    (∑ j : Fin J, ∑ e : Fin 8192, f (8192 * j.val + e.val)) = ∑ k ∈ Finset.range (J * 8192), f k := by
  rw [← Fin.sum_univ_eq_sum_range, ← Fintype.sum_prod_type']
  rw [← Equiv.sum_comp (finProdFinEquiv (m := J) (n := 8192)) (fun k : Fin (J * 8192) => f k.val)]
  refine Finset.sum_congr rfl ?_
  intro p _
  have : ((finProdFinEquiv (m := J) (n := 8192)) p).val = 8192 * p.1.val + p.2.val := by
    rw [finProdFinEquiv_apply_val]; omega
  rw [this]

theorem padded_onehot_sum (J E : ℕ) (hE : E ≤ J * 8192) (D : Fin E → BitVec 32) (Mv : Fin E → EReal) (R : ℕ)
    (hR : R < 1048576) :
    (∑ j : Fin J, ∑ e : Fin 8192,
        hot (if h : 8192 * j.val + e.val < E then D ⟨8192 * j.val + e.val, h⟩ else 0#32) (R / 256) (R % 256)
          * (if h : 8192 * j.val + e.val < E then Mv ⟨8192 * j.val + e.val, h⟩ else 0))
      = ∑ e ∈ Finset.univ.filter (fun e : Fin E => (D e).toInt = (R : ℤ)), Mv e := by
  have h1 : (∑ j : Fin J, ∑ e : Fin 8192,
        hot (if h : 8192 * j.val + e.val < E then D ⟨8192 * j.val + e.val, h⟩ else 0#32) (R / 256) (R % 256)
          * (if h : 8192 * j.val + e.val < E then Mv ⟨8192 * j.val + e.val, h⟩ else 0))
      = ∑ j : Fin J, ∑ e : Fin 8192, paddedTerm E D Mv R (8192 * j.val + e.val) := by
    refine Finset.sum_congr rfl (fun j _ => Finset.sum_congr rfl (fun e _ => ?_))
    exact summand_eq_term E D Mv R hR _
  rw [h1, sum_tiles J (paddedTerm E D Mv R)]
  -- the positions from E on carry zero
  have h2 : ∑ k ∈ Finset.range (J * 8192), paddedTerm E D Mv R k = ∑ k ∈ Finset.range E, paddedTerm E D Mv R k := by
    symm
    refine Finset.sum_subset (Finset.range_subset_range.2 hE) ?_
    intro k _ hk
    have hk' : ¬ k < E := by simpa [Finset.mem_range] using hk
    unfold paddedTerm
    rw [dif_neg hk']
  rw [h2, ← Fin.sum_univ_eq_sum_range, Finset.sum_filter]
  refine Finset.sum_congr rfl ?_
  intro e _
  unfold paddedTerm
  rw [dif_pos e.isLt]

/-- A row number within [0, n) is read as itself. -/
theorem wrap_of_nonneg (n : ℕ) (s : BitVec 32) (h0 : 0 ≤ s.toInt) : wrap n s = s := by
  unfold wrap
  have h : ¬ (s.slt 0#32 = true) := by
    rw [BitVec.slt_iff_toInt_lt]
    simp only [BitVec.toInt_zero]
    omega
  rw [if_neg h]

theorem row_val_of_range (n : ℕ) (hn : 0 < n) (s : BitVec 32) (h0 : 0 ≤ s.toInt) (h1 : s.toInt < (n : ℤ)) :
    (row n hn s).val = s.toInt.toNat := by
  unfold row
  simp only [wrap_of_nonneg n s h0]
  omega

/-- A row number within [0, n) names the same row of a table of n rows and of a table of m ≥ n rows. -/
theorem row_val_mono (n m : ℕ) (hn : 0 < n) (hm : 0 < m) (hnm : n ≤ m) (s : BitVec 32) (h0 : 0 ≤ s.toInt)
    (h1 : s.toInt < (n : ℤ)) : (row m hm s).val = (row n hn s).val := by
  rw [row_val_of_range n hn s h0 h1, row_val_of_range m hm s h0 (by omega)]

theorem row_50176_eq_row_50000 (s : BitVec 32) (h0 : 0 ≤ s.toInt) (h1 : s.toInt < 50000) :
    (row 50176 (by decide) s).val = (row 50000 (by decide) s).val :=
  row_val_mono 50000 50176 (by decide) (by decide) (by decide) s h0 (by exact_mod_cast h1)

/-- The value of a row read is below the table size n whenever the number is in [0, n). -/
theorem row_val_lt_of_range (n m : ℕ) (hm : 0 < m) (hnm : n ≤ m) (s : BitVec 32) (h0 : 0 ≤ s.toInt)
    (h1 : s.toInt < (n : ℤ)) : (row m hm s).val < n := by
  rw [row_val_of_range m hm s h0 (by omega)]
  omega

end Cert.Spec

end
-- ==== Proof.KernelIdeal_Value0.lean ====
/-
  What region 0 (the first segment-sum call) leaves in its output array, at the ideal values: row R, feature col holds the sum over all 196 × 8192 padded edges of the one-hot entry of the edge's destination against R times the edge's message.
-/
import proofs.«405226_j38242388803875_1_alg».proof.Proof.KernelIdeal_Region0
import proofs.«405226_j38242388803875_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Pieces

open Idealize.ShloMosaic.Tactic

variable {F : FTy → Type} [FloatOps F]

/-- The literal rectangles' offsets are zero. -/
theorem hz0 : (![0, 0] : Fin 2 → Nat) = fun _ => 0 := funext fun a => by fin_cases a <;> rfl
theorem hz1 : (![0] : Fin 1 → Nat) = fun _ => 0 := funext fun a => by fin_cases a; rfl

/-- A load through the whole-shape rectangle of what a LAST store through it left reads that store's payload, whatever was stored before. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩), View.canon_cons_unit_zero h, View.ld_unit_zero h]

/-! ## The found pieces are the payloads -/

/-- Where the reset is not taken the accumulator is left at its contents plus the point's one-hot product. -/
theorem sout0_B_eq (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond0 i)
    (x0 : Vec F S8192x128 .bf16) (x1 : Vec F S8192 .i32) (xs : Vec F S256x128 .f32) :
    sout0_B c i arg2 harg2 arg3 harg3 arg4 harg4 arg5 harg5 hc x0 x1 xs = k0_pay2 i x1 x0 xs := by
  unfold sout0_B
  rw [View.read_writes_eq_canon _ _ _ (scover0_B c i arg2 harg2 arg3 harg3 arg4 harg4 arg5 harg5 hc x0 x1 xs)]
  unfold kernelRun0_B
  dsimp only
  sl_unfold_words
  rw [View.canon_unit_zero hz0]
  simp only [View.readAt_eq_ld, harg2.read_unread, harg3.read_unread, harg5.read_unread, View.ld_unit_zero (S := S256x128) hz0, View.ld_unit_zero (S := S8192x128) hz0, View.ld_unit_zero (S := S8192) hz1, View.readCov_unit_zero (S := S256x128) _ hz0]

/-- and the output's staging buffer holds a copy of it. -/
theorem out0_B_eq (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond0 i)
    (x0 : Vec F S8192x128 .bf16) (x1 : Vec F S8192 .i32) (xs : Vec F S256x128 .f32) :
    out0_B c i arg2 harg2 arg3 harg3 arg4 harg4 arg5 harg5 hc x0 x1 xs = k0_pay2 i x1 x0 xs := by
  unfold out0_B
  rw [View.read_writes_eq_canon _ _ _ (cover0_B c i arg2 harg2 arg3 harg3 arg4 harg4 arg5 harg5 hc x0 x1 xs)]
  unfold kernelRun0_B
  dsimp only
  sl_unfold_words
  rw [View.canon_unit_zero hz0]
  simp only [View.readAt_eq_ld, harg2.read_unread, harg3.read_unread, harg5.read_unread, View.ld_unit_zero (S := S256x128) hz0, View.ld_unit_zero (S := S8192x128) hz0, View.ld_unit_zero (S := S8192) hz1, View.readCov_unit_zero (S := S256x128) _ hz0]

/-- Where the reset is taken the accumulator is zeroed first: it is left at the zero fill plus the point's one-hot product. -/
theorem sout0_A_eq (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond0 i)
    (x0 : Vec F S8192x128 .bf16) (x1 : Vec F S8192 .i32) :
    sout0_A c i arg2 harg2 arg3 harg3 arg4 harg4 arg5 harg5 hc x0 x1 = k0_pay2 i x1 x0 (k0_pay1 (F := F)) := by
  unfold sout0_A
  rw [View.read_writes_eq_canon _ _ _ (scover0_A c i arg2 harg2 arg3 harg3 arg4 harg4 arg5 harg5 hc x0 x1)]
  unfold kernelRun0_A
  dsimp only
  sl_unfold_words
  rw [View.canon_cons_unit_zero (S := S256x128) hz0]
  simp only [View.readAt_eq_ld, harg2.read_unread, harg3.read_unread, harg5.read_unread, View.ld_unit_zero (S := S256x128) hz0, View.ld_unit_zero (S := S8192x128) hz0, View.ld_unit_zero (S := S8192) hz1, View.readCov_unit_zero (S := S256x128) _ hz0]

/-- and the output's staging buffer holds a copy of it. -/
theorem out0_A_eq (c : Dev nD) (i : grid0.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond0 i)
    (x0 : Vec F S8192x128 .bf16) (x1 : Vec F S8192 .i32) :
    out0_A c i arg2 harg2 arg3 harg3 arg4 harg4 arg5 harg5 hc x0 x1 = k0_pay2 i x1 x0 (k0_pay1 (F := F)) := by
  unfold out0_A
  rw [View.read_writes_eq_canon _ _ _ (cover0_A c i arg2 harg2 arg3 harg3 arg4 harg4 arg5 harg5 hc x0 x1)]
  unfold kernelRun0_A
  dsimp only
  sl_unfold_words
  rw [View.canon_unit_zero (S := S256x128) hz0, readCov_cons_unit_zero (S := S256x128) _ hz0]
  simp only [View.readAt_eq_ld, harg2.read_unread, harg3.read_unread, harg5.read_unread, View.ld_unit_zero (S := S256x128) hz0, View.ld_unit_zero (S := S8192x128) hz0, View.ld_unit_zero (S := S8192) hz1, View.readCov_unit_zero (S := S256x128) _ hz0]

end Pieces

section Schedule

/-! ## The schedule in closed form -/

theorem stride0_0 : grid0.stride 0 = 196 := by decide
theorem stride0_1 : grid0.stride 1 = 1 := by decide

/-- Point t works on destination tile t / 196 -/
theorem coords0_0 (t : Fin cfg0.N) : ((grid0.coords t) 0).val = t.val / 196 := by
  have hN : grid0.N = 38416 := N_0
  have ht : t.val < grid0.N := t.isLt
  show t.val / grid0.stride 0 % 196 = t.val / 196
  rw [stride0_0]
  omega

/-- and edge tile t % 196. -/
theorem coords0_1 (t : Fin cfg0.N) : ((grid0.coords t) 1).val = t.val % 196 := by
  show t.val / grid0.stride 1 % 196 = t.val % 196
  rw [stride0_1, Nat.div_one]

/-- The reset test on 32-bit words, for an edge tile below 196: it is taken at edge tile 0 only. -/
theorem cond_word : ∀ n : Nat, n < 196 →
    ((Scalar.cmpi .ne (Scalar.extui (Scalar.cmpi .eq (BitVec.ofNat 32 n) 0#32)) 0#32) = 1#1 ↔ n = 0) := by
  decide +kernel

/-- The reset is taken exactly at the first edge tile of each destination tile. -/
theorem cond0_iff (t : Fin cfg0.N) : cond0 (grid0.coords t) ↔ t.val % 196 = 0 := by
  have h := cond_word ((grid0.coords t) 1).val ((grid0.coords t) 1).isLt
  exact h.trans (by rw [coords0_1])

/-- The output window's block index at point t: (destination tile, 0). -/
theorem index0_2 (t : Fin cfg0.N) : win0_2.index t = ![t.val / 196, 0] := by
  have h0 := coords0_0 t
  have hN : grid0.N = 38416 := N_0
  have ht : t.val < grid0.N := t.isLt
  show cc0_transform_2 (grid0.coords t) = _
  unfold cc0_transform_2
  dsimp only
  rw [h0]
  have e : (BitVec.ofNat 32 (t.val / 196)).toNat = t.val / 196 := by rw [BitVec.toNat_ofNat]; omega
  rw [e]; rfl

/-- The output block is written back exactly at the last edge tile of each destination tile. -/
theorem flush0_2_iff (t : Fin cfg0.N) : (cfg0.win 2).flush t = true ↔ t.val % 196 = 195 := by
  have hN : grid0.N = 38416 := N_0
  have ht : t.val < grid0.N := t.isLt
  show win0_2.flush t = true ↔ _
  unfold Pipeline.Window.flush
  rw [show win0_2.isOut = true from rfl, Bool.true_and, Bool.or_eq_true, decide_eq_true_eq, decide_eq_true_eq]
  constructor
  · rintro (h | ⟨h, hne⟩)
    · omega
    · by_contra hc
      apply hne
      rw [index0_2 ⟨t.val + 1, h⟩, index0_2 t]
      have : (t.val + 1) / 196 = t.val / 196 := by omega
      show ![(t.val + 1) / 196, 0] = _
      rw [this]
  · intro h
    by_cases hl : t.val + 1 = grid0.N
    · exact Or.inl hl
    · have hlt : t.val + 1 < grid0.N := by omega
      refine Or.inr ⟨hlt, ?_⟩
      rw [index0_2 ⟨t.val + 1, hlt⟩, index0_2 t]
      intro e
      have e0 := congrFun e 0
      have : (t.val + 1) / 196 = t.val / 196 := e0
      omega

end Schedule

section Fold

variable {F : FTy → Type} [FloatOps F]
variable (V : (c : Dev nD) → (b : Ref sig .tc) → Buf (Elt F) ((c : Thread nD τ).loc b))

/-! ## The accumulation as a fold -/

/-- The point's block of messages and its block of destinations, at their literal types. -/
abbrev mblk0 (c : Dev nD) (t : Fin cfg0.N) : Vec F S8192x128 .bf16 := iblk0 V c 0 t
abbrev dblk0 (c : Dev nD) (t : Fin cfg0.N) : Vec F S8192 .i32 := iblk0 V c 1 t

/-- The point's step on the accumulator: add the one-hot product of the point's destinations with the point's messages. -/
abbrev step0 (c : Dev nD) (n : ℕ) (hn : n < cfg0.N) (acc : Vec F S256x128 .f32) : Vec F S256x128 .f32 :=
  k0_pay2 (grid0.coords ⟨n, hn⟩) (dblk0 V c ⟨n, hn⟩) (mblk0 V c ⟨n, hn⟩) acc

/-- After every point the output's staging buffer holds a copy of the accumulator. -/
theorem outsAt0_fst_eq_snd (c : Dev nD) (t : ℕ) (ht : t < cfg0.N) : (outsAt0 V c t ht).1 = (outsAt0 V c t ht).2 := by
  by_cases h : cond0 (grid0.coords ⟨t, ht⟩)
  · rw [outsAt0_A V c ⟨t, ht⟩ h]; dsimp only
    exact (out0_A_eq c (grid0.coords ⟨t, ht⟩) (ms0_0 ⟨t, ht⟩) (hs0_0 ⟨t, ht⟩) (ms0_1 ⟨t, ht⟩) (hs0_1 ⟨t, ht⟩) (ms0_2 ⟨t, ht⟩) (hs0_2 ⟨t, ht⟩) scM0 (Memref.isWhole_whole _) h (mblk0 V c ⟨t, ht⟩) (dblk0 V c ⟨t, ht⟩)).trans
      (sout0_A_eq c (grid0.coords ⟨t, ht⟩) (ms0_0 ⟨t, ht⟩) (hs0_0 ⟨t, ht⟩) (ms0_1 ⟨t, ht⟩) (hs0_1 ⟨t, ht⟩) (ms0_2 ⟨t, ht⟩) (hs0_2 ⟨t, ht⟩) scM0 (Memref.isWhole_whole _) h (mblk0 V c ⟨t, ht⟩) (dblk0 V c ⟨t, ht⟩)).symm
  · rw [outsAt0_B V c ⟨t, ht⟩ h]; dsimp only
    exact (out0_B_eq c (grid0.coords ⟨t, ht⟩) (ms0_0 ⟨t, ht⟩) (hs0_0 ⟨t, ht⟩) (ms0_1 ⟨t, ht⟩) (hs0_1 ⟨t, ht⟩) (ms0_2 ⟨t, ht⟩) (hs0_2 ⟨t, ht⟩) scM0 (Memref.isWhole_whole _) h (mblk0 V c ⟨t, ht⟩) (dblk0 V c ⟨t, ht⟩) (outsAt0 V c (t - 1) (Nat.lt_of_le_of_lt (Nat.sub_le _ _) ht)).2).trans
      (sout0_B_eq c (grid0.coords ⟨t, ht⟩) (ms0_0 ⟨t, ht⟩) (hs0_0 ⟨t, ht⟩) (ms0_1 ⟨t, ht⟩) (hs0_1 ⟨t, ht⟩) (ms0_2 ⟨t, ht⟩) (hs0_2 ⟨t, ht⟩) scM0 (Memref.isWhole_whole _) h (mblk0 V c ⟨t, ht⟩) (dblk0 V c ⟨t, ht⟩) (outsAt0 V c (t - 1) (Nat.lt_of_le_of_lt (Nat.sub_le _ _) ht)).2).symm

/-- The accumulator after point t is the fold over the run of points of t's destination tile up to t: the zero fill
    stepped at the tile's first point, then one step per point. -/
theorem outsAt0_snd_eq_accAt (c : Dev nD) (t : ℕ) (ht : t < cfg0.N) (h' : 196 * (t / 196) + t % 196 < cfg0.N) :
    (outsAt0 V c t ht).2
      = Pipeline.accAt (fun n hn => step0 V c n hn (k0_pay1 (F := F))) (fun n hn acc => step0 V c n hn acc)
          (196 * (t / 196)) (t % 196) h' := by
  refine Pipeline.eq_accAt_of_mod (fun n hn => (outsAt0 V c n hn).2) 196 _ _ ?_ ?_ (by norm_num) t ht h'
  · intro n h hm
    have hc : cond0 (grid0.coords ⟨n, h⟩) := (cond0_iff ⟨n, h⟩).mpr hm
    show (outsAt0 V c n h).2 = _
    rw [outsAt0_A V c ⟨n, h⟩ hc]; dsimp only
    exact sout0_A_eq c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0 (Memref.isWhole_whole _) hc (mblk0 V c ⟨n, h⟩) (dblk0 V c ⟨n, h⟩)
  · intro n h hm
    have hc : ¬cond0 (grid0.coords ⟨n + 1, h⟩) := fun hc => hm ((cond0_iff ⟨n + 1, h⟩).mp hc)
    show (outsAt0 V c (n + 1) h).2 = step0 V c (n + 1) h (outsAt0 V c n (Nat.lt_of_succ_lt h)).2
    rw [outsAt0_B V c ⟨n + 1, h⟩ hc]; dsimp only
    exact sout0_B_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0 (Memref.isWhole_whole _) hc (mblk0 V c ⟨n + 1, h⟩) (dblk0 V c ⟨n + 1, h⟩) (outsAt0 V c n (Nat.lt_of_succ_lt h)).2

/-- The same with the offset in the run named by a variable. -/
theorem outsAt0_snd_eq_accAt_of (c : Dev nD) (t : ℕ) (ht : t < cfg0.N) (j : ℕ) (hj : t % 196 = j) (h' : 196 * (t / 196) + j < cfg0.N) :
    (outsAt0 V c t ht).2
      = Pipeline.accAt (fun n hn => step0 V c n hn (k0_pay1 (F := F))) (fun n hn acc => step0 V c n hn acc)
          (196 * (t / 196)) j h' := by
  subst hj
  exact outsAt0_snd_eq_accAt V c t ht h'

end Fold

section Value

variable (V : (c : Dev nD) → (b : Ref sig .tc) → Buf (Elt Ideal) ((c : Thread nD τ).loc b))

/-! ## The blocks read off the arrays -/

/-- The message window's block index at point t: (edge tile, 0). -/
theorem index0_0 (t : Fin cfg0.N) : win0_0.index t = ![t.val % 196, 0] := by
  have h1 := coords0_1 t
  show cc0_transform_0 (grid0.coords t) = _
  unfold cc0_transform_0
  dsimp only
  rw [h1]
  have e : (BitVec.ofNat 32 (t.val % 196)).toNat = t.val % 196 := by rw [BitVec.toNat_ofNat]; omega
  rw [e]; rfl

/-- The destination window's block index at point t: (edge tile). -/
theorem index0_1 (t : Fin cfg0.N) : win0_1.index t = ![t.val % 196] := by
  have h1 := coords0_1 t
  show cc0_transform_1 (grid0.coords t) = _
  unfold cc0_transform_1
  dsimp only
  rw [h1]
  have e : (BitVec.ofNat 32 (t.val % 196)).toNat = t.val % 196 := by rw [BitVec.toNat_ofNat]; omega
  rw [e]

/-- Edge e of edge tile (n mod 196), as a row of the padded edge arrays. -/
def erow (n : ℕ) (e : Fin 8192) : Fin 1605632 :=
  ⟨8192 * (n % 196) + e.val, by have := Nat.mod_lt n (by norm_num : 0 < 196); have := e.isLt; omega⟩

theorem erow_val (n : ℕ) (e : Fin 8192) : (erow n e).val = 8192 * (n % 196) + e.val := rfl

/-- The point's block of messages at (e, col) is the message array at row 8192 · (edge tile) + e. -/
theorem mblk0_apply (c : Dev nD) (t : Fin cfg0.N) (e : Fin 8192) (col : Fin 128) :
    mblk0 V c t (ix2 e col) = V c main_v11 (ix2 (erow t.val e) col) := by
  have hi := index0_0 t
  unfold mblk0 iblk0
  rw [View.read_apply]
  show V c main_v11 _ = V c main_v11 _
  congr 1
  funext a
  apply Fin.ext
  match a with
  | ⟨0, _⟩ => show win0_0.index t 0 * 8192 + 1 * e.val = 8192 * (t.val % 196) + e.val; rw [hi]; show (t.val % 196) * 8192 + 1 * e.val = _; omega
  | ⟨1, _⟩ => show win0_0.index t 1 * 128 + 1 * col.val = col.val; rw [hi]; show 0 * 128 + 1 * col.val = _; omega

/-- The point's block of destinations at e is the destination array at row 8192 · (edge tile) + e. -/
theorem dblk0_apply (c : Dev nD) (t : Fin cfg0.N) (e : Fin 8192) :
    dblk0 V c t (ix1 e) = V c main_v12 (ix1 (erow t.val e)) := by
  have hi := index0_1 t
  unfold dblk0 iblk0
  rw [View.read_apply]
  show V c main_v12 _ = V c main_v12 _
  congr 1
  funext a
  apply Fin.ext
  match a with
  | ⟨0, _⟩ => show win0_1.index t 0 * 8192 + 1 * e.val = 8192 * (t.val % 196) + e.val; rw [hi]; show (t.val % 196) * 8192 + 1 * e.val = _; omega

/-! ## One point's step, and the fold, at an index -/

/-- The arrays the region reads, at their literal types. -/
abbrev marr0 (c : Dev nD) : Vec Ideal S1605632x128 .bf16 := V c main_v11
abbrev darr0 (c : Dev nD) : Vec Ideal S1605632 .i32 := V c main_v12

/-- Point n's addend at row r of its destination tile, feature col: over the 8192 edges of its edge tile, the one-hot
    entry of the edge's destination against r times the edge's message. -/
def addend0 (c : Dev nD) (n : ℕ) (r : Fin 256) (col : Fin 128) : EReal :=
  ∑ e : Fin 8192, Cert.Spec.hot (darr0 V c (ix1 (erow n e))) (n / 196) r.val * marr0 V c (ix2 (erow n e) col)

/-- The same as a function of the accumulator's index. -/
def addendIdx0 (c : Dev nD) (n : ℕ) (y : S256x128.Idx) : EReal := addend0 V c n (y 0) (y 1)

/-- One point's step adds the point's addend. -/
theorem step0_apply (hpay1 : ∀ y : S256x128.Idx, k0_pay1 (F := Ideal) y = 0)
    (hpay2 : ∀ (i : grid0.Coords) (dst : Vec Ideal S8192 .i32) (msgs : Vec Ideal S8192x128 .bf16) (acc : Vec Ideal S256x128 .f32) (r : Fin 256) (col : Fin 128),
      k0_pay2 (F := Ideal) i dst msgs acc (ix2 r col) = acc (ix2 r col) + ∑ e : Fin 8192, Cert.Spec.hot (dst (ix1 e)) (i 0).val r.val * msgs (ix2 e col))
    (c : Dev nD) (n : ℕ) (hn : n < cfg0.N) (acc : Vec Ideal S256x128 .f32) (y : S256x128.Idx) :
    step0 V c n hn acc y = acc y + addendIdx0 V c n y := by
  obtain ⟨r, col, rfl⟩ : ∃ (r : Fin 256) (col : Fin 128), y = ix2 r col := ⟨y 0, y 1, eq_ix2 y⟩
  refine (hpay2 (grid0.coords ⟨n, hn⟩) (dblk0 V c ⟨n, hn⟩) (mblk0 V c ⟨n, hn⟩) acc r col).trans ?_
  show _ + _ = _ + addend0 V c n r col
  unfold addend0
  refine congrArg (acc (ix2 r col) + ·) (Finset.sum_congr rfl fun e _ => ?_)
  have h1 := dblk0_apply V c ⟨n, hn⟩ e
  have h2 := mblk0_apply V c ⟨n, hn⟩ e col
  have h3 := coords0_0 ⟨n, hn⟩
  rw [h1, h2, h3]

/-- The fold over the 196 points of destination tile q, at an index: the sum of the points' addends. -/
theorem acc0_apply (hpay1 : ∀ y : S256x128.Idx, k0_pay1 (F := Ideal) y = 0)
    (hpay2 : ∀ (i : grid0.Coords) (dst : Vec Ideal S8192 .i32) (msgs : Vec Ideal S8192x128 .bf16) (acc : Vec Ideal S256x128 .f32) (r : Fin 256) (col : Fin 128),
      k0_pay2 (F := Ideal) i dst msgs acc (ix2 r col) = acc (ix2 r col) + ∑ e : Fin 8192, Cert.Spec.hot (dst (ix1 e)) (i 0).val r.val * msgs (ix2 e col))
    (c : Dev nD) (q : ℕ) (h' : 196 * q + 195 < cfg0.N) (y : S256x128.Idx) :
    Pipeline.accAt (fun n hn => step0 V c n hn (k0_pay1 (F := Ideal))) (fun n hn acc => step0 V c n hn acc) (196 * q) 195 h' y
      = ∑ s : Fin 196, addendIdx0 V c (196 * q + s.val) y := by
  have h := Pipeline.accAt_add_apply (fun n hn => step0 V c n hn (k0_pay1 (F := Ideal))) (fun n hn acc => step0 V c n hn acc)
    (fun _ => (0 : EReal)) (fun n y => addendIdx0 V c n y) (196 * q) 195
    (fun hb y => by rw [step0_apply V hpay1 hpay2 c _ hb _ y, hpay1 y])
    (fun n hn acc y _ _ => step0_apply V hpay1 hpay2 c n hn acc y)
    195 (le_refl _) h' y
  rw [h, zero_add, Finset.sum_range]

/-- Within destination tile q the s-th point's edge rows are those of edge tile s. -/
theorem erow_tile (q : ℕ) (s : Fin 196) (e : Fin 8192) :
    erow (196 * q + s.val) e = (⟨8192 * s.val + e.val, by omega⟩ : Fin 1605632) :=
  Fin.ext (by rw [erow_val]; show 8192 * ((196 * q + s.val) % 196) + e.val = 8192 * s.val + e.val; omega)

/-- Row r of destination tile q, feature col: over all 196 × 8192 padded edges, the one-hot entry of the edge's
    destination against (q, r) times the edge's message. -/
def seg0 (c : Dev nD) (q r : ℕ) (col : Fin 128) : EReal :=
  ∑ j : Fin 196, ∑ e : Fin 8192,
    Cert.Spec.hot (darr0 V c (ix1 (⟨8192 * j.val + e.val, by omega⟩ : Fin 1605632))) q r
      * marr0 V c (ix2 (⟨8192 * j.val + e.val, by omega⟩ : Fin 1605632) col)

/-- The tile's 196 addends sum to it. -/
theorem sum_addend0 (c : Dev nD) (q : ℕ) (r : Fin 256) (col : Fin 128) :
    ∑ s : Fin 196, addend0 V c (196 * q + s.val) r col = seg0 V c q r.val col := by
  unfold seg0 addend0
  refine Finset.sum_congr rfl fun s _ => Finset.sum_congr rfl fun e _ => ?_
  have h1 := erow_tile q s e
  have h2 : (196 * q + s.val) / 196 = q := by omega
  rw [h1, h2]

/-! ## From blocks to the array -/

/-- The result array as one function of its index. -/
def G0 (c : Dev nD) : S50176x128.Idx → Elt Ideal .f32 :=
  fun i => seg0 V c ((i 0).val / 256) ((i 0).val % 256) (i 1)

/-- Point t's block of it, at (r, col): row r of destination tile t / 196. -/
theorem G0_blk (c : Dev nD) (t : Fin cfg0.N) (r : Fin 256) (col : Fin 128) :
    ((cfg0.win 2).blk t).view.read (Elt Ideal) (G0 V c) (ix2 r col) = seg0 V c (t.val / 196) r.val col := by
  have hi := index0_2 t
  have hq : win0_2.index t 0 = t.val / 196 := by rw [hi]; rfl
  have h1 : win0_2.index t 1 = 0 := by rw [hi]; rfl
  rw [View.read_apply]
  show seg0 V c (((((cfg0.win 2).blk t).view.emb (ix2 r col)) 0).val / 256) (((((cfg0.win 2).blk t).view.emb (ix2 r col)) 0).val % 256) ((((cfg0.win 2).blk t).view.emb (ix2 r col)) 1) = _
  have e0 : ((((cfg0.win 2).blk t).view.emb (ix2 r col)) 0).val = win0_2.index t 0 * 256 + 1 * r.val := rfl
  have e1 : (((cfg0.win 2).blk t).view.emb (ix2 r col)) 1 = col :=
    Fin.ext (by show win0_2.index t 1 * 128 + 1 * col.val = col.val; rw [h1]; omega)
  rw [e1, e0, hq]
  have a1 : (t.val / 196 * 256 + 1 * r.val) / 256 = t.val / 196 := by omega
  have a2 : (t.val / 196 * 256 + 1 * r.val) % 256 = r.val := by omega
  rw [a1, a2]

/-- What a point that writes back writes is its block of that function. -/
theorem flushed0_2_eq (hpay1 : ∀ y : S256x128.Idx, k0_pay1 (F := Ideal) y = 0)
    (hpay2 : ∀ (i : grid0.Coords) (dst : Vec Ideal S8192 .i32) (msgs : Vec Ideal S8192x128 .bf16) (acc : Vec Ideal S256x128 .f32) (r : Fin 256) (col : Fin 128),
      k0_pay2 (F := Ideal) i dst msgs acc (ix2 r col) = acc (ix2 r col) + ∑ e : Fin 8192, Cert.Spec.hot (dst (ix1 e)) (i 0).val r.val * msgs (ix2 e col))
    (c : Dev nD) (t : Fin cfg0.N) (hf : (cfg0.win 2).flush t = true) :
    (dat0 V c).flushed 2 t = ((cfg0.win 2).blk t).view.read (Elt Ideal) (G0 V c) := by
  have hN : cfg0.N = 38416 := N_0
  have ht : t.val < cfg0.N := t.isLt
  have hm : t.val % 196 = 195 := (flush0_2_iff t).mp hf
  have h' : 196 * (t.val / 196) + 195 < cfg0.N := by omega
  show (cfg0.win 2).cut (grid0.coords t) ((dat0 V c).after 2 t) = _
  rw [after0_2, outsAt0_fst_eq_snd V c t.val t.isLt, outsAt0_snd_eq_accAt_of V c t.val t.isLt 195 hm h']
  refine funext fun (y : S256x128.Idx) => ?_
  obtain ⟨r, col, rfl⟩ : ∃ (r : Fin 256) (col : Fin 128), y = ix2 r col := ⟨y 0, y 1, eq_ix2 y⟩
  refine (acc0_apply V hpay1 hpay2 c (t.val / 196) h' (ix2 r col)).trans ?_
  refine Eq.trans ?_ (G0_blk V c t r col).symm
  exact sum_addend0 V c (t.val / 196) r col

/-- Every row of the result lies in the block of the last point of its destination tile. -/
theorem cover0_2 (i : S50176x128.Idx) :
    ∃ t : Fin cfg0.N, (cfg0.win 2).flush t = true ∧ i ∈ ((cfg0.win 2).blk t).view.set := by
  have hN : cfg0.N = 38416 := N_0
  have hi0 : (i 0).val < 50176 := (i 0).isLt
  have hi1 : (i 1).val < 128 := (i 1).isLt
  have ht : 196 * ((i 0).val / 256) + 195 < cfg0.N := by omega
  have hidx := index0_2 ⟨196 * ((i 0).val / 256) + 195, ht⟩
  have hq : win0_2.index ⟨196 * ((i 0).val / 256) + 195, ht⟩ 0 = (196 * ((i 0).val / 256) + 195) / 196 := by rw [hidx]; rfl
  have h1 : win0_2.index ⟨196 * ((i 0).val / 256) + 195, ht⟩ 1 = 0 := by rw [hidx]; rfl
  refine ⟨⟨196 * ((i 0).val / 256) + 195, ht⟩, (flush0_2_iff _).mpr (by show (196 * ((i 0).val / 256) + 195) % 196 = 195; omega), ?_⟩
  show i ∈ ((View.whole main_v13).slice (win0_2.rect ⟨196 * ((i 0).val / 256) + 195, ht⟩)).set
  rw [View.set_slice_whole, Rect.mem_set_unit]
  intro a
  match a with
  | ⟨0, _⟩ =>
    show win0_2.index ⟨196 * ((i 0).val / 256) + 195, ht⟩ 0 * 256 ≤ (i 0).val ∧ (i 0).val < win0_2.index ⟨196 * ((i 0).val / 256) + 195, ht⟩ 0 * 256 + 256
    rw [hq]; omega
  | ⟨1, _⟩ =>
    show win0_2.index ⟨196 * ((i 0).val / 256) + 195, ht⟩ 1 * 128 ≤ (i 1).val ∧ (i 1).val < win0_2.index ⟨196 * ((i 0).val / 256) + 195, ht⟩ 1 * 128 + 128
    rw [h1]; omega

/-- So the output array ends holding that function. -/
theorem arr0_eq (hpay1 : ∀ y : S256x128.Idx, k0_pay1 (F := Ideal) y = 0)
    (hpay2 : ∀ (i : grid0.Coords) (dst : Vec Ideal S8192 .i32) (msgs : Vec Ideal S8192x128 .bf16) (acc : Vec Ideal S256x128 .f32) (r : Fin 256) (col : Fin 128),
      k0_pay2 (F := Ideal) i dst msgs acc (ix2 r col) = acc (ix2 r col) + ∑ e : Fin 8192, Cert.Spec.hot (dst (ix1 e)) (i 0).val r.val * msgs (ix2 e col))
    (c : Dev nD) : (dat0 V c).arrAt 2 cfg0.N = G0 V c :=
  (dat0 V c).arrAt_eq_of_cover 2 (G0 V c) (fun t hf => flushed0_2_eq V hpay1 hpay2 c t hf) cover0_2

/-- THE VALUE of region 0's output array, at the ideal values: row R, feature col holds the sum over all 196 × 8192 padded
    edges of the one-hot entry of the edge's destination against R (as tile R / 256, row R % 256) times the edge's message. -/
theorem region0_value (hpay1 : ∀ y : S256x128.Idx, k0_pay1 (F := Ideal) y = 0)
    (hpay2 : ∀ (i : grid0.Coords) (dst : Vec Ideal S8192 .i32) (msgs : Vec Ideal S8192x128 .bf16) (acc : Vec Ideal S256x128 .f32) (r : Fin 256) (col : Fin 128),
      k0_pay2 (F := Ideal) i dst msgs acc (ix2 r col) = acc (ix2 r col) + ∑ e : Fin 8192, Cert.Spec.hot (dst (ix1 e)) (i 0).val r.val * msgs (ix2 e col))
    (c : Dev nD) (R : Fin 50176) (col : Fin 128) :
    (dat0 (F := Ideal) V c).arrAt 2 cfg0.N (ix2 R col)
      = ∑ j : Fin 196, ∑ e : Fin 8192, Cert.Spec.hot (V c main_v12 (ix1 (⟨8192 * j.val + e.val, by omega⟩ : Fin 1605632))) (R.val / 256) (R.val % 256) * V c main_v11 (ix2 (⟨8192 * j.val + e.val, by omega⟩ : Fin 1605632) col) := by
  have h := congrFun (arr0_eq V hpay1 hpay2 c) (ix2 R col)
  exact h

end Value

end Cert.KernelIdeal.Hand

end
-- ==== Proof.KernelIdeal_Value1.lean ====
/-
  What region 1 (the second segment-sum call) leaves in its output array, at the ideal values: row R, feature col holds the sum over all 40 × 8192 padded edges of the one-hot entry of the edge's destination against R times the edge's message.
-/
import proofs.«405226_j38242388803875_1_alg».proof.Proof.KernelIdeal_Region1
import proofs.«405226_j38242388803875_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Pieces

open Idealize.ShloMosaic.Tactic

variable {F : FTy → Type} [FloatOps F]

/-- The literal rectangles' offsets are zero. -/
theorem hz0_r1 : (![0, 0] : Fin 2 → Nat) = fun _ => 0 := funext fun a => by fin_cases a <;> rfl
theorem hz1_r1 : (![0] : Fin 1 → Nat) = fun _ => 0 := funext fun a => by fin_cases a; rfl

/-- A load through the whole-shape rectangle of what a LAST store through it left reads that store's payload, whatever was stored before. -/
theorem readCov_cons_unit_zero_r1 {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩), View.canon_cons_unit_zero h, View.ld_unit_zero h]

/-! ## The found pieces are the payloads -/

/-- Where the reset is not taken the accumulator is left at its contents plus the point's one-hot product. -/
theorem sout1_B_eq (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond1 i)
    (x0 : Vec F S8192x128 .bf16) (x1 : Vec F S8192 .i32) (xs : Vec F S256x128 .f32) :
    sout1_B c i arg2 harg2 arg3 harg3 arg4 harg4 arg5 harg5 hc x0 x1 xs = k1_pay2 i x1 x0 xs := by
  unfold sout1_B
  rw [View.read_writes_eq_canon _ _ _ (scover1_B c i arg2 harg2 arg3 harg3 arg4 harg4 arg5 harg5 hc x0 x1 xs)]
  unfold kernelRun1_B
  dsimp only
  sl_unfold_words
  rw [View.canon_unit_zero hz0_r1]
  simp only [View.readAt_eq_ld, harg2.read_unread, harg3.read_unread, harg5.read_unread, View.ld_unit_zero (S := S256x128) hz0_r1, View.ld_unit_zero (S := S8192x128) hz0_r1, View.ld_unit_zero (S := S8192) hz1_r1, View.readCov_unit_zero (S := S256x128) _ hz0_r1]

/-- and the output's staging buffer holds a copy of it. -/
theorem out1_B_eq (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : ¬cond1 i)
    (x0 : Vec F S8192x128 .bf16) (x1 : Vec F S8192 .i32) (xs : Vec F S256x128 .f32) :
    out1_B c i arg2 harg2 arg3 harg3 arg4 harg4 arg5 harg5 hc x0 x1 xs = k1_pay2 i x1 x0 xs := by
  unfold out1_B
  rw [View.read_writes_eq_canon _ _ _ (cover1_B c i arg2 harg2 arg3 harg3 arg4 harg4 arg5 harg5 hc x0 x1 xs)]
  unfold kernelRun1_B
  dsimp only
  sl_unfold_words
  rw [View.canon_unit_zero hz0_r1]
  simp only [View.readAt_eq_ld, harg2.read_unread, harg3.read_unread, harg5.read_unread, View.ld_unit_zero (S := S256x128) hz0_r1, View.ld_unit_zero (S := S8192x128) hz0_r1, View.ld_unit_zero (S := S8192) hz1_r1, View.readCov_unit_zero (S := S256x128) _ hz0_r1]

/-- Where the reset is taken the accumulator is zeroed first: it is left at the zero fill plus the point's one-hot product. -/
theorem sout1_A_eq (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond1 i)
    (x0 : Vec F S8192x128 .bf16) (x1 : Vec F S8192 .i32) :
    sout1_A c i arg2 harg2 arg3 harg3 arg4 harg4 arg5 harg5 hc x0 x1 = k1_pay2 i x1 x0 (k1_pay1 (F := F)) := by
  unfold sout1_A
  rw [View.read_writes_eq_canon _ _ _ (scover1_A c i arg2 harg2 arg3 harg3 arg4 harg4 arg5 harg5 hc x0 x1)]
  unfold kernelRun1_A
  dsimp only
  sl_unfold_words
  rw [View.canon_cons_unit_zero (S := S256x128) hz0_r1]
  simp only [View.readAt_eq_ld, harg2.read_unread, harg3.read_unread, harg5.read_unread, View.ld_unit_zero (S := S256x128) hz0_r1, View.ld_unit_zero (S := S8192x128) hz0_r1, View.ld_unit_zero (S := S8192) hz1_r1, View.readCov_unit_zero (S := S256x128) _ hz0_r1]

/-- and the output's staging buffer holds a copy of it. -/
theorem out1_A_eq (c : Dev nD) (i : grid1.Coords) (arg2 : Memref sig .tc .vmem S8192x128 .bf16) (harg2 : arg2.IsWhole) (arg3 : Memref sig .tc .vmem S8192 .i32) (harg3 : arg3.IsWhole) (arg4 : Memref sig .tc .vmem S256x128 .f32) (harg4 : arg4.IsWhole) (arg5 : Memref sig .tc .vmem S256x128 .f32) (harg5 : arg5.IsWhole) (hc : cond1 i)
    (x0 : Vec F S8192x128 .bf16) (x1 : Vec F S8192 .i32) :
    out1_A c i arg2 harg2 arg3 harg3 arg4 harg4 arg5 harg5 hc x0 x1 = k1_pay2 i x1 x0 (k1_pay1 (F := F)) := by
  unfold out1_A
  rw [View.read_writes_eq_canon _ _ _ (cover1_A c i arg2 harg2 arg3 harg3 arg4 harg4 arg5 harg5 hc x0 x1)]
  unfold kernelRun1_A
  dsimp only
  sl_unfold_words
  rw [View.canon_unit_zero (S := S256x128) hz0_r1, readCov_cons_unit_zero_r1 (S := S256x128) _ hz0_r1]
  simp only [View.readAt_eq_ld, harg2.read_unread, harg3.read_unread, harg5.read_unread, View.ld_unit_zero (S := S256x128) hz0_r1, View.ld_unit_zero (S := S8192x128) hz0_r1, View.ld_unit_zero (S := S8192) hz1_r1, View.readCov_unit_zero (S := S256x128) _ hz0_r1]

end Pieces

section Schedule

/-! ## The schedule in closed form -/

theorem stride1_0 : grid1.stride 0 = 40 := by decide
theorem stride1_1 : grid1.stride 1 = 1 := by decide

/-- Point t works on destination tile t / 40 -/
theorem coords1_0 (t : Fin cfg1.N) : ((grid1.coords t) 0).val = t.val / 40 := by
  have hN : grid1.N = 1600 := N_1
  have ht : t.val < grid1.N := t.isLt
  show t.val / grid1.stride 0 % 40 = t.val / 40
  rw [stride1_0]
  omega

/-- and edge tile t % 40. -/
theorem coords1_1 (t : Fin cfg1.N) : ((grid1.coords t) 1).val = t.val % 40 := by
  show t.val / grid1.stride 1 % 40 = t.val % 40
  rw [stride1_1, Nat.div_one]

/-- The reset test on 32-bit words, for an edge tile below 40: it is taken at edge tile 0 only. -/
theorem cond_word_r1 : ∀ n : Nat, n < 40 →
    ((Scalar.cmpi .ne (Scalar.extui (Scalar.cmpi .eq (BitVec.ofNat 32 n) 0#32)) 0#32) = 1#1 ↔ n = 0) := by
  decide +kernel

/-- The reset is taken exactly at the first edge tile of each destination tile. -/
theorem cond1_iff (t : Fin cfg1.N) : cond1 (grid1.coords t) ↔ t.val % 40 = 0 := by
  have h := cond_word_r1 ((grid1.coords t) 1).val ((grid1.coords t) 1).isLt
  exact h.trans (by rw [coords1_1])

/-- The output window's block index at point t: (destination tile, 0). -/
theorem index1_2 (t : Fin cfg1.N) : win1_2.index t = ![t.val / 40, 0] := by
  have h0 := coords1_0 t
  have hN : grid1.N = 1600 := N_1
  have ht : t.val < grid1.N := t.isLt
  show cc1_transform_2 (grid1.coords t) = _
  unfold cc1_transform_2
  dsimp only
  rw [h0]
  have e : (BitVec.ofNat 32 (t.val / 40)).toNat = t.val / 40 := by rw [BitVec.toNat_ofNat]; omega
  rw [e]; rfl

/-- The output block is written back exactly at the last edge tile of each destination tile. -/
theorem flush1_2_iff (t : Fin cfg1.N) : (cfg1.win 2).flush t = true ↔ t.val % 40 = 39 := by
  have hN : grid1.N = 1600 := N_1
  have ht : t.val < grid1.N := t.isLt
  show win1_2.flush t = true ↔ _
  unfold Pipeline.Window.flush
  rw [show win1_2.isOut = true from rfl, Bool.true_and, Bool.or_eq_true, decide_eq_true_eq, decide_eq_true_eq]
  constructor
  · rintro (h | ⟨h, hne⟩)
    · omega
    · by_contra hc
      apply hne
      rw [index1_2 ⟨t.val + 1, h⟩, index1_2 t]
      have : (t.val + 1) / 40 = t.val / 40 := by omega
      show ![(t.val + 1) / 40, 0] = _
      rw [this]
  · intro h
    by_cases hl : t.val + 1 = grid1.N
    · exact Or.inl hl
    · have hlt : t.val + 1 < grid1.N := by omega
      refine Or.inr ⟨hlt, ?_⟩
      rw [index1_2 ⟨t.val + 1, hlt⟩, index1_2 t]
      intro e
      have e0 := congrFun e 0
      have : (t.val + 1) / 40 = t.val / 40 := e0
      omega

end Schedule

section Fold

variable {F : FTy → Type} [FloatOps F]
variable (V : (c : Dev nD) → (b : Ref sig .tc) → Buf (Elt F) ((c : Thread nD τ).loc b))

/-! ## The accumulation as a fold -/

/-- The point's block of messages and its block of destinations, at their literal types. -/
abbrev mblk1 (c : Dev nD) (t : Fin cfg1.N) : Vec F S8192x128 .bf16 := iblk1 V c 0 t
abbrev dblk1 (c : Dev nD) (t : Fin cfg1.N) : Vec F S8192 .i32 := iblk1 V c 1 t

/-- The point's step on the accumulator: add the one-hot product of the point's destinations with the point's messages. -/
abbrev step1 (c : Dev nD) (n : ℕ) (hn : n < cfg1.N) (acc : Vec F S256x128 .f32) : Vec F S256x128 .f32 :=
  k1_pay2 (grid1.coords ⟨n, hn⟩) (dblk1 V c ⟨n, hn⟩) (mblk1 V c ⟨n, hn⟩) acc

/-- After every point the output's staging buffer holds a copy of the accumulator. -/
theorem outsAt1_fst_eq_snd (c : Dev nD) (t : ℕ) (ht : t < cfg1.N) : (outsAt1 V c t ht).1 = (outsAt1 V c t ht).2 := by
  by_cases h : cond1 (grid1.coords ⟨t, ht⟩)
  · rw [outsAt1_A V c ⟨t, ht⟩ h]; dsimp only
    exact (out1_A_eq c (grid1.coords ⟨t, ht⟩) (ms1_0 ⟨t, ht⟩) (hs1_0 ⟨t, ht⟩) (ms1_1 ⟨t, ht⟩) (hs1_1 ⟨t, ht⟩) (ms1_2 ⟨t, ht⟩) (hs1_2 ⟨t, ht⟩) scM1 (Memref.isWhole_whole _) h (mblk1 V c ⟨t, ht⟩) (dblk1 V c ⟨t, ht⟩)).trans
      (sout1_A_eq c (grid1.coords ⟨t, ht⟩) (ms1_0 ⟨t, ht⟩) (hs1_0 ⟨t, ht⟩) (ms1_1 ⟨t, ht⟩) (hs1_1 ⟨t, ht⟩) (ms1_2 ⟨t, ht⟩) (hs1_2 ⟨t, ht⟩) scM1 (Memref.isWhole_whole _) h (mblk1 V c ⟨t, ht⟩) (dblk1 V c ⟨t, ht⟩)).symm
  · rw [outsAt1_B V c ⟨t, ht⟩ h]; dsimp only
    exact (out1_B_eq c (grid1.coords ⟨t, ht⟩) (ms1_0 ⟨t, ht⟩) (hs1_0 ⟨t, ht⟩) (ms1_1 ⟨t, ht⟩) (hs1_1 ⟨t, ht⟩) (ms1_2 ⟨t, ht⟩) (hs1_2 ⟨t, ht⟩) scM1 (Memref.isWhole_whole _) h (mblk1 V c ⟨t, ht⟩) (dblk1 V c ⟨t, ht⟩) (outsAt1 V c (t - 1) (Nat.lt_of_le_of_lt (Nat.sub_le _ _) ht)).2).trans
      (sout1_B_eq c (grid1.coords ⟨t, ht⟩) (ms1_0 ⟨t, ht⟩) (hs1_0 ⟨t, ht⟩) (ms1_1 ⟨t, ht⟩) (hs1_1 ⟨t, ht⟩) (ms1_2 ⟨t, ht⟩) (hs1_2 ⟨t, ht⟩) scM1 (Memref.isWhole_whole _) h (mblk1 V c ⟨t, ht⟩) (dblk1 V c ⟨t, ht⟩) (outsAt1 V c (t - 1) (Nat.lt_of_le_of_lt (Nat.sub_le _ _) ht)).2).symm

/-- The accumulator after point t is the fold over the run of points of t's destination tile up to t: the zero fill
    stepped at the tile's first point, then one step per point. -/
theorem outsAt1_snd_eq_accAt (c : Dev nD) (t : ℕ) (ht : t < cfg1.N) (h' : 40 * (t / 40) + t % 40 < cfg1.N) :
    (outsAt1 V c t ht).2
      = Pipeline.accAt (fun n hn => step1 V c n hn (k1_pay1 (F := F))) (fun n hn acc => step1 V c n hn acc)
          (40 * (t / 40)) (t % 40) h' := by
  refine Pipeline.eq_accAt_of_mod (fun n hn => (outsAt1 V c n hn).2) 40 _ _ ?_ ?_ (by norm_num) t ht h'
  · intro n h hm
    have hc : cond1 (grid1.coords ⟨n, h⟩) := (cond1_iff ⟨n, h⟩).mpr hm
    show (outsAt1 V c n h).2 = _
    rw [outsAt1_A V c ⟨n, h⟩ hc]; dsimp only
    exact sout1_A_eq c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) scM1 (Memref.isWhole_whole _) hc (mblk1 V c ⟨n, h⟩) (dblk1 V c ⟨n, h⟩)
  · intro n h hm
    have hc : ¬cond1 (grid1.coords ⟨n + 1, h⟩) := fun hc => hm ((cond1_iff ⟨n + 1, h⟩).mp hc)
    show (outsAt1 V c (n + 1) h).2 = step1 V c (n + 1) h (outsAt1 V c n (Nat.lt_of_succ_lt h)).2
    rw [outsAt1_B V c ⟨n + 1, h⟩ hc]; dsimp only
    exact sout1_B_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) hc (mblk1 V c ⟨n + 1, h⟩) (dblk1 V c ⟨n + 1, h⟩) (outsAt1 V c n (Nat.lt_of_succ_lt h)).2

/-- The same with the offset in the run named by a variable. -/
theorem outsAt1_snd_eq_accAt_of (c : Dev nD) (t : ℕ) (ht : t < cfg1.N) (j : ℕ) (hj : t % 40 = j) (h' : 40 * (t / 40) + j < cfg1.N) :
    (outsAt1 V c t ht).2
      = Pipeline.accAt (fun n hn => step1 V c n hn (k1_pay1 (F := F))) (fun n hn acc => step1 V c n hn acc)
          (40 * (t / 40)) j h' := by
  subst hj
  exact outsAt1_snd_eq_accAt V c t ht h'

end Fold

section Value

variable (V : (c : Dev nD) → (b : Ref sig .tc) → Buf (Elt Ideal) ((c : Thread nD τ).loc b))

/-! ## The blocks read off the arrays -/

/-- The message window's block index at point t: (edge tile, 0). -/
theorem index1_0 (t : Fin cfg1.N) : win1_0.index t = ![t.val % 40, 0] := by
  have h1 := coords1_1 t
  show cc1_transform_0 (grid1.coords t) = _
  unfold cc1_transform_0
  dsimp only
  rw [h1]
  have e : (BitVec.ofNat 32 (t.val % 40)).toNat = t.val % 40 := by rw [BitVec.toNat_ofNat]; omega
  rw [e]; rfl

/-- The destination window's block index at point t: (edge tile). -/
theorem index1_1 (t : Fin cfg1.N) : win1_1.index t = ![t.val % 40] := by
  have h1 := coords1_1 t
  show cc1_transform_1 (grid1.coords t) = _
  unfold cc1_transform_1
  dsimp only
  rw [h1]
  have e : (BitVec.ofNat 32 (t.val % 40)).toNat = t.val % 40 := by rw [BitVec.toNat_ofNat]; omega
  rw [e]

/-- Edge e of edge tile (n mod 40), as a row of the padded edge arrays. -/
def erow_r1 (n : ℕ) (e : Fin 8192) : Fin 327680 :=
  ⟨8192 * (n % 40) + e.val, by have := Nat.mod_lt n (by norm_num : 0 < 40); have := e.isLt; omega⟩

theorem erow_val_r1 (n : ℕ) (e : Fin 8192) : (erow_r1 n e).val = 8192 * (n % 40) + e.val := rfl

/-- The point's block of messages at (e, col) is the message array at row 8192 · (edge tile) + e. -/
theorem mblk1_apply (c : Dev nD) (t : Fin cfg1.N) (e : Fin 8192) (col : Fin 128) :
    mblk1 V c t (ix2 e col) = V c main_v25 (ix2 (erow_r1 t.val e) col) := by
  have hi := index1_0 t
  unfold mblk1 iblk1
  rw [View.read_apply]
  show V c main_v25 _ = V c main_v25 _
  congr 1
  funext a
  apply Fin.ext
  match a with
  | ⟨0, _⟩ => show win1_0.index t 0 * 8192 + 1 * e.val = 8192 * (t.val % 40) + e.val; rw [hi]; show (t.val % 40) * 8192 + 1 * e.val = _; omega
  | ⟨1, _⟩ => show win1_0.index t 1 * 128 + 1 * col.val = col.val; rw [hi]; show 0 * 128 + 1 * col.val = _; omega

/-- The point's block of destinations at e is the destination array at row 8192 · (edge tile) + e. -/
theorem dblk1_apply (c : Dev nD) (t : Fin cfg1.N) (e : Fin 8192) :
    dblk1 V c t (ix1 e) = V c main_v26 (ix1 (erow_r1 t.val e)) := by
  have hi := index1_1 t
  unfold dblk1 iblk1
  rw [View.read_apply]
  show V c main_v26 _ = V c main_v26 _
  congr 1
  funext a
  apply Fin.ext
  match a with
  | ⟨0, _⟩ => show win1_1.index t 0 * 8192 + 1 * e.val = 8192 * (t.val % 40) + e.val; rw [hi]; show (t.val % 40) * 8192 + 1 * e.val = _; omega

/-! ## One point's step, and the fold, at an index -/

/-- The arrays the region reads, at their literal types. -/
abbrev marr1 (c : Dev nD) : Vec Ideal S327680x128 .bf16 := V c main_v25
abbrev darr1 (c : Dev nD) : Vec Ideal S327680 .i32 := V c main_v26

/-- Point n's addend at row r of its destination tile, feature col: over the 8192 edges of its edge tile, the one-hot
    entry of the edge's destination against r times the edge's message. -/
def addend1 (c : Dev nD) (n : ℕ) (r : Fin 256) (col : Fin 128) : EReal :=
  ∑ e : Fin 8192, Cert.Spec.hot (darr1 V c (ix1 (erow_r1 n e))) (n / 40) r.val * marr1 V c (ix2 (erow_r1 n e) col)

/-- The same as a function of the accumulator's index. -/
def addendIdx1 (c : Dev nD) (n : ℕ) (y : S256x128.Idx) : EReal := addend1 V c n (y 0) (y 1)

/-- One point's step adds the point's addend. -/
theorem step1_apply (hpay1 : ∀ y : S256x128.Idx, k1_pay1 (F := Ideal) y = 0)
    (hpay2 : ∀ (i : grid1.Coords) (dst : Vec Ideal S8192 .i32) (msgs : Vec Ideal S8192x128 .bf16) (acc : Vec Ideal S256x128 .f32) (r : Fin 256) (col : Fin 128),
      k1_pay2 (F := Ideal) i dst msgs acc (ix2 r col) = acc (ix2 r col) + ∑ e : Fin 8192, Cert.Spec.hot (dst (ix1 e)) (i 0).val r.val * msgs (ix2 e col))
    (c : Dev nD) (n : ℕ) (hn : n < cfg1.N) (acc : Vec Ideal S256x128 .f32) (y : S256x128.Idx) :
    step1 V c n hn acc y = acc y + addendIdx1 V c n y := by
  obtain ⟨r, col, rfl⟩ : ∃ (r : Fin 256) (col : Fin 128), y = ix2 r col := ⟨y 0, y 1, eq_ix2 y⟩
  refine (hpay2 (grid1.coords ⟨n, hn⟩) (dblk1 V c ⟨n, hn⟩) (mblk1 V c ⟨n, hn⟩) acc r col).trans ?_
  show _ + _ = _ + addend1 V c n r col
  unfold addend1
  refine congrArg (acc (ix2 r col) + ·) (Finset.sum_congr rfl fun e _ => ?_)
  have h1 := dblk1_apply V c ⟨n, hn⟩ e
  have h2 := mblk1_apply V c ⟨n, hn⟩ e col
  have h3 := coords1_0 ⟨n, hn⟩
  rw [h1, h2, h3]

/-- The fold over the 40 points of destination tile q, at an index: the sum of the points' addends. -/
theorem acc1_apply (hpay1 : ∀ y : S256x128.Idx, k1_pay1 (F := Ideal) y = 0)
    (hpay2 : ∀ (i : grid1.Coords) (dst : Vec Ideal S8192 .i32) (msgs : Vec Ideal S8192x128 .bf16) (acc : Vec Ideal S256x128 .f32) (r : Fin 256) (col : Fin 128),
      k1_pay2 (F := Ideal) i dst msgs acc (ix2 r col) = acc (ix2 r col) + ∑ e : Fin 8192, Cert.Spec.hot (dst (ix1 e)) (i 0).val r.val * msgs (ix2 e col))
    (c : Dev nD) (q : ℕ) (h' : 40 * q + 39 < cfg1.N) (y : S256x128.Idx) :
    Pipeline.accAt (fun n hn => step1 V c n hn (k1_pay1 (F := Ideal))) (fun n hn acc => step1 V c n hn acc) (40 * q) 39 h' y
      = ∑ s : Fin 40, addendIdx1 V c (40 * q + s.val) y := by
  have h := Pipeline.accAt_add_apply (fun n hn => step1 V c n hn (k1_pay1 (F := Ideal))) (fun n hn acc => step1 V c n hn acc)
    (fun _ => (0 : EReal)) (fun n y => addendIdx1 V c n y) (40 * q) 39
    (fun hb y => by rw [step1_apply V hpay1 hpay2 c _ hb _ y, hpay1 y])
    (fun n hn acc y _ _ => step1_apply V hpay1 hpay2 c n hn acc y)
    39 (le_refl _) h' y
  rw [h, zero_add, Finset.sum_range]

/-- Within destination tile q the s-th point's edge rows are those of edge tile s. -/
theorem erow_tile_r1 (q : ℕ) (s : Fin 40) (e : Fin 8192) :
    erow_r1 (40 * q + s.val) e = (⟨8192 * s.val + e.val, by omega⟩ : Fin 327680) :=
  Fin.ext (by rw [erow_val_r1]; show 8192 * ((40 * q + s.val) % 40) + e.val = 8192 * s.val + e.val; omega)

/-- Row r of destination tile q, feature col: over all 40 × 8192 padded edges, the one-hot entry of the edge's
    destination against (q, r) times the edge's message. -/
def seg1 (c : Dev nD) (q r : ℕ) (col : Fin 128) : EReal :=
  ∑ j : Fin 40, ∑ e : Fin 8192,
    Cert.Spec.hot (darr1 V c (ix1 (⟨8192 * j.val + e.val, by omega⟩ : Fin 327680))) q r
      * marr1 V c (ix2 (⟨8192 * j.val + e.val, by omega⟩ : Fin 327680) col)

/-- The tile's 40 addends sum to it. -/
theorem sum_addend1 (c : Dev nD) (q : ℕ) (r : Fin 256) (col : Fin 128) :
    ∑ s : Fin 40, addend1 V c (40 * q + s.val) r col = seg1 V c q r.val col := by
  unfold seg1 addend1
  refine Finset.sum_congr rfl fun s _ => Finset.sum_congr rfl fun e _ => ?_
  have h1 := erow_tile_r1 q s e
  have h2 : (40 * q + s.val) / 40 = q := by omega
  rw [h1, h2]

/-! ## From blocks to the array -/

/-- The result array as one function of its index. -/
def G1 (c : Dev nD) : S10240x128.Idx → Elt Ideal .f32 :=
  fun i => seg1 V c ((i 0).val / 256) ((i 0).val % 256) (i 1)

/-- Point t's block of it, at (r, col): row r of destination tile t / 40. -/
theorem G1_blk (c : Dev nD) (t : Fin cfg1.N) (r : Fin 256) (col : Fin 128) :
    ((cfg1.win 2).blk t).view.read (Elt Ideal) (G1 V c) (ix2 r col) = seg1 V c (t.val / 40) r.val col := by
  have hi := index1_2 t
  have hq : win1_2.index t 0 = t.val / 40 := by rw [hi]; rfl
  have h1 : win1_2.index t 1 = 0 := by rw [hi]; rfl
  rw [View.read_apply]
  show seg1 V c (((((cfg1.win 2).blk t).view.emb (ix2 r col)) 0).val / 256) (((((cfg1.win 2).blk t).view.emb (ix2 r col)) 0).val % 256) ((((cfg1.win 2).blk t).view.emb (ix2 r col)) 1) = _
  have e0 : ((((cfg1.win 2).blk t).view.emb (ix2 r col)) 0).val = win1_2.index t 0 * 256 + 1 * r.val := rfl
  have e1 : (((cfg1.win 2).blk t).view.emb (ix2 r col)) 1 = col :=
    Fin.ext (by show win1_2.index t 1 * 128 + 1 * col.val = col.val; rw [h1]; omega)
  rw [e1, e0, hq]
  have a1 : (t.val / 40 * 256 + 1 * r.val) / 256 = t.val / 40 := by omega
  have a2 : (t.val / 40 * 256 + 1 * r.val) % 256 = r.val := by omega
  rw [a1, a2]

/-- What a point that writes back writes is its block of that function. -/
theorem flushed1_2_eq (hpay1 : ∀ y : S256x128.Idx, k1_pay1 (F := Ideal) y = 0)
    (hpay2 : ∀ (i : grid1.Coords) (dst : Vec Ideal S8192 .i32) (msgs : Vec Ideal S8192x128 .bf16) (acc : Vec Ideal S256x128 .f32) (r : Fin 256) (col : Fin 128),
      k1_pay2 (F := Ideal) i dst msgs acc (ix2 r col) = acc (ix2 r col) + ∑ e : Fin 8192, Cert.Spec.hot (dst (ix1 e)) (i 0).val r.val * msgs (ix2 e col))
    (c : Dev nD) (t : Fin cfg1.N) (hf : (cfg1.win 2).flush t = true) :
    (dat1 V c).flushed 2 t = ((cfg1.win 2).blk t).view.read (Elt Ideal) (G1 V c) := by
  have hN : cfg1.N = 1600 := N_1
  have ht : t.val < cfg1.N := t.isLt
  have hm : t.val % 40 = 39 := (flush1_2_iff t).mp hf
  have h' : 40 * (t.val / 40) + 39 < cfg1.N := by omega
  show (cfg1.win 2).cut (grid1.coords t) ((dat1 V c).after 2 t) = _
  rw [after1_2, outsAt1_fst_eq_snd V c t.val t.isLt, outsAt1_snd_eq_accAt_of V c t.val t.isLt 39 hm h']
  refine funext fun (y : S256x128.Idx) => ?_
  obtain ⟨r, col, rfl⟩ : ∃ (r : Fin 256) (col : Fin 128), y = ix2 r col := ⟨y 0, y 1, eq_ix2 y⟩
  refine (acc1_apply V hpay1 hpay2 c (t.val / 40) h' (ix2 r col)).trans ?_
  refine Eq.trans ?_ (G1_blk V c t r col).symm
  exact sum_addend1 V c (t.val / 40) r col

/-- Every row of the result lies in the block of the last point of its destination tile. -/
theorem cover1_2 (i : S10240x128.Idx) :
    ∃ t : Fin cfg1.N, (cfg1.win 2).flush t = true ∧ i ∈ ((cfg1.win 2).blk t).view.set := by
  have hN : cfg1.N = 1600 := N_1
  have hi0 : (i 0).val < 10240 := (i 0).isLt
  have hi1 : (i 1).val < 128 := (i 1).isLt
  have ht : 40 * ((i 0).val / 256) + 39 < cfg1.N := by omega
  have hidx := index1_2 ⟨40 * ((i 0).val / 256) + 39, ht⟩
  have hq : win1_2.index ⟨40 * ((i 0).val / 256) + 39, ht⟩ 0 = (40 * ((i 0).val / 256) + 39) / 40 := by rw [hidx]; rfl
  have h1 : win1_2.index ⟨40 * ((i 0).val / 256) + 39, ht⟩ 1 = 0 := by rw [hidx]; rfl
  refine ⟨⟨40 * ((i 0).val / 256) + 39, ht⟩, (flush1_2_iff _).mpr (by show (40 * ((i 0).val / 256) + 39) % 40 = 39; omega), ?_⟩
  show i ∈ ((View.whole main_v27).slice (win1_2.rect ⟨40 * ((i 0).val / 256) + 39, ht⟩)).set
  rw [View.set_slice_whole, Rect.mem_set_unit]
  intro a
  match a with
  | ⟨0, _⟩ =>
    show win1_2.index ⟨40 * ((i 0).val / 256) + 39, ht⟩ 0 * 256 ≤ (i 0).val ∧ (i 0).val < win1_2.index ⟨40 * ((i 0).val / 256) + 39, ht⟩ 0 * 256 + 256
    rw [hq]; omega
  | ⟨1, _⟩ =>
    show win1_2.index ⟨40 * ((i 0).val / 256) + 39, ht⟩ 1 * 128 ≤ (i 1).val ∧ (i 1).val < win1_2.index ⟨40 * ((i 0).val / 256) + 39, ht⟩ 1 * 128 + 128
    rw [h1]; omega

/-- So the output array ends holding that function. -/
theorem arr1_eq (hpay1 : ∀ y : S256x128.Idx, k1_pay1 (F := Ideal) y = 0)
    (hpay2 : ∀ (i : grid1.Coords) (dst : Vec Ideal S8192 .i32) (msgs : Vec Ideal S8192x128 .bf16) (acc : Vec Ideal S256x128 .f32) (r : Fin 256) (col : Fin 128),
      k1_pay2 (F := Ideal) i dst msgs acc (ix2 r col) = acc (ix2 r col) + ∑ e : Fin 8192, Cert.Spec.hot (dst (ix1 e)) (i 0).val r.val * msgs (ix2 e col))
    (c : Dev nD) : (dat1 V c).arrAt 2 cfg1.N = G1 V c :=
  (dat1 V c).arrAt_eq_of_cover 2 (G1 V c) (fun t hf => flushed1_2_eq V hpay1 hpay2 c t hf) cover1_2

/-- THE VALUE of region 1's output array, at the ideal values: row R, feature col holds the sum over all 40 × 8192 padded
    edges of the one-hot entry of the edge's destination against R (as tile R / 256, row R % 256) times the edge's message. -/
theorem region1_value (hpay1 : ∀ y : S256x128.Idx, k1_pay1 (F := Ideal) y = 0)
    (hpay2 : ∀ (i : grid1.Coords) (dst : Vec Ideal S8192 .i32) (msgs : Vec Ideal S8192x128 .bf16) (acc : Vec Ideal S256x128 .f32) (r : Fin 256) (col : Fin 128),
      k1_pay2 (F := Ideal) i dst msgs acc (ix2 r col) = acc (ix2 r col) + ∑ e : Fin 8192, Cert.Spec.hot (dst (ix1 e)) (i 0).val r.val * msgs (ix2 e col))
    (c : Dev nD) (R : Fin 10240) (col : Fin 128) :
    (dat1 (F := Ideal) V c).arrAt 2 cfg1.N (ix2 R col)
      = ∑ j : Fin 40, ∑ e : Fin 8192, Cert.Spec.hot (V c main_v26 (ix1 (⟨8192 * j.val + e.val, by omega⟩ : Fin 327680))) (R.val / 256) (R.val % 256) * V c main_v25 (ix2 (⟨8192 * j.val + e.val, by omega⟩ : Fin 327680) col) := by
  have h := congrFun (arr1_eq V hpay1 hpay2 c) (ix2 R col)
  exact h

end Value

end Cert.KernelIdeal.Hand

end
-- ==== Proof.KernelIdeal_Value.lean ====
/-
  The idealized kernel's result as the specification's function. Reading back from the last region: the linear
  layer's output is the row-by-row product of what it is handed with the weight's rows, plus the bias; what it is
  handed is the first 10000 rows of the second segment-sum's output; a segment-sum's output at a row is the double
  sum over edge tiles and a tile's edges of one-hot entry times message, which over the zero-padded lists is the
  sum of the messages of the edges whose destination is the row; the second round's messages gather rows of the
  first round's padded output at row numbers that, being in [0, 50000), name the same rows the reference reads.
-/
import proofs.«405226_j38242388803875_1_alg».proof.Proof.KernelIdeal_Frame
import proofs.«405226_j38242388803875_1_alg».proof.Proof.KernelIdeal_Value2
import proofs.«405226_j38242388803875_1_alg».proof.Proof.KernelIdeal_PayIdx
import proofs.«405226_j38242388803875_1_alg».proof.Proof.KernelIdeal_Host
import proofs.«405226_j38242388803875_1_alg».proof.Proof.Bridge
import proofs.«405226_j38242388803875_1_alg».proof.Proof.Spec
import proofs.«405226_j38242388803875_1_alg».proof.Proof.KernelIdeal_Value0
import proofs.«405226_j38242388803875_1_alg».proof.Proof.KernelIdeal_Value1

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Assembly

/-- The first segment-sum's output array at (R, col), with the body's arithmetic read at an index. -/
theorem seg0_at (V : (c : Dev nD) → (b : Ref sig .tc) → Buf (Elt Ideal) ((c : Thread nD τ).loc b)) (c : Dev nD) (R : Fin 50176) (col : Fin 128) :
    (dat0 (F := Ideal) V c).arrAt 2 cfg0.N (ix2 R col)
      = ∑ j : Fin 196, ∑ e : Fin 8192, Cert.Spec.hot (V c main_v12 (ix1 (⟨8192 * j.val + e.val, by omega⟩ : Fin 1605632))) (R.val / 256) (R.val % 256) * V c main_v11 (ix2 (⟨8192 * j.val + e.val, by omega⟩ : Fin 1605632) col) :=
  region0_value V k0_pay1_apply k0_pay2_apply c R col

/-- The second segment-sum's output array at (R, col). -/
theorem seg1_at (V : (c : Dev nD) → (b : Ref sig .tc) → Buf (Elt Ideal) ((c : Thread nD τ).loc b)) (c : Dev nD) (R : Fin 10240) (col : Fin 128) :
    (dat1 (F := Ideal) V c).arrAt 2 cfg1.N (ix2 R col)
      = ∑ j : Fin 40, ∑ e : Fin 8192, Cert.Spec.hot (V c main_v26 (ix1 (⟨8192 * j.val + e.val, by omega⟩ : Fin 327680))) (R.val / 256) (R.val % 256) * V c main_v25 (ix2 (⟨8192 * j.val + e.val, by omega⟩ : Fin 327680) col) :=
  region1_value V k1_pay1_apply k1_pay2_apply c R col

variable (m : (ℓ : Loc nD τ sig) → Buf (Elt Ideal) ℓ) (ρ : Dev nD → PrngReg) (c : Dev nD)

/-- The argument arrays, as the specification takes them. -/
abbrev aX : FVec Ideal ⟨2, ![100000, 128]⟩ .f32 := m ((c : Thread nD τ).loc main_arg0)
abbrev aEW1 : FVec Ideal ⟨1, ![1600000]⟩ .f32 := m ((c : Thread nD τ).loc main_arg1)
abbrev aEW2 : FVec Ideal ⟨1, ![320000]⟩ .f32 := m ((c : Thread nD τ).loc main_arg2)
abbrev aW : FVec Ideal ⟨2, ![128, 128]⟩ .f32 := m ((c : Thread nD τ).loc main_arg3)
abbrev aB : FVec Ideal ⟨1, ![128]⟩ .f32 := m ((c : Thread nD τ).loc main_arg4)
abbrev aS1 : IVec ⟨1, ![1600000]⟩ 32 := m ((c : Thread nD τ).loc main_arg5)
abbrev aD1 : IVec ⟨1, ![1600000]⟩ 32 := m ((c : Thread nD τ).loc main_arg6)
abbrev aS2 : IVec ⟨1, ![320000]⟩ 32 := m ((c : Thread nD τ).loc main_arg7)
abbrev aD2 : IVec ⟨1, ![320000]⟩ 32 := m ((c : Thread nD τ).loc main_arg8)

/-- ROUND 1 in the kernel: the first segment-sum's output at a row R below 50000 is the specification's first-round row. -/
theorem round1_value (R : Fin 50176) (hR : R.val < 50000) (col : Fin 128) :
    W5 m ρ c (Proc.devRef .tc main_v13) (ix2 R col)
      = Cert.Spec.H1 (aX m c) (aEW1 m c) (aS1 m c) (aD1 m c) ⟨R.val, hR⟩ col := by
  rw [show W5 m ρ c (Proc.devRef .tc main_v13) = (dat0 (E0 m ρ) c).arrAt 2 cfg0.N from W5_arr m ρ c 2]
  rw [seg0_at (E0 m ρ) c R col]
  have hterm : ∀ (j : Fin 196) (e : Fin 8192),
      Cert.Spec.hot (E0 m ρ c main_v12 (ix1 (⟨8192 * j.val + e.val, by omega⟩ : Fin 1605632))) (R.val / 256) (R.val % 256) * E0 m ρ c main_v11 (ix2 (⟨8192 * j.val + e.val, by omega⟩ : Fin 1605632) col)
        = Cert.Spec.hot (if h : 8192 * j.val + e.val < 1600000 then (fun e' : Fin 1600000 => aD1 m c (ix1 e')) ⟨8192 * j.val + e.val, h⟩ else 0#32) (R.val / 256) (R.val % 256)
            * (if h : 8192 * j.val + e.val < 1600000 then (fun e' : Fin 1600000 => Cert.Spec.M1 (aX m c) (aEW1 m c) (aS1 m c) e' col) ⟨8192 * j.val + e.val, h⟩ else 0) := by
    intro j e
    rw [show E0 m ρ c main_v12 (ix1 (⟨8192 * j.val + e.val, by omega⟩ : Fin 1605632)) = _ from aft0_v12 (W0 m ρ c) _,
        show E0 m ρ c main_v11 (ix2 (⟨8192 * j.val + e.val, by omega⟩ : Fin 1605632) col) = _ from aft0_v11 (W0 m ρ c) _ col]
  rw [Finset.sum_congr rfl fun j _ => Finset.sum_congr rfl fun e _ => hterm j e]
  rw [Cert.Spec.padded_onehot_sum 196 1600000 (by decide) (fun e' : Fin 1600000 => aD1 m c (ix1 e')) (fun e' : Fin 1600000 => Cert.Spec.M1 (aX m c) (aEW1 m c) (aS1 m c) e' col) R.val (by omega)]
  rfl

/-- ROUND 2 in the kernel: where every second-round source row number is in [0, 50000), the second segment-sum's
    output at a row R below 10000 is the specification's second-round row. -/
theorem round2_value (hsrc : ∀ e : Fin 320000, 0 ≤ (aS2 m c (ix1 e)).toInt ∧ (aS2 m c (ix1 e)).toInt < 50000)
    (R : Fin 10240) (hR : R.val < 10000) (col : Fin 128) :
    W10 m ρ c (Proc.devRef .tc main_v27) (ix2 R col)
      = Cert.Spec.H2 (aX m c) (aEW1 m c) (aEW2 m c) (aS1 m c) (aD1 m c) (aS2 m c) (aD2 m c) ⟨R.val, hR⟩ col := by
  rw [show W10 m ρ c (Proc.devRef .tc main_v27) = (dat1 (E1 m ρ) c).arrAt 2 cfg1.N from W10_arr m ρ c 2]
  rw [seg1_at (E1 m ρ) c R col]
  have h7 : W5 m ρ c (Proc.devRef .tc main_arg7) = m ((c : Thread nD τ).loc main_arg7) :=
    W5_of_untouched m ρ c main_arg7 (by decide) (by decide) (by decide) (by decide) (by decide)
  have h2 : W5 m ρ c (Proc.devRef .tc main_arg2) = m ((c : Thread nD τ).loc main_arg2) :=
    W5_of_untouched m ρ c main_arg2 (by decide) (by decide) (by decide) (by decide) (by decide)
  have h8 : W5 m ρ c (Proc.devRef .tc main_arg8) = m ((c : Thread nD τ).loc main_arg8) :=
    W5_of_untouched m ρ c main_arg8 (by decide) (by decide) (by decide) (by decide) (by decide)
  have hterm : ∀ (j : Fin 40) (e : Fin 8192),
      Cert.Spec.hot (E1 m ρ c main_v26 (ix1 (⟨8192 * j.val + e.val, by omega⟩ : Fin 327680))) (R.val / 256) (R.val % 256) * E1 m ρ c main_v25 (ix2 (⟨8192 * j.val + e.val, by omega⟩ : Fin 327680) col)
        = Cert.Spec.hot (if h : 8192 * j.val + e.val < 320000 then (fun e' : Fin 320000 => aD2 m c (ix1 e')) ⟨8192 * j.val + e.val, h⟩ else 0#32) (R.val / 256) (R.val % 256)
            * (if h : 8192 * j.val + e.val < 320000 then (fun e' : Fin 320000 => Cert.Spec.M2 (aX m c) (aEW1 m c) (aEW2 m c) (aS1 m c) (aD1 m c) (aS2 m c) e' col) ⟨8192 * j.val + e.val, h⟩ else 0) := by
    intro j e
    rw [show E1 m ρ c main_v26 (ix1 (⟨8192 * j.val + e.val, by omega⟩ : Fin 327680)) = _ from aft1_v26 (W5 m ρ c) _,
        show E1 m ρ c main_v25 (ix2 (⟨8192 * j.val + e.val, by omega⟩ : Fin 327680) col) = _ from aft1_v25 (W5 m ρ c) _ col]
    rw [h7, h2, h8]
    by_cases hlt : 8192 * j.val + e.val < 320000
    · simp only [dif_pos hlt]
      have hs := hsrc ⟨8192 * j.val + e.val, hlt⟩
      have hr1 := round1_value m ρ c (Cert.Spec.row 50176 (by decide) (aS2 m c (ix1 (⟨8192 * j.val + e.val, hlt⟩ : Fin 320000))))
        (Cert.Spec.row_val_lt_of_range 50000 50176 (by decide) (by decide) _ hs.1 hs.2) col
      refine congrArg _ ?_
      show rowMsg (N := 50176) (by decide) (W5 m ρ c (Proc.devRef .tc main_v13)) (m ((c : Thread nD τ).loc main_arg2)) (m ((c : Thread nD τ).loc main_arg7)) (⟨8192 * j.val + e.val, hlt⟩ : Fin 320000) col
          = Cert.Spec.M2 (aX m c) (aEW1 m c) (aEW2 m c) (aS1 m c) (aD1 m c) (aS2 m c) (⟨8192 * j.val + e.val, hlt⟩ : Fin 320000) col
      refine (congrArg (· * aEW2 m c (ix1 (⟨8192 * j.val + e.val, hlt⟩ : Fin 320000))) hr1).trans ?_
      unfold Cert.Spec.M2
      exact congrArg (fun r => Cert.Spec.H1 (aX m c) (aEW1 m c) (aS1 m c) (aD1 m c) r col * aEW2 m c (ix1 (⟨8192 * j.val + e.val, hlt⟩ : Fin 320000)))
        (Fin.ext (Cert.Spec.row_50176_eq_row_50000 _ hs.1 hs.2))
    · simp only [dif_neg hlt]
  rw [Finset.sum_congr rfl fun j _ => Finset.sum_congr rfl fun e _ => hterm j e]
  rw [Cert.Spec.padded_onehot_sum 40 320000 (by decide) (fun e' : Fin 320000 => aD2 m c (ix1 e')) (fun e' : Fin 320000 => Cert.Spec.M2 (aX m c) (aEW1 m c) (aEW2 m c) (aS1 m c) (aD1 m c) (aS2 m c) e' col) R.val (by omega)]
  rfl

/-- THE KERNEL'S RESULT: where every second-round source row number is in [0, 50000), what the linear layer's region
    leaves in its output array is the specification's function of the argument arrays, index by index. -/
theorem kernel_value (hsrc : ∀ e : Fin 320000, 0 ≤ (aS2 m c (ix1 e)).toInt ∧ (aS2 m c (ix1 e)).toInt < 50000)
    (n : Fin 10000) (col : Fin 128) :
    (dat2 (F := Ideal) (E2 m ρ) c).arrAt 3 cfg2.N (ix2 n col)
      = Cert.Spec.G (aX m c) (aEW1 m c) (aEW2 m c) (aW m c) (aB m c) (aS1 m c) (aD1 m c) (aS2 m c) (aD2 m c) n col := by
  rw [final2 (E2 m ρ) c, k2_pay1_apply]
  have hW : E2 m ρ c main_arg3 = aW m c :=
    W11_of_untouched m ρ c main_arg3 (by decide) (by decide) (by decide) (by decide) (by decide) (by decide) (by decide) (by decide) (by decide) (by decide) (by decide)
  have hB : E2 m ρ c main_arg4 = aB m c :=
    W11_of_untouched m ρ c main_arg4 (by decide) (by decide) (by decide) (by decide) (by decide) (by decide) (by decide) (by decide) (by decide) (by decide) (by decide)
  have hH : ∀ k : Fin 128, E2 m ρ c main_v28 (ix2 n k)
      = Cert.Spec.H2 (aX m c) (aEW1 m c) (aEW2 m c) (aS1 m c) (aD1 m c) (aS2 m c) (aD2 m c) n k := fun k => by
    refine (aft2_v28 (W10 m ρ c) n k).trans ?_
    exact round2_value m ρ c hsrc ⟨n.val, by omega⟩ n.isLt k
  unfold Cert.Spec.G
  rw [hW, hB]
  simp only [hH]

end Assembly

end Cert.KernelIdeal.Hand

end
-- ==== Proof.ReferenceIdeal_Value.lean ====
/-
  The reference at the ideal values: its run's result, read one host operation at a time, is the specification's
  function of the argument arrays (Cert.Spec.G), index by index.

  The chain, innermost first. A row number s is wrapped (a negative one has the table's height added) by a signed
  comparison with zero, an addition and a selection: that is Cert.Spec.wrap. The row gather then reads the table at the
  wrapped number clamped into the table: Cert.Spec.row. A message is the gathered entry times the edge's weight (the
  weight list broadcast along the feature axis): M1, M2. A scatter-add into the zero array sums, at row n, the messages
  of the edges whose destination word reads n: H1, H2. The contraction of H2's row n with the transposed weights is
  the sum over k of H2 n k · Wt col k, and the bias row is broadcast over the rows: G.
-/
import proofs.«405226_j38242388803875_1_alg».proof.Defs
import proofs.«405226_j38242388803875_1_alg».proof.Proof.Gen.ReferenceIdeal.Run
import proofs.«405226_j38242388803875_1_alg».proof.Proof.Gen.ReferenceIdeal.Read
import proofs.«405226_j38242388803875_1_alg».proof.Proof.LibRows
import proofs.«405226_j38242388803875_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read

/-! ## The wrapped row number -/

/-- Selecting s + n where s is negative (signed comparison with zero) and s otherwise is the wrapped row number. -/
theorem select_wrap (n : ℕ) (s : BitVec 32) :
    Scalar.select (IntOp.cmpi .slt s 0#32) (IntOp.addi s (BitVec.ofNat 32 n)) s = Cert.Spec.wrap n s := by
  unfold Scalar.select IntOp.cmpi IntOp.addi Cert.Spec.wrap
  cases h : s.slt 0#32 <;> simp

/-! ## Round 1 -/

section round1
variable (X : FVec Ideal S100000x128 .f32) (EW1 : FVec Ideal S1600000 .f32) (S1 D1 : IVec S1600000 32)

/-- The column of wrapped source rows, at edge e. -/
theorem v5_at (e : Fin 1600000) :
    val_main_v5 (F := Ideal) S1 (ix2 e (0 : Fin 1)) = Cert.Spec.wrap 100000 (S1 (ix1 e)) := by
  have hi : idx_main_v5 (ix2 e (0 : Fin 1)) = ix1 e := by
    funext a; match a with | ⟨0, _⟩ => rfl
  rw [val_main_v5_apply, hi, val_main_v4_apply, val_main_v1_apply, val_main_v3_apply, val_main_v0_apply,
    val_main_v2_apply, val_main_c_apply, val_main_c_0_apply]
  exact select_wrap 100000 (S1 (ix1 e))

/-- The gathered source row, at edge e and feature k. -/
theorem v6_at (e : Fin 1600000) (k : Fin 128) :
    val_main_v6 (F := Ideal) X S1 (ix2 e k)
      = X (ix2 (Cert.Spec.row 100000 (by decide) (S1 (ix1 e))) k) := by
  unfold val_main_v6
  refine (rowGather_apply (N := 100000) (E := 1600000) (C := 128) (by decide) _ X
    (val_main_v5 (F := Ideal) S1) e k).trans ?_
  refine congrArg (fun r : Fin 100000 => X (ix2 r k)) (Fin.ext ?_)
  show min (val_main_v5 (F := Ideal) S1 (ix2 e (0 : Fin 1))).toInt.toNat (100000 - 1)
    = min (Cert.Spec.wrap 100000 (S1 (ix1 e))).toInt.toNat (100000 - 1)
  rw [v5_at]

/-- The edge weight broadcast along the features, at edge e and feature k. -/
theorem v8_at (e : Fin 1600000) (k : Fin 128) :
    val_main_v8 (F := Ideal) EW1 (ix2 e k) = EW1 (ix1 e) := by
  rw [val_main_v8_apply, val_main_v7_apply]
  refine congrArg EW1 ?_
  funext a; match a with | ⟨0, _⟩ => rfl

/-- Round 1's message. -/
theorem v9_at (e : Fin 1600000) (k : Fin 128) :
    val_main_v9 (F := Ideal) X EW1 S1 (ix2 e k) = Cert.Spec.M1 X EW1 S1 e k := by
  unfold val_main_v9 Cert.Spec.M1
  rw [mulf_apply, v6_at, v8_at]

/-- The zero array round 1 accumulates into. -/
theorem v10_at (r : Fin 50000) (k : Fin 128) : val_main_v10 (F := Ideal) (ix2 r k) = 0 := by
  rw [val_main_v10_apply, val_main_cst_apply]
  exact Ideal.ofBits_zero_f32

/-- The column of destination words, at edge e. -/
theorem v11_at (e : Fin 1600000) :
    val_main_v11 (F := Ideal) D1 (ix2 e (0 : Fin 1)) = D1 (ix1 e) := by
  rw [val_main_v11_apply]
  refine congrArg D1 ?_
  funext a; match a with | ⟨0, _⟩ => rfl

/-- Round 1's result: at row r, the sum of the messages of the edges whose destination word reads r. -/
theorem v12_at (r : Fin 50000) (k : Fin 128) :
    val_main_v12 (F := Ideal) X EW1 S1 D1 (ix2 r k) = Cert.Spec.H1 X EW1 S1 D1 r k := by
  unfold val_main_v12
  refine (rowScatterAdd_apply (N := 50000) (E := 1600000) (C := 128) _ (val_main_v10 (F := Ideal))
    (val_main_v11 (F := Ideal) D1) (val_main_v9 (F := Ideal) X EW1 S1) r k).trans ?_
  rw [v10_at, zero_add]
  unfold Cert.Spec.H1
  refine Finset.sum_congr (Finset.filter_congr fun e _ => by rw [v11_at]) (fun e _ => v9_at X EW1 S1 e k)

end round1

/-! ## Round 2 -/

section round2
variable (X : FVec Ideal S100000x128 .f32) (EW1 : FVec Ideal S1600000 .f32) (EW2 : FVec Ideal S320000 .f32)
  (S1 D1 : IVec S1600000 32) (S2 D2 : IVec S320000 32)

/-- The column of wrapped source rows, at edge e. -/
theorem v18_at (e : Fin 320000) :
    val_main_v18 (F := Ideal) S2 (ix2 e (0 : Fin 1)) = Cert.Spec.wrap 50000 (S2 (ix1 e)) := by
  have hi : idx_main_v18 (ix2 e (0 : Fin 1)) = ix1 e := by
    funext a; match a with | ⟨0, _⟩ => rfl
  rw [val_main_v18_apply, hi, val_main_v17_apply, val_main_v14_apply, val_main_v16_apply, val_main_v13_apply,
    val_main_v15_apply, val_main_c_1_apply, val_main_c_2_apply]
  exact select_wrap 50000 (S2 (ix1 e))

/-- The gathered row of round 1's result, at edge e and feature k. -/
theorem v19_at (e : Fin 320000) (k : Fin 128) :
    val_main_v19 (F := Ideal) X EW1 S1 D1 S2 (ix2 e k)
      = Cert.Spec.H1 X EW1 S1 D1 (Cert.Spec.row 50000 (by decide) (S2 (ix1 e))) k := by
  unfold val_main_v19
  refine (rowGather_apply (N := 50000) (E := 320000) (C := 128) (by decide) _
    (val_main_v12 (F := Ideal) X EW1 S1 D1) (val_main_v18 (F := Ideal) S2) e k).trans ?_
  refine (congrArg (fun r : Fin 50000 => val_main_v12 (F := Ideal) X EW1 S1 D1 (ix2 r k)) (Fin.ext ?_)).trans
    (v12_at X EW1 S1 D1 (Cert.Spec.row 50000 (by decide) (S2 (ix1 e))) k)
  show min (val_main_v18 (F := Ideal) S2 (ix2 e (0 : Fin 1))).toInt.toNat (50000 - 1)
    = min (Cert.Spec.wrap 50000 (S2 (ix1 e))).toInt.toNat (50000 - 1)
  rw [v18_at]

/-- The edge weight broadcast along the features, at edge e and feature k. -/
theorem v21_at (e : Fin 320000) (k : Fin 128) :
    val_main_v21 (F := Ideal) EW2 (ix2 e k) = EW2 (ix1 e) := by
  rw [val_main_v21_apply, val_main_v20_apply]
  refine congrArg EW2 ?_
  funext a; match a with | ⟨0, _⟩ => rfl

/-- Round 2's message. -/
theorem v22_at (e : Fin 320000) (k : Fin 128) :
    val_main_v22 (F := Ideal) X EW1 EW2 S1 D1 S2 (ix2 e k) = Cert.Spec.M2 X EW1 EW2 S1 D1 S2 e k := by
  unfold val_main_v22 Cert.Spec.M2
  rw [mulf_apply, v19_at, v21_at]

/-- The zero array round 2 accumulates into. -/
theorem v23_at (n : Fin 10000) (k : Fin 128) : val_main_v23 (F := Ideal) (ix2 n k) = 0 := by
  rw [val_main_v23_apply, val_main_cst_3_apply]
  exact Ideal.ofBits_zero_f32

/-- The column of destination words, at edge e. -/
theorem v24_at (e : Fin 320000) :
    val_main_v24 (F := Ideal) D2 (ix2 e (0 : Fin 1)) = D2 (ix1 e) := by
  rw [val_main_v24_apply]
  refine congrArg D2 ?_
  funext a; match a with | ⟨0, _⟩ => rfl

/-- Round 2's result: at row n, the sum of the messages of the edges whose destination word reads n. -/
theorem v25_at (n : Fin 10000) (k : Fin 128) :
    val_main_v25 (F := Ideal) X EW1 EW2 S1 D1 S2 D2 (ix2 n k) = Cert.Spec.H2 X EW1 EW2 S1 D1 S2 D2 n k := by
  unfold val_main_v25
  refine (rowScatterAdd_apply (N := 10000) (E := 320000) (C := 128) _ (val_main_v23 (F := Ideal))
    (val_main_v24 (F := Ideal) D2) (val_main_v22 (F := Ideal) X EW1 EW2 S1 D1 S2) n k).trans ?_
  rw [v23_at, zero_add]
  unfold Cert.Spec.H2
  refine Finset.sum_congr (Finset.filter_congr fun e _ => by rw [v24_at])
    (fun e _ => v22_at X EW1 EW2 S1 D1 S2 e k)

end round2

/-! ## The linear layer and the whole reference -/

section whole
variable (X : FVec Ideal S100000x128 .f32) (EW1 : FVec Ideal S1600000 .f32) (EW2 : FVec Ideal S320000 .f32)
  (Wt : FVec Ideal S128x128 .f32) (B : FVec Ideal S128 .f32)
  (S1 D1 : IVec S1600000 32) (S2 D2 : IVec S320000 32)

/-- The transposed weights, at (k, col): the weights at (col, k). -/
theorem v26_at (k col : Fin 128) : val_main_v26 (F := Ideal) Wt (ix2 k col) = Wt (ix2 col k) := by
  rw [val_main_v26_apply]
  refine congrArg Wt ?_
  funext a; match a with | ⟨0, _⟩ => rfl | ⟨1, _⟩ => rfl

/-- The contraction: row n of round 2's result against column col of the transposed weights. -/
theorem v27_at (n : Fin 10000) (col : Fin 128) :
    val_main_v27 (F := Ideal) X EW1 EW2 Wt S1 D1 S2 D2 (ix2 n col)
      = ∑ k : Fin 128, Cert.Spec.H2 X EW1 EW2 S1 D1 S2 D2 n k * Wt (ix2 col k) := by
  rw [val_main_v27_apply]
  refine Finset.sum_congr rfl fun k _ => ?_
  have hl : lidx_main_v27 (ix2 n col) k = ix2 n k := by
    funext a; match a with | ⟨0, _⟩ => rfl | ⟨1, _⟩ => rfl
  have hr : ridx_main_v27 (ix2 n col) k = ix2 k col := by
    funext a; match a with | ⟨0, _⟩ => rfl | ⟨1, _⟩ => rfl
  rw [hl, hr, v25_at, v26_at]

/-- The bias row broadcast over the rows, at (n, col). -/
theorem v29_at (n : Fin 10000) (col : Fin 128) : val_main_v29 (F := Ideal) B (ix2 n col) = B (ix1 col) := by
  rw [val_main_v29_apply, val_main_v28_apply]
  refine congrArg B ?_
  funext a; match a with | ⟨0, _⟩ => rfl

/-- The reference's result buffer as one term of the nine argument arrays. -/
def refTerm : FVec Ideal S10000x128 .f32 :=
  val_main_v30 (F := Ideal) X EW1 EW2 Wt B S1 D1 S2 D2

/-- THE REFERENCE IS THE SPECIFICATION, index by index. -/
theorem ref_value (n : Fin 10000) (col : Fin 128) :
    refTerm X EW1 EW2 Wt B S1 D1 S2 D2 (ix2 n col) = Cert.Spec.G X EW1 EW2 Wt B S1 D1 S2 D2 n col := by
  unfold refTerm val_main_v30 Cert.Spec.G
  rw [addf_apply, v27_at, v29_at]

end whole

/-! ## The run -/

section run
open Cert.ReferenceIdeal.Gen Idealize.ShloMosaic.TcCoe Idealize.SL.Sem Idealize.ShloMosaic.StableHlo

/-- On every device, from any memory with zero counters, the reference terminates with its result buffer at refTerm of
    the argument arrays' launch contents, the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun _ h c => ⟨(h c).1.trans (val_main_v30_eq _ _ _ _ _ _ _ _ _), (h c).2⟩)
    (Cert.ReferenceIdeal.Value.run (F := Ideal) m ρ)

end run

end Cert.ReferenceIdeal.RefValue

end
-- ==== Proof.PreDecode.lean ====
/-
  The precondition read: where the printed predicate is all ones, every second-round source row number, read as a
  signed 32-bit word, lies in [0, 50000) — it is a row of the first round's result.
-/
import proofs.«405226_j38242388803875_1_alg».proof.Defs
import proofs.«405226_j38242388803875_1_alg».proof.Proof.Gen.Pre_finite_inputs
import Idealize.ShloMosaic.Lib.ReduceAll
import Idealize.ShloMosaic.Lib.StableHlo.Predicate
import Idealize.ShloMosaic.Lib.ValueIdx

noncomputable section

namespace Cert.Proof

open Idealize.ShloMosaic Idealize.ShloMosaic.ValueIdx

instance subsingleton_S_ : Subsingleton Cert.Pre_finite_inputs.S_.Idx := ⟨fun a b => funext fun d => d.elim0⟩

theorem src2_range_of_fn (a0 : FVec Ideal Cert.Pre_finite_inputs.S100000x128 .f32) (a1 : FVec Ideal Cert.Pre_finite_inputs.S1600000 .f32) (a2 : FVec Ideal Cert.Pre_finite_inputs.S320000 .f32)
    (a3 : FVec Ideal Cert.Pre_finite_inputs.S128x128 .f32) (a4 : FVec Ideal Cert.Pre_finite_inputs.S128 .f32) (a5 a6 : IVec Cert.Pre_finite_inputs.S1600000 32) (a7 a8 : IVec Cert.Pre_finite_inputs.S320000 32)
    (h : Cert.Pre_finite_inputs.fn (F := Ideal) a0 a1 a2 a3 a4 a5 a6 a7 a8 = fun _ => 1#1) (e : Fin 320000) :
    0 ≤ (a7 (ix1 e)).toInt ∧ (a7 (ix1 e)).toInt < 50000 := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 (ix1 e)
  obtain ⟨hge, hlt⟩ := IntOp.andi_eq_one.1 h2
  change IntOp.cmpi .sge (a7 (ix1 e)) 0#32 = 1#1 at hge
  change IntOp.cmpi .slt (a7 (ix1 e)) 50000#32 = 1#1 at hlt
  unfold IntOp.cmpi at hge hlt
  rw [StableHlo.Predicate.ofBool_eq_one_iff] at hge hlt
  have h0' : (0#32 : BitVec 32).toInt ≤ (a7 (ix1 e)).toInt := BitVec.sle_iff_toInt_le.mp hge
  have h1' : (a7 (ix1 e)).toInt < (50000#32 : BitVec 32).toInt := BitVec.slt_iff_toInt_lt.mp hlt
  have z : (0#32 : BitVec 32).toInt = 0 := by decide
  have k : (50000#32 : BitVec 32).toInt = 50000 := by decide
  omega

end Cert.Proof

end
-- ==== Proof.lean ====
/-
  The claim: the kernel program and its idealization run to the end, fault nowhere and leave their arguments
  unchanged (their @main is three pallas_calls among host operations: each call's body obligation, with the
  segment-sum calls' accumulator carried in the invariant, composed along @main); so does the reference (its run
  with the result dropped); the idealization rewrote nothing; and at the ideal values, where the second round's
  source rows are rows of the first round's result, both programs end with the same array: two rounds of
  "scale the source row by the edge weight and add it to the destination row", then the linear layer.
-/
import proofs.«405226_j38242388803875_1_alg».proof.Defs
import proofs.«405226_j38242388803875_1_alg».proof.Proof.Gen.Kernel
import proofs.«405226_j38242388803875_1_alg».proof.Proof.Gen.KernelIdeal
import proofs.«405226_j38242388803875_1_alg».proof.Proof.Gen.ReferenceIdeal
import proofs.«405226_j38242388803875_1_alg».proof.Proof.Gen.Pre_finite_inputs
import proofs.«405226_j38242388803875_1_alg».proof.Proof.Gen.ReferenceIdeal.Run
import proofs.«405226_j38242388803875_1_alg».proof.Proof.Kernel_Frame
import proofs.«405226_j38242388803875_1_alg».proof.Proof.KernelIdeal_Frame
import proofs.«405226_j38242388803875_1_alg».proof.Proof.KernelIdeal_Value
import proofs.«405226_j38242388803875_1_alg».proof.Proof.ReferenceIdeal_Value
import proofs.«405226_j38242388803875_1_alg».proof.Proof.PreDecode
import Idealize.ShloMosaic.Adequacy
import Idealize.ShloMosaic.Init

noncomputable section

namespace Cert.Proof

open Idealize.ShloMosaic Idealize.ShloMosaic.ValueIdx Idealize.SL.Sem

theorem frame_p : Cert.frame_Kernel (hKernel := Cert.Kernel.Gen.facts) (hPre_finite_inputs := Cert.Pre_finite_inputs.Gen.facts) :=
  fun m ρ _ => Cert.Kernel.Hand.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs, run from memories that agree on the arguments, end with one array: the kernel's last
    region leaves the specification's function of the arguments in its output array, the reference's run ends at a
    term that is the same function, and the precondition supplies the one fact the two need to meet: the second
    round's source row numbers are rows of the first round's result. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => (Cert.KernelIdeal.Hand.dat2 (F := Ideal) (Cert.KernelIdeal.Hand.E2 m ρ) c).arrAt 3 Cert.KernelIdeal.cfg2.N,
    Cert.KernelIdeal.Hand.run_named (F := Ideal) m ρ, ?_⟩
  refine (θ_run Cert.ReferenceIdeal.defs _ _).mono (fun r h c => ⟨(h c).1.trans ?_, (h c).2⟩)
    (Cert.ReferenceIdeal.RefValue.ref_run m' ρ')
  obtain ⟨a0, a1, a2, a3, a4, a5, a6, a7, a8⟩ := hagree c
  rw [a0, a1, a2, a3, a4, a5, a6, a7, a8]
  funext i
  obtain ⟨n, col, rfl⟩ : ∃ (n : Fin 10000) (col : Fin 128), i = ix2 n col := ⟨i 0, i 1, eq_ix2 i⟩
  rw [Cert.ReferenceIdeal.RefValue.ref_value]
  exact (Cert.KernelIdeal.Hand.kernel_value m ρ c
    (fun e => Cert.Proof.src2_range_of_fn _ _ _ _ _ _ _ _ _ (hpre c) e) n col).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
